-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v18_0)) (v2 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part2 {F : FTy → Type} [FloatOps F] (main_arg2 : IVec S262144 32) (main_arg3 : IVec S262144 32) (main_v32 : IVec S_ 1) (main_c_12 : IVec S_ 32) : IVec S_ 1 :=
  let main_v33 : IVec S262144 32 := broadcastInDim S262144 ![] bcast_S_S262144 main_c_12
  let main_v34 : IVec S262144 1 := cmpi .slt main_arg2 main_v33
  let main_c_13 : IVec S_ 1 := constantI S_ 1 1#1
  let main_v35 : IVec S_ 1 := (fun x v => Host.reduce IntOp.andi x v reducesTo_S262144_S_d0 h_S_) main_v34 main_c_13
  let main_v36 : IVec S_ 1 := andi main_v32 main_v35
  let main_c_14 : IVec S_ 32 := constantI S_ 32 0#32
  let main_v37 : IVec S262144 32 := broadcastInDim S262144 ![] bcast_S_S262144 main_c_14
  let main_v38 : IVec S262144 1 := cmpi .sge main_arg3 main_v37
  let main_c_15 : IVec S_ 1 := constantI S_ 1 1#1
  let main_v39 : IVec S_ 1 := (fun x v => Host.reduce IntOp.andi x v reducesTo_S262144_S_d0 h_S_) main_v38 main_c_15
  let main_v40 : IVec S_ 1 := andi main_v36 main_v39
  let main_c_16 : IVec S_ 32 := constantI S_ 32 8192#32
  let main_v41 : IVec S262144 32 := broadcastInDim S262144 ![] bcast_S_S262144 main_c_16
  let main_v42 : IVec S262144 1 := cmpi .slt main_arg3 main_v41
  let main_c_17 : IVec S_ 1 := constantI S_ 1 1#1
  let main_v43 : IVec S_ 1 := (fun x v => Host.reduce IntOp.andi x v reducesTo_S262144_S_d0 h_S_) main_v42 main_c_17
  let main_v44 : IVec S_ 1 := andi main_v40 main_v43
  main_v44

def fn_part1 {F : FTy → Type} [FloatOps F] (main_arg2 : IVec S262144 32) (main_arg3 : IVec S262144 32) (main_arg6 : FVec F S256x128 .f32) (main_arg7 : FVec F S8192x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S8192x128 .f32 := Host.absf main_arg7
  let main_cst_8 : FVec F S_ .f32 := constant S_ .f32 0x7F800000#32
  let main_v25 : FVec F S8192x128 .f32 := broadcastInDim S8192x128 ![] bcast_S_S8192x128 main_cst_8
  let main_v26 : IVec S8192x128 1 := cmpf .olt main_v24 main_v25
  let main_c_9 : IVec S_ 1 := constantI S_ 1 1#1
  let main_v27 : IVec S_ 1 := (fun x v => Host.reduce IntOp.andi x v reducesTo_S8192x128_S_d0_1 h_S_) main_v26 main_c_9
  let main_v28 : IVec S_ 1 := andi main_v23 main_v27
  let main_c_10 : IVec S_ 32 := constantI S_ 32 0#32
  let main_v29 : IVec S262144 32 := broadcastInDim S262144 ![] bcast_S_S262144 main_c_10
  let main_v30 : IVec S262144 1 := cmpi .sge main_arg2 main_v29
  let main_c_11 : IVec S_ 1 := constantI S_ 1 1#1
  let main_v31 : IVec S_ 1 := (fun x v => Host.reduce IntOp.andi x v reducesTo_S262144_S_d0 h_S_) main_v30 main_c_11
  let main_v32 : IVec S_ 1 := andi main_v28 main_v31
  let main_c_12 : IVec S_ 32 := constantI S_ 32 8192#32
  fn_part2 (F := F) main_arg2 main_arg3 main_v32 main_c_12

def fn {F : FTy → Type} [FloatOps F] (main_arg0 : FVec F S8192x512 .f32) (main_arg1 : FVec F S262144 .f32) (main_arg2 : IVec S262144 32) (main_arg3 : IVec S262144 32) (main_arg4 : FVec F S512x256 .f32) (main_arg5 : FVec F S256x128 .f32) (main_arg6 : FVec F S256x128 .f32) (main_arg7 : FVec F S8192x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg2 main_arg3 main_arg6 main_arg7 main_v13 main_v16
-- ==== Kernel.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S8192x128 : Shape := ⟨2, ![8192, 128]⟩
abbrev S_ : Shape := ⟨0, ![]⟩
abbrev S67108864 : Shape := ⟨1, ![67108864]⟩
abbrev S262144x1 : Shape := ⟨2, ![262144, 1]⟩
abbrev S8192x8192 : Shape := ⟨2, ![8192, 8192]⟩
abbrev S8192x256 : Shape := ⟨2, ![8192, 256]⟩
abbrev S2048x512 : Shape := ⟨2, ![2048, 512]⟩
abbrev S2048x256 : Shape := ⟨2, ![2048, 256]⟩
abbrev S256x256 : Shape := ⟨2, ![256, 256]⟩
abbrev S2048x2048 : Shape := ⟨2, ![2048, 2048]⟩
abbrev S2048x1024 : Shape := ⟨2, ![2048, 1024]⟩
abbrev S1024x256 : Shape := ⟨2, ![1024, 256]⟩
abbrev S2048x128 : Shape := ⟨2, ![2048, 128]⟩

abbrev nBuf : Space → Nat
  | .hbm => 35
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S262144, .f32⟩
  | .hbm, ⟨2, _⟩ => ⟨S262144, .i32⟩
  | .hbm, ⟨3, _⟩ => ⟨S262144, .i32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S8192x128, .f32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S_, .f32⟩
  | .hbm, ⟨13, _⟩ => ⟨S67108864, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S67108864, .f32⟩
  | .hbm, ⟨23, _⟩ => ⟨S8192x8192, .f32⟩
  | .hbm, ⟨24, _⟩ => ⟨S8192x8192, .bf16⟩
  | .hbm, ⟨25, _⟩ => ⟨S8192x512, .bf16⟩
  | .hbm, ⟨26, _⟩ => ⟨S512x256, .bf16⟩
  | .hbm, ⟨27, _⟩ => ⟨S8192x256, .bf16⟩
  | .hbm, ⟨28, _⟩ => ⟨S256x256, .f32⟩
  | .hbm, ⟨29, _⟩ => ⟨S8192x256, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x8192, .f32⟩
  | .hbm, ⟨34, _⟩ => ⟨S67108864, .f32⟩
  | .local _ .vmem, ⟨0, _⟩ => ⟨S2048x512, .bf16⟩
  | .local _ .vmem, ⟨1, _⟩ => ⟨S2048x512, .bf16⟩
  | .local _ .vmem, ⟨2, _⟩ => ⟨S512x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | .local _ .vmem, ⟨6, _⟩ => ⟨S2048x2048, .bf16⟩
  | .local _ .vmem, ⟨7, _⟩ => ⟨S2048x2048, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x1024, .f32⟩
  | .local _ .vmem, ⟨15, _⟩ => ⟨S2048x1024, .f32⟩
  | .local _ .vmem, ⟨16, _⟩ => ⟨S1024x256, .f32⟩
  | .local _ .vmem, ⟨17, _⟩ => ⟨S1024x256, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x256, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x2048, .f32⟩
  | .local _ .vmem, ⟨32, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2048x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bcast_S_S262144 : S_.BroadcastsInDim S262144 (![] : Fin 0 → Fin S262144.rank)
  bcast_S_S67108864 : S_.BroadcastsInDim S67108864 (![] : Fin 0 → Fin S67108864.rank)
  bcast_S262144_S262144x1_0 : S262144.BroadcastsInDim S262144x1 (![0] : Fin 1 → Fin S262144x1.rank)
  shapeCasts_S67108864_S8192x8192 : S67108864.ShapeCasts S8192x8192
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S2048x256_S2048x256_0_0 : (Rect.unit (s := S2048x256) ![0, 0] S2048x256.size inb_S2048x256_S2048x256_0_0).PackedRows (EltTy.packing .bf16)
  concatenates_S256x128_S256x128_S256x256_d1 : Shape.Concatenates [S256x128, S256x128] S256x256 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S2048x256_o0_0_S2048x128 : S2048x256.Slices ![0, 0] S2048x128
  slices_S2048x256_o0_128_S2048x128 : S2048x256.Slices ![0, 128] S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S8192x8192_S67108864 : S8192x8192.ShapeCasts S67108864
  scatter_S67108864_S262144x1_S262144_n_0_0_1_wf : ScatterDims.WF S67108864 S262144x1 S262144 [] [0] [0] 1
  dot_S2048x512_S512x256_S2048x256_1_0_0_1_n_n_wf : DotDims.WF S2048x512 S512x256 S2048x256 [1] [0] [0] [1] [] []
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []
  dot_S2048x1024_S1024x256_S2048x256_1_0_0_1_n_n_wf : DotDims.WF S2048x1024 S1024x256 S2048x256 [1] [0] [0] [1] [] []
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .f32 = 32 ∨ (Rect.block (s := S8192x8192) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S8192x128.size a
  hwx2_3 : ∀ i : grid2.Coords, EltTy.bits .f32 = 32 ∨ (Rect.block (s := S8192x128) S2048x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S8192x128.size a
  hwx2_4 : ∀ i : grid2.Coords, EltTy.bits .f32 = 32 ∨ (Rect.block (s := S8192x128) S2048x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x128.size a ≤ S8192x128.size a
  hwx2_5 : ∀ i : grid2.Coords, EltTy.bits .f32 = 32 ∨ (Rect.block (s := S8192x128) S2048x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .f32 = 32 ∨ (Rect.block (s := S8192x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S8192x8192.size a
  hwx3_2 : ∀ i : grid3.Coords, EltTy.bits .f32 = 32 ∨ (Rect.block (s := S8192x8192) S2048x2048.size (cc3_transform_2 i) (hinb3_2 i)).WholeWords (EltTy.packing .f32)

variable [Facts₀]

def scatter_S67108864_S262144x1_S262144_n_0_0_1 : ScatterDims S67108864 S262144x1 S262144 where
  updateWindowDims := []
  insertedWindowDims := [0]
  scatterDimsToOperandDims := [0]
  indexVectorDim := 1
  wf := scatter_S67108864_S262144x1_S262144_n_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_v13) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v12) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v11) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18_0) S2048x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18_1) S2048x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v18_2) S2048x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun i => !(k2_cond2 i == 1#1) | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v18_2) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18_2) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S2048x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S8192x128 : Shape := ⟨2, ![8192, 128]⟩
abbrev S8192x256 : Shape := ⟨2, ![8192, 256]⟩
abbrev S262144x1 : Shape := ⟨2, ![262144, 1]⟩
abbrev S_ : Shape := ⟨0, ![]⟩
abbrev S262144x256 : Shape := ⟨2, ![262144, 256]⟩
abbrev S262144x128 : Shape := ⟨2, ![262144, 128]⟩
abbrev S128x8192 : Shape := ⟨2, ![128, 8192]⟩
abbrev S8192x8192 : Shape := ⟨2, ![8192, 8192]⟩
abbrev S67108864 : Shape := ⟨1, ![67108864]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .f32⟩
  | .hbm, ⟨2, _⟩ => ⟨S262144, .i32⟩
  | .hbm, ⟨3, _⟩ => ⟨S262144, .i32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S8192x128, .f32⟩
  | .hbm, ⟨8, _⟩ => ⟨S8192x256, .f32⟩
  | .hbm, ⟨9, _⟩ => ⟨S262144x1, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x256, .f32⟩
  | .hbm, ⟨19, _⟩ => ⟨S262144x256, .f32⟩
  | .hbm, ⟨20, _⟩ => ⟨S262144x256, .f32⟩
  | .hbm, ⟨21, _⟩ => ⟨S_, .f32⟩
  | .hbm, ⟨22, _⟩ => ⟨S8192x256, .f32⟩
  | .hbm, ⟨23, _⟩ => ⟨S262144x1, .i32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x128, .f32⟩
  | .hbm, ⟨29, _⟩ => ⟨S262144x1, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S_, .f32⟩
  | .hbm, ⟨42, _⟩ => ⟨S8192x128, .f32⟩
  | .hbm, ⟨43, _⟩ => ⟨S262144x1, .i32⟩
  | .hbm, ⟨44, _⟩ => ⟨S8192x128, .f32⟩
  | .hbm, ⟨45, _⟩ => ⟨S8192x128, .f32⟩
  | .hbm, ⟨46, _⟩ => ⟨S262144x1, .f32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x128, .f32⟩
  | .hbm, ⟨56, _⟩ => ⟨S262144x128, .f32⟩
  | .hbm, ⟨57, _⟩ => ⟨S262144x128, .f32⟩
  | .hbm, ⟨58, _⟩ => ⟨S_, .f32⟩
  | .hbm, ⟨59, _⟩ => ⟨S8192x128, .f32⟩
  | .hbm, ⟨60, _⟩ => ⟨S262144x1, .i32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S128x8192, .f32⟩
  | .hbm, ⟨66, _⟩ => ⟨S8192x8192, .f32⟩
  | .hbm, ⟨67, _⟩ => ⟨S67108864, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  transposes_S8192x128_S128x8192_1_0 : S8192x128.Transposes [1, 0] S128x8192
  shapeCasts_S8192x8192_S67108864 : S8192x8192.ShapeCasts S67108864
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KProjData.lean ====
/-
  The first matrix product, x · w1, as a grid of four row blocks: what each grid point finds, what it leaves.

  Each of the 4 points holds a 2048 × 512 block of x and all of w1.  The accumulator is cleared, the block's product
  added to it, and the sum written out, all at the one point (the contraction axis has a single block), so nothing is
  carried from point to point.
-/
import proofs.«423324_j76630806495674_3_alg».proof.Proof.Gen.Kernel.Launch
import proofs.«423324_j76630806495674_3_alg».proof.Proof.Gen.Kernel.Skeleton
import proofs.«423324_j76630806495674_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x and the block of w1 at a point, at their literal types. -/
abbrev xB (c : Dev nD) (t : Fin cfg0.N) : Vec F S2048x512 .bf16 := iblk V c 0 t
abbrev wB (c : Dev nD) (t : Fin cfg0.N) : Vec F S512x256 .bf16 := iblk V c 1 t

/-- The accumulator after the point: zero plus the block product. -/
def acc (c : Dev nD) (t : Fin cfg0.N) : Vec F S2048x256 .f32 := k0_pay2 (k0_pay1 (F := F)) (xB V c t) (wB V c t)

/-- The output block the point writes: the accumulator, narrowed. -/
def outB (c : Dev nD) (t : Fin cfg0.N) : Vec F S2048x256 .bf16 := k0_pay3 (acc V c t)

/-- The accumulator buffer. -/
abbrev scM : Memref sig .tc .vmem S2048x256 .f32 := Memref.whole cc0_scratch0

/-- The proof data: arrays as found; inputs left in place, the output at `outB`; the invariant keeps no contents. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outB V c t
  Φ _ := Pipeline.ΦA (U := UR sig nD τ) spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outB V c t := by dsimp only [dat]

end Cert.Kernel.Proj

end
-- ==== Proof.KConvData.lean ====
/-
  The first graph layer, relu(A · h) · W, on a 4 × 4 grid: what each grid point finds, what it leaves.

  Point t = 4 i + k holds block (i, k) of the adjacency matrix and row block k of the features.  An accumulator of
  2048 × 256 sums the block products over k (cleared at k = 0); at k = 3 its rectified value is multiplied by the
  256 × 256 weight matrix and written to row block i of the output.  The accumulator is carried from point to point.
-/
import proofs.«423324_j76630806495674_3_alg».proof.Proof.Gen.Kernel.Launch
import proofs.«423324_j76630806495674_3_alg».proof.Proof.Gen.Kernel.Skeleton
import proofs.«423324_j76630806495674_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block, the feature block and the weights at a point, at their literal types. -/
abbrev adjB (c : Dev nD) (t : Fin cfg1.N) : Vec F S2048x2048 .bf16 := iblk V c 0 t
abbrev featB (c : Dev nD) (t : Fin cfg1.N) : Vec F S2048x256 .bf16 := iblk V c 1 t
abbrev wB (c : Dev nD) (t : Fin cfg1.N) : Vec F S256x256 .f32 := iblk V c 2 t

/-- THE ACCUMULATION. The accumulator after point `n`: the block product at `n` added to zero when `n` opens a row block
    (`n % 4 = 0`), else to what the point before left. -/
def acc (c : Dev nD) : (n : ℕ) → n < cfg1.N → Vec F S2048x256 .f32
  | 0, hn => k1_pay2 (k1_pay1 (F := F)) (adjB V c ⟨0, hn⟩) (featB V c ⟨0, hn⟩)
  | n + 1, hn => k1_pay2 (if (n + 1) % 4 = 0 then k1_pay1 (F := F) else acc c n (Nat.lt_of_succ_lt hn)) (adjB V c ⟨n + 1, hn⟩) (featB V c ⟨n + 1, hn⟩)

/-- The output block a closing point (`t % 4 = 3`) writes: the rectified accumulator times the weights.  (At the other
    points the output buffer is left as found, and this value is not consulted.) -/
def outB (c : Dev nD) (t : Fin cfg1.N) : Vec F S2048x256 .f32 := k1_pay3 (acc V c t.val t.isLt) (wB V c t)

/-- The accumulator buffer. -/
abbrev scM : Memref sig .tc .vmem S2048x256 .f32 := Memref.whole cc1_scratch0

/-- The invariant before position `n`: before the first point nothing is known of the scoped buffers; afterwards the
    accumulator holds `acc` of the point before, the other scoped buffers anything. -/
def Phi (c : Dev nD) : (n : ℕ) → n ≤ cfg1.N → sProp 𝕄
  | 0, _ => Pipeline.ΦA (U := UR sig nD τ) spec1 c
  | n + 1, hn => iprop(owns (c : Thread nD τ) scM fullShare (acc V c n hn)
      ∗ Pipeline.scopedRestBut (Ix := Unit) (Name := ℕ) (U := UR sig nD τ) (Lvl := ℕ) (Val := Elt F) spec1 c [cc1_scratch0]
      ∗ (∃ r, prngReg c r))

/-- The proof data: arrays as found; inputs left in place, the output at `outB`; the invariant `Phi`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outB V c t
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outB V c t := by dsimp only [dat]

end Cert.Kernel.Conv

end
-- ==== Proof.KHeadData.lean ====
/-
  The two heads and the sample, on a 4 × 8 grid: what each grid point finds, what it leaves.

  Point t = 8 i + k holds block (i, k) of the adjacency matrix (2048 × 1024), row block k of the 8192 × 256 operand and
  row block i of the noise.  An accumulator of 2048 × 256 sums the block products over k (cleared at k = 0); at k = 7
  its left half is written out as the mean, its right half as the log-deviation, and mean + noise · exp(log-deviation)
  as the sample.  The accumulator is carried from point to point.
-/
import proofs.«423324_j76630806495674_3_alg».proof.Proof.Gen.Kernel.Launch
import proofs.«423324_j76630806495674_3_alg».proof.Proof.Gen.Kernel.Skeleton
import proofs.«423324_j76630806495674_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block, the operand block and the noise block at a point, at their literal types. -/
abbrev adjB (c : Dev nD) (t : Fin cfg2.N) : Vec F S2048x1024 .f32 := iblk V c 0 t
abbrev featB (c : Dev nD) (t : Fin cfg2.N) : Vec F S1024x256 .f32 := iblk V c 1 t
abbrev epsB (c : Dev nD) (t : Fin cfg2.N) : Vec F S2048x128 .f32 := iblk V c 2 t

/-- THE ACCUMULATION. The accumulator after point `n`: the block product at `n` added to zero when `n` opens a row block
    (`n % 8 = 0`), else to what the point before left. -/
def acc (c : Dev nD) : (n : ℕ) → n < cfg2.N → Vec F S2048x256 .f32
  | 0, hn => k2_pay2 (k2_pay1 (F := F)) (adjB V c ⟨0, hn⟩) (featB V c ⟨0, hn⟩)
  | n + 1, hn => k2_pay2 (if (n + 1) % 8 = 0 then k2_pay1 (F := F) else acc c n (Nat.lt_of_succ_lt hn)) (adjB V c ⟨n + 1, hn⟩) (featB V c ⟨n + 1, hn⟩)

/-- The three output blocks a closing point (`t % 8 = 7`) writes.  (At the other points the output buffers are left as
    found, and these values are not consulted.) -/
def meanB (c : Dev nD) (t : Fin cfg2.N) : Vec F S2048x128 .f32 := k2_pay3 (acc V c t.val t.isLt)
def logdevB (c : Dev nD) (t : Fin cfg2.N) : Vec F S2048x128 .f32 := k2_pay4 (acc V c t.val t.isLt)
def sampleB (c : Dev nD) (t : Fin cfg2.N) : Vec F S2048x128 .f32 := k2_pay5 (acc V c t.val t.isLt) (epsB V c t)

/-- The accumulator buffer. -/
abbrev scM : Memref sig .tc .vmem S2048x256 .f32 := Memref.whole cc2_scratch0

/-- The invariant before position `n`: before the first point nothing is known of the scoped buffers; afterwards the
    accumulator holds `acc` of the point before, the other scoped buffers anything. -/
def Phi (c : Dev nD) : (n : ℕ) → n ≤ cfg2.N → sProp 𝕄
  | 0, _ => Pipeline.ΦA (U := UR sig nD τ) spec2 c
  | n + 1, hn => iprop(owns (c : Thread nD τ) scM fullShare (acc V c n hn)
      ∗ Pipeline.scopedRestBut (Ix := Unit) (Name := ℕ) (U := UR sig nD τ) (Lvl := ℕ) (Val := Elt F) spec2 c [cc2_scratch0]
      ∗ (∃ r, prngReg c r))

/-- The proof data: arrays as found; inputs left in place, the outputs at their blocks; the invariant `Phi`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => meanB V c t
    | ⟨4, _⟩ => logdevB V c t
    | ⟨5, _⟩ => sampleB V c t
  Φ t := Phi V c t.val (Nat.le_of_lt_succ t.isLt)
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = meanB V c t := by dsimp only [dat]
theorem after_4 (c : Dev nD) (t : Fin cfg2.N) : (dat V c).after 4 t = logdevB V c t := by dsimp only [dat]
theorem after_5 (c : Dev nD) (t : Fin cfg2.N) : (dat V c).after 5 t = sampleB V c t := by dsimp only [dat]

end Cert.Kernel.Head

end
-- ==== Proof.KDecData.lean ====
/-
  The Gram matrix z · zᵀ on a 4 × 4 grid: what each grid point finds, what it leaves.

  Point t = 4 i + j holds row block i of z through one window and row block j of z through another (the two windows
  read the same array), and writes block (i, j) of the product.  Nothing is carried from point to point.
-/
import proofs.«423324_j76630806495674_3_alg».proof.Proof.Gen.Kernel.Launch
import proofs.«423324_j76630806495674_3_alg».proof.Proof.Gen.Kernel.Skeleton
import proofs.«423324_j76630806495674_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Dec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two row blocks at a point, at their literal types. -/
abbrev rowB (c : Dev nD) (t : Fin cfg3.N) : Vec F S2048x128 .f32 := iblk V c 0 t
abbrev colB (c : Dev nD) (t : Fin cfg3.N) : Vec F S2048x128 .f32 := iblk V c 1 t

/-- The output block the point writes. -/
def outB (c : Dev nD) (t : Fin cfg3.N) : Vec F S2048x2048 .f32 := k3_pay1 (rowB V c t) (colB V c t)

/-- The proof data: arrays as found; inputs left in place, the output at `outB`; the invariant keeps no contents; the
    two windows on the one array each hold half of it. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => outB V c t
  Φ _ := Pipeline.ΦA (U := UR sig nD τ) spec3 c
  q w := match w with
    | ⟨0, _⟩ => fullShare.left
    | ⟨1, _⟩ => fullShare.right
    | ⟨2, _⟩ => fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = outB V c t := by dsimp only [dat]

end Cert.Kernel.Dec

end
-- ==== Proof.KChain.lean ====
/-
  The buffer contents between the steps of the program: the launch memory, then each stretch of host operations
  applied, then each grid region's output arrays replaced by what the region's write-backs leave.
-/
import proofs.«423324_j76630806495674_3_alg».proof.Proof.KProjData
import proofs.«423324_j76630806495674_3_alg».proof.Proof.KConvData
import proofs.«423324_j76630806495674_3_alg».proof.Proof.KHeadData
import proofs.«423324_j76630806495674_3_alg».proof.Proof.KDecData
import proofs.«423324_j76630806495674_3_alg».proof.Proof.Gen.Kernel.Regions

noncomputable section

namespace Cert.Kernel.Chain

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core `c`'s buffers at launch. -/
abbrev W0 (c : Dev nD) : Valuation τ sig (Elt F) := fun b => m (c, b)
/-- After the first stretch of host operations: the dense adjacency matrix in both precisions, the narrowed inputs. -/
abbrev W1 (c : Dev nD) : Valuation τ sig (Elt F) := StableHlo.after hostOps0 (W0 m c)
abbrev E1 (c : Dev nD) (b : Ref sig .tc) : Buf (Elt F) ((c : Thread nD τ).loc b) := W1 m c b
/-- After the first product: its output array at what the region leaves. -/
def W2 (c : Dev nD) : Valuation τ sig (Elt F) :=
  Function.update (W1 m c) main_v15 ((Proj.dat (E1 m) c).arrAt 2 cfg0.N)
/-- After the weights are laid side by side. -/
abbrev W3 (c : Dev nD) : Valuation τ sig (Elt F) := StableHlo.after hostOps1 (W2 m c)
abbrev E3 (c : Dev nD) (b : Ref sig .tc) : Buf (Elt F) ((c : Thread nD τ).loc b) := W3 m c b
/-- After the first graph layer. -/
def W4 (c : Dev nD) : Valuation τ sig (Elt F) :=
  Function.update (W3 m c) main_v17 ((Conv.dat (E3 m) c).arrAt 3 cfg1.N)
abbrev E4 (c : Dev nD) (b : Ref sig .tc) : Buf (Elt F) ((c : Thread nD τ).loc b) := W4 m c b
/-- After the heads: mean, log-deviation and sample. -/
def W5 (c : Dev nD) : Valuation τ sig (Elt F) :=
  Function.update (Function.update (Function.update (W4 m c) main_v18_0 ((Head.dat (E4 m) c).arrAt 3 cfg2.N))
    main_v18_1 ((Head.dat (E4 m) c).arrAt 4 cfg2.N)) main_v18_2 ((Head.dat (E4 m) c).arrAt 5 cfg2.N)
abbrev E5 (c : Dev nD) (b : Ref sig .tc) : Buf (Elt F) ((c : Thread nD τ).loc b) := W5 m c b
/-- After the Gram matrix. -/
def W6 (c : Dev nD) : Valuation τ sig (Elt F) :=
  Function.update (W5 m c) main_v19 ((Dec.dat (E5 m) c).arrAt 2 cfg3.N)
/-- After the final flattening. -/
abbrev W7 (c : Dev nD) : Valuation τ sig (Elt F) := StableHlo.after hostOps4 (W6 m c)

/-! ## What each step leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v15) : W2 m c r = W1 m c r := by
  unfold W2; exact Function.update_of_ne (StableHlo.devRef_ne_of_ne h : (Proc.devRef .tc r : DevRef τ sig) ≠ Proc.devRef .tc main_v15) _ _
theorem W2_out (c : Dev nD) : W2 m c main_v15 = (Proj.dat (E1 m) c).arrAt 2 cfg0.N := by
  unfold W2; exact Function.update_self _ _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v17) : W4 m c r = W3 m c r := by
  unfold W4; exact Function.update_of_ne (StableHlo.devRef_ne_of_ne h : (Proc.devRef .tc r : DevRef τ sig) ≠ Proc.devRef .tc main_v17) _ _
theorem W4_out (c : Dev nD) : W4 m c main_v17 = (Conv.dat (E3 m) c).arrAt 3 cfg1.N := by
  unfold W4; exact Function.update_self _ _ _
theorem W5_of (c : Dev nD) (r : Ref sig .tc) (h0 : r ≠ main_v18_0) (h1 : r ≠ main_v18_1) (h2 : r ≠ main_v18_2) : W5 m c r = W4 m c r := by
  unfold W5
  rw [Function.update_of_ne (StableHlo.devRef_ne_of_ne h2 : (Proc.devRef .tc r : DevRef τ sig) ≠ Proc.devRef .tc main_v18_2),
    Function.update_of_ne (StableHlo.devRef_ne_of_ne h1 : (Proc.devRef .tc r : DevRef τ sig) ≠ Proc.devRef .tc main_v18_1),
    Function.update_of_ne (StableHlo.devRef_ne_of_ne h0 : (Proc.devRef .tc r : DevRef τ sig) ≠ Proc.devRef .tc main_v18_0)]
theorem W5_mean (c : Dev nD) : W5 m c main_v18_0 = (Head.dat (E4 m) c).arrAt 3 cfg2.N := by
  unfold W5
  rw [Function.update_of_ne (StableHlo.devRef_ne_of_ne (by decide) : (Proc.devRef .tc main_v18_0 : DevRef τ sig) ≠ Proc.devRef .tc main_v18_2),
    Function.update_of_ne (StableHlo.devRef_ne_of_ne (by decide) : (Proc.devRef .tc main_v18_0 : DevRef τ sig) ≠ Proc.devRef .tc main_v18_1)]
  exact Function.update_self _ _ _
theorem W5_logdev (c : Dev nD) : W5 m c main_v18_1 = (Head.dat (E4 m) c).arrAt 4 cfg2.N := by
  unfold W5
  rw [Function.update_of_ne (StableHlo.devRef_ne_of_ne (by decide) : (Proc.devRef .tc main_v18_1 : DevRef τ sig) ≠ Proc.devRef .tc main_v18_2)]
  exact Function.update_self _ _ _
theorem W5_sample (c : Dev nD) : W5 m c main_v18_2 = (Head.dat (E4 m) c).arrAt 5 cfg2.N := by
  unfold W5; exact Function.update_self _ _ _
theorem W6_of (c : Dev nD) (r : Ref sig .tc) (h : r ≠ main_v19) : W6 m c r = W5 m c r := by
  unfold W6; exact Function.update_of_ne (StableHlo.devRef_ne_of_ne h : (Proc.devRef .tc r : DevRef τ sig) ≠ Proc.devRef .tc main_v19) _ _
theorem W6_out (c : Dev nD) : W6 m c main_v19 = (Dec.dat (E5 m) c).arrAt 2 cfg3.N := by
  unfold W6; exact Function.update_self _ _ _
theorem W7_of (c : Dev nD) (r : Ref sig .tc) (h : r ∉ hostOps4_W) : W7 m c r = W6 m c r :=
  StableHlo.after_of_writes_sub hostOps4 _ hostOps4_writes h

/-- A buffer no step writes holds its launch contents at the end. -/
theorem W7_kept (c : Dev nD) (r : Ref sig .tc) (h0 : r ∉ hostOps0_W) (h1 : r ∉ hostOps1_W) (h4 : r ∉ hostOps4_W)
    (n15 : r ≠ main_v15) (n17 : r ≠ main_v17) (n180 : r ≠ main_v18_0) (n181 : r ≠ main_v18_1) (n182 : r ≠ main_v18_2) (n19 : r ≠ main_v19) :
    W7 m c r = m ((c : Thread nD τ).loc r) :=
  (W7_of m c r h4).trans <| (W6_of m c r n19).trans <| (W5_of m c r n180 n181 n182).trans <| (W4_of m c r n17).trans <|
    (W3_of m c r h1).trans <| (W2_of m c r n15).trans <| (W1_of m c r h0).trans rfl

end Cert.Kernel.Chain

end
-- ==== Proof.KProjBody.lean ====
/-
  The first matrix product at one grid point: the body obligation of the grid of four row blocks.

  The contraction axis has a single block, so at every point the accumulator is cleared, the block's product added to
  it, and the sum narrowed and written out.  The accumulator lives in a scratch buffer the invariant keeps at some
  contents: it is taken out for the point and put back with its contents forgotten.
-/
import proofs.«423324_j76630806495674_3_alg».proof.Proof.KProjData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers hold their blocks -/

/-- The buffer of the block of x holds its block at every point, fetched there or not: where the pipeline does not
    fetch it the block index has not moved, and the body left the block in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The same of w1's buffer, which is fetched at the first point only. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body's two conditions hold at every point -/

/-- The condition under which the accumulator is cleared: the contraction index is zero. -/
abbrev cond1 (i : grid0.Coords) : Prop :=
  (Scalar.cmpi .ne (Scalar.extui (Scalar.cmpi .eq (BitVec.ofNat 32 (i 2).val) 0#32)) 0#32) = 1#1

/-- The contraction axis has one block, so the accumulator is cleared at every point, -/
theorem hcond1 : ∀ t : Fin cfg0.N, cond1 (grid0.coords t) :=
  (by decide +kernel : ∀ t : Fin grid0.N, cond1 (grid0.coords t))

/-- and written out at every point. -/
theorem hcond2 : ∀ t : Fin cfg0.N, k0_cond2 (grid0.coords t) = 1#1 :=
  (by decide +kernel : ∀ t : Fin grid0.N, k0_cond2 (grid0.coords t) = 1#1)

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-! ## The body's stores -/

/-- A whole 2048 × 256 buffer as a rectangle: offset zero, full size. -/
abbrev rO : Rect S2048x256 := Rect.unit (s := S2048x256) ![0, 0] S2048x256.size inb_S2048x256_S2048x256_0_0

/-- The offset of a whole-buffer rectangle is zero on both axes. -/
theorem hz : (![0, 0] : Fin 2 → Nat) = fun _ => 0 := funext fun a => by fin_cases a <;> rfl

/-- One store of the whole output block covers it. -/
theorem coverO (p : Vec F S2048x256 .bf16) (y : S2048x256.Idx) :
    ∃ pc ∈ ([⟨rO, p⟩] : List (View.Piece (Elt F) S2048x256 .bf16)), y ∈ pc.1.set :=
  View.cover_of_tiled [⟨rO, p⟩] S2048x256.size (by rfl) y

/-! ## The body's triple -/

set_option maxHeartbeats 4800000 in
/-- The body on whole memrefs at a point where both conditions hold, the inputs' at read contents `x`, `w`, the
    output's and the accumulator's at anything, runs to the continuation holding the inputs' as they were, the output's
    at the narrowed sum `k0_pay3 (k0_pay2 k0_pay1 x w)` and the accumulator's at some contents. -/
theorem sound_kernel (c : Dev nD) (E : Set ℕ) (i : grid0.Coords) (hc1 : cond1 i) (hc2 : k0_cond2 i = 1#1)
    (arg3 : Memref sig .tc .vmem S2048x512 .bf16) (harg3 : arg3.IsWhole)
    (arg4 : Memref sig .tc .vmem S512x256 .bf16) (harg4 : arg4.IsWhole)
    (arg5 : Memref sig .tc .vmem S2048x256 .bf16) (harg5 : arg5.IsWhole)
    (arg6 : Memref sig .tc .vmem S2048x256 .f32) (harg6 : arg6.IsWhole)
    (x : Vec F S2048x512 .bf16) (w : Vec F S512x256 .bf16) (K : PUnit → sProp 𝕄) :
    iprop(owns (c : Thread nD τ) arg3 fullShare x ∗ owns (c : Thread nD τ) arg4 fullShare w
        ∗ (∃ d, owns (c : Thread nD τ) arg5 fullShare d) ∗ (∃ s, owns (c : Thread nD τ) arg6 fullShare s)
        ∗ (iprop(owns (c : Thread nD τ) arg3 fullShare x ∗ owns (c : Thread nD τ) arg4 fullShare w
            ∗ owns (c : Thread nD τ) arg5 fullShare (k0_pay3 (k0_pay2 (k0_pay1 (F := F)) x w))
            ∗ (∃ s, owns (c : Thread nD τ) arg6 fullShare s)) -∗ K ⟨⟩))
      ⊢ wp frame (wpE (defs₀ (F := F)) Variants.none c none) E
          (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (coverO _), View.canon_unit_zero hz]
    sl_unfold_words
    simp only [View.readCov_cons_toLoadRect, View.readAt_eq_ld, View.ld_unit_zero (S := S2048x512) hz,
      View.ld_unit_zero (S := S512x256) hz]
  iexists _, _; isplitr
  swap; · iexact HS
  ipureintro; rfl

/-! ## The invariant with the accumulator taken out -/

/-- The invariant keeps every scoped buffer that is no staging buffer at some contents, and the generator register at
    some state; the accumulator is one of those buffers, here split off as a whole memref at some contents. -/
theorem PhiA_eq (c : Dev nD) :
    (Pipeline.ΦA (U := UR sig nD τ) spec0 c : sProp 𝕄)
      = iprop(iprop(iprop((∃ s, owns (c : Thread nD τ) scM fullShare s))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM, owns_whole]; try rfl

/-! ## The body obligation, at a generic point -/

/-- What the body is called with at point `t`: the invariant, what the core owes, and the three windows' current
    buffers at what they hold, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns: the same invariant, the same debt, and each buffer at what the body leaves in it. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 1000000 in
/-- The body at any point: the inputs' buffers hold their blocks and both conditions hold, so the triple applies; the
    accumulator is lent by the invariant and returned to it at whatever it then holds; the rest of the invariant and
    the core's debt pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  rw [show (dat V c).leavesExact 2 t = owns (c : Thread nD τ) (st0_2 t) fullShare ((dat V c).after 2 t) from by
    unfold Dat.leavesExact; rw [live_2 t], after_2]
  rw [show (dat V c).Φ t.castSucc = (Pipeline.ΦA (U := UR sig nD τ) spec0 c : sProp 𝕄) from rfl, PhiA_eq]
  unfold outB acc
  iintro ⟨⟨⟨HS, Hr⟩, Hg⟩, Ho, ⟨%d0, H0⟩, ⟨%d1, H1⟩, ⟨%d2, H2⟩⟩
  iapply (sound_kernel c Set.univ (grid0.coords t) (hcond1 t) (hcond2 t) _ _ _ _ _ _ _ _ (iblk V c 0 t) (iblk V c 1 t) _)
  isplitl [H0]; · iexact H0
  isplitl [H1]; · iexact H1
  isplitl [H2]; · iexists _; iexact H2
  isplitl [HS]; · iexact HS
  iintro ⟨H0, H1, H2, HS⟩
  isplitl [HS Hr Hg]
  · isplitr [Hg]
    · isplitl [HS]; · iexact HS
      iexact Hr
    iexact Hg
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, -/
theorem hin (c : Dev nD) : (Pipeline.ΦA (U := UR sig nD τ) spec0 c : sProp 𝕄) ⊢ (dat V c).Φ 0 :=
  Idealize.SL.BI.Entails.refl _

/-- and the invariant after the last point is what the region hands back. -/
theorem hout (c : Dev nD) : (dat V c).Φ (Fin.last cfg0.N) ⊢ (Pipeline.ΦA (U := UR sig nD τ) spec0 c : sProp 𝕄) :=
  Idealize.SL.BI.Entails.refl _

end Cert.Kernel.Proj

end
-- ==== Proof.KConvBody.lean ====
/-
  The first graph layer on its 4 × 4 grid: the body at every grid point meets its obligation.

  Point t = 4 i + k.  Three cases by k: k = 0 clears the accumulator and adds the block product (the output is idle and
  is handed back as found); k = 1, 2 add the block product to what the point before left (the output idle); k = 3 adds
  the block product and writes the rectified accumulator times the weights to the output.  In every case the accumulator
  ends at `acc` of the point, which is the invariant after the point.
-/
import proofs.«423324_j76630806495674_3_alg».proof.Proof.KConvData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions, in closed form over the grid -/

/-- The first condition (the point opens a row block): from the grid coordinates. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The second condition (the point closes a row block). -/
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Away from the closing points the output window is idle and is not written back. -/
theorem idleAt_3 : ∀ t : Fin cfg1.N, ¬cond1 (grid1.coords t) → cfg1.idle 3 (grid1.coords t) = true := by decide +kernel
theorem noFlush_3 : ∀ t : Fin cfg1.N, ¬cond1 (grid1.coords t) → (cfg1.win 3).flush t = false := by decide +kernel
/-- At the closing points it is live. -/
theorem liveAt_3 : ∀ t : Fin cfg1.N, cond1 (grid1.coords t) → cfg1.idle 3 (grid1.coords t) = false := by decide +kernel

theorem hz2 : (![0, 0] : Fin 2 → Nat) = fun _ => 0 := funext fun a => by fin_cases a <;> rfl

/-! ## Whole-buffer stores and loads read back -/

/-- One whole-buffer store leaves its payload. -/
theorem read_writes_one {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_cons_self, View.mem_set_unit_zero h inb y⟩), View.canon_unit_zero h]

/-- Two whole-buffer stores leave the later one's payload. -/
theorem read_writes_two {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) (p : View.Piece Val S e) :
    v.read Val (v.writes Val f [(⟨Rect.unit off S.size inb, w⟩ : View.Piece Val S e), p]) = w := by
  rw [View.read_writes_eq_canon v f _ (fun y => ⟨_, List.mem_cons_self, View.mem_set_unit_zero h inb y⟩), View.canon_cons_unit_zero h]

/-- A load of a whole buffer reads its contents. -/
theorem readAt_whole {Val : EltTy → Type} {S : Shape} {e : EltTy} {sig' : RefSig} {κ : Kind} {sp : Space}
    (M : Memref sig' κ sp S e) (hM : M.IsWhole) {off : Fin S.rank → Nat} (h : off = fun _ => 0)
    (inb : ∀ a, off a + S.size a ≤ S.size a) (x : S.Idx → Val e) :
    View.readAt Val M.view (Rect.unit off S.size inb).toLoadRect (hM.unread x) = x := by
  rw [View.readAt_eq_ld, hM.read_unread, View.ld_unit_zero h]

/-! ## The body, case by case, on any whole memrefs -/

set_option maxHeartbeats 1000000 in
/-- A point that opens a row block (k = 0): whatever the accumulator held, it ends at the block product added to zero;
    the inputs and the output are left as found. -/
theorem run_A (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S256x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0 i) (hc1 : ¬cond1 i)
    (x0 : Vec F S2048x2048 .bf16) (x1 : Vec F S2048x256 .bf16) (x2 : Vec F S256x256 .f32)
    (xi3 : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 (k1_pay1 (F := F)) x0 x1)) -∗ K ⟨⟩))
      ⊢ wp frame (wpE (defs₀ (F := F)) Variants.none c none) E (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  refine (read_writes_two (Val := Elt F) (S := S2048x256) arg6.view _ hz2 _ _ _).trans ?_
  exact congr (congr (congrArg k1_pay2 (View.readCov_unit_zero (Val := Elt F) arg6.view hz2 _ (k1_pay1 (F := F)))) (readAt_whole arg2 harg2 hz2 _ x0)) (readAt_whole arg3 harg3 hz2 _ x1)

set_option maxHeartbeats 1000000 in
/-- A point inside a row block (k = 1, 2): the block product is added to what the accumulator held; the inputs and the
    output are left as found. -/
theorem run_B (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S256x256 .f32) (harg4 : arg4.IsWhole)
    (arg5 : Memref sig .tc .vmem S2048x256 .f32) (harg5 : arg5.IsWhole)
    (arg6 : Memref sig .tc .vmem S2048x256 .f32) (harg6 : arg6.IsWhole)
    (hc0 : ¬cond0 i) (hc1 : ¬cond1 i)
    (x0 : Vec F S2048x2048 .bf16) (x1 : Vec F S2048x256 .bf16) (x2 : Vec F S256x256 .f32)
    (xi3 : Vec F S2048x256 .f32) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 xs x0 x1)) -∗ K ⟨⟩))
      ⊢ wp frame (wpE (defs₀ (F := F)) Variants.none c none) E (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  refine (read_writes_one (Val := Elt F) (S := S2048x256) arg6.view _ hz2 _ _).trans ?_
  exact congr (congr (congrArg k1_pay2 (readAt_whole arg6 harg6 hz2 _ xs)) (readAt_whole arg2 harg2 hz2 _ x0)) (readAt_whole arg3 harg3 hz2 _ x1)

set_option maxHeartbeats 1000000 in
/-- A point that closes a row block (k = 3): the block product is added to what the accumulator held, and the output
    ends at the rectified sum times the weights, whatever it held. -/
theorem run_C (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S256x256 .f32) (harg4 : arg4.IsWhole)
    (arg5 : Memref sig .tc .vmem S2048x256 .f32) (harg5 : arg5.IsWhole)
    (arg6 : Memref sig .tc .vmem S2048x256 .f32) (harg6 : arg6.IsWhole)
    (hc0 : ¬cond0 i) (hc1 : cond1 i)
    (x0 : Vec F S2048x2048 .bf16) (x1 : Vec F S2048x256 .bf16) (x2 : Vec F S256x256 .f32)
    (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    refine (read_writes_one (Val := Elt F) (S := S2048x256) arg5.view _ hz2 _ _).trans ?_
    exact congr (congrArg k1_pay3 ((View.readCov_unit_zero (Val := Elt F) arg6.view hz2 _ _).trans
      (congr (congr (congrArg k1_pay2 (readAt_whole arg6 harg6 hz2 _ xs)) (readAt_whole arg2 harg2 hz2 _ x0)) (readAt_whole arg3 harg3 hz2 _ x1))))
      (readAt_whole arg4 harg4 hz2 _ x2)
  iexists _; isplitr
  swap; · iexact HS
  ipureintro
  sl_unfold_words
  refine (read_writes_one (Val := Elt F) (S := S2048x256) arg6.view _ hz2 _ _).trans ?_
  exact congr (congr (congrArg k1_pay2 (readAt_whole arg6 harg6 hz2 _ xs)) (readAt_whole arg2 harg2 hz2 _ x0)) (readAt_whole arg3 harg3 hz2 _ x1)

/-! ## What the body finds -/

variable (V : (c : Dev nD) → (b : Ref sig .tc) → Buf (Elt F) ((c : Thread nD τ).loc b))

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The accumulation at a point that opens a row block. -/
theorem acc_open (c : Dev nD) (t : Fin cfg1.N) (h0 : t.val % 4 = 0) :
    acc V c t.val t.isLt = k1_pay2 (k1_pay1 (F := F)) (adjB V c t) (featB V c t) := by
  obtain ⟨n, hn⟩ := t
  cases n with
  | zero => rfl
  | succ n => exact congrArg (fun x => k1_pay2 x (adjB V c ⟨n + 1, hn⟩) (featB V c ⟨n + 1, hn⟩)) (if_pos h0)

/-- The accumulation at any other point: over what the point before left. -/
theorem acc_step (c : Dev nD) (t : Fin cfg1.N) (h0 : ¬t.val % 4 = 0) :
    acc V c t.val t.isLt = k1_pay2 (acc V c (t.val - 1) (Nat.lt_of_le_of_lt (Nat.sub_le _ _) t.isLt)) (adjB V c t) (featB V c t) := by
  obtain ⟨n, hn⟩ := t
  cases n with
  | zero => exact absurd (Nat.zero_mod _) h0
  | succ n => exact congrArg (fun x => k1_pay2 x (adjB V c ⟨n + 1, hn⟩) (featB V c ⟨n + 1, hn⟩)) (if_neg h0)

/-- The invariant at a point's start, restated at the point's position. -/
theorem Phi_castSucc (c : Dev nD) (t : Fin cfg1.N) : (dat V c).Φ t.castSucc = Phi V c t.val (Nat.le_of_lt t.isLt) := by
  dsimp only [dat]; simp only [Fin.coe_castSucc]

theorem Phi_zero (c : Dev nD) (n : ℕ) (h : n ≤ cfg1.N) (hz : n = 0) : Phi V c n h = Pipeline.ΦA (U := UR sig nD τ) spec1 c := by
  subst hz; rfl

theorem Phi_succ (c : Dev nD) (n : ℕ) (hn : n < cfg1.N) :
    Phi V c (n + 1) hn = iprop(owns (c : Thread nD τ) scM fullShare (acc V c n hn)
      ∗ Pipeline.scopedRestBut (Ix := Unit) (Name := ℕ) (U := UR sig nD τ) (Lvl := ℕ) (Val := Elt F) spec1 c [cc1_scratch0]
      ∗ (∃ r, prngReg c r)) := rfl

theorem Phi_pos (c : Dev nD) (n : ℕ) (h : n ≤ cfg1.N) (hz : n ≠ 0) :
    Phi V c n h = iprop(owns (c : Thread nD τ) scM fullShare (acc V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- What the launch hands the region, with the accumulator's buffer split off at some contents. -/
theorem PhiA_eq (c : Dev nD) :
    (Pipeline.ΦA (U := UR sig nD τ) spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM, owns_whole]; try rfl

/-! ## The body obligation, at a generic point -/

/-- Each window's current staging memref at point `t`, as the pipeline passes it to the body, and its wholeness. -/
abbrev ms_0 (t : Fin cfg1.N) : Memref sig .tc .vmem S2048x2048 .bf16 := win1_0.stage (cfg1.slots t 0)
abbrev ms_1 (t : Fin cfg1.N) : Memref sig .tc .vmem S2048x256 .bf16 := win1_1.stage (cfg1.slots t 1)
abbrev ms_2 (t : Fin cfg1.N) : Memref sig .tc .vmem S256x256 .f32 := win1_2.stage (cfg1.slots t 2)
abbrev ms_3 (t : Fin cfg1.N) : Memref sig .tc .vmem S2048x256 .f32 := win1_3.stage (cfg1.slots t 3)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point.  The inputs' buffers hold their blocks; the position of the point in its row block selects
    the case; the invariant hands the body the accumulator at what the point before left (at anything at the first
    point) and takes it back at this point's sum; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  have hN : t.val < 16 := lt_of_lt_of_eq t.isLt (show cfg1.N = 16 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 4 = 0
  · have h1 : ¬t.val % 4 = 3 := by omega
    rw [Dat.leavesExact_idle (dat V c) 3 t (idleAt_3 t (fun h => h1 ((hcond1 t).mp h))) (noFlush_3 t (fun h => h1 ((hcond1 t).mp h)))]
    rw [acc_open V c t h0]
    by_cases hz : t.val = 0
    · rw [Phi_castSucc V c t, Phi_zero V c _ _ hz, PhiA_eq]
      iintro ⟨⟨⟨HS, HR⟩, Hg⟩, Ho, ⟨%d0, H0⟩, ⟨%d1, H1⟩, ⟨%d2, H2⟩, ⟨%d3, H3⟩⟩
      iapply (run_A c (grid1.coords t) _ _ _ _ _ _ _ _ _ _ ((hcond0 t).mpr h0) (fun h => h1 ((hcond1 t).mp h)) (adjB V c t) (featB V c t) (wB V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨HS, HR, Hg⟩, Ho, ⟨%d0, H0⟩, ⟨%d1, H1⟩, ⟨%d2, H2⟩, ⟨%d3, H3⟩⟩
      iapply (run_A c (grid1.coords t) _ _ _ _ _ _ _ _ _ _ ((hcond0 t).mpr h0) (fun h => h1 ((hcond1 t).mp h)) (adjB V c t) (featB V c t) (wB V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [liveAt_3 t ((hcond1 t).mpr h1)], after_3]
      unfold outB
      rw [acc_step V c t h0]
      rw [Phi_castSucc V c t, Phi_pos V c _ _ hz]
      iintro ⟨⟨HS, HR, Hg⟩, Ho, ⟨%d0, H0⟩, ⟨%d1, H1⟩, ⟨%d2, H2⟩, ⟨%d3, H3⟩⟩
      iapply (run_C c (grid1.coords t) _ _ _ _ _ _ _ _ _ _ (fun h => h0 ((hcond0 t).mp h)) ((hcond1 t).mpr h1) (adjB V c t) (featB V c t) (wB V c t) (acc V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat V c) 3 t (idleAt_3 t (fun h => h1 ((hcond1 t).mp h))) (noFlush_3 t (fun h => h1 ((hcond1 t).mp h)))]
      rw [acc_step V c t h0]
      rw [Phi_castSucc V c t, Phi_pos V c _ _ hz]
      iintro ⟨⟨HS, HR, Hg⟩, Ho, ⟨%d0, H0⟩, ⟨%d1, H1⟩, ⟨%d2, H2⟩, ⟨%d3, H3⟩⟩
      iapply (run_B c (grid1.coords t) _ _ _ _ _ _ _ _ _ _ (fun h => h0 ((hcond0 t).mp h)) (fun h => h1 ((hcond1 t).mp h)) (adjB V c t) (featB V c t) (wB V c t) _ (acc V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA (U := UR sig nD τ) spec1 c : sProp 𝕄) ⊢ (dat V c).Φ 0 := by
  rw [show (dat V c).Φ 0 = Phi V c 0 (Nat.zero_le _) from rfl, Phi_zero V c 0 _ rfl]
  try exact Idealize.SL.BI.Entails.refl _

/-- After the last point the invariant gives it back: the accumulator's contents are forgotten. -/
theorem hout (c : Dev nD) : (dat V c).Φ (Fin.last cfg1.N) ⊢ (Pipeline.ΦA (U := UR sig nD τ) spec1 c : sProp 𝕄) := by
  rw [show (dat V c).Φ (Fin.last cfg1.N) = Phi V c (Fin.last cfg1.N).val (Nat.le_of_lt_succ (Fin.last cfg1.N).isLt) from rfl,
    Phi_pos V c _ _ (by rw [Fin.val_last]; have : cfg1.N = 16 := N_1; omega), PhiA_eq]
  iintro ⟨HS, HR, Hg⟩
  isplitl [HS HR]
  · isplitl [HS]; · iexists _; iexact HS
    iexact HR
  iexact Hg

end Cert.Kernel.Conv

end
-- ==== Proof.KHeadBody.lean ====
/-
  The two heads and the sample: the kernel body at every grid point.

  At point t = 8 i + k the body clears the accumulator when k = 0, adds the block product of the adjacency block
  and the operand block to it, and when k = 7 writes the mean (left half), the log-deviation (right half) and the
  sample mean + noise · exp(log-deviation) to the three output blocks.  Three cases by k: the first point of a row
  block, an interior point, the closing point.  Each case's run is stated with the named contents, and the body
  obligation follows point by point.
-/
import proofs.«423324_j76630806495674_3_alg».proof.Proof.KHeadData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions and the idle table, over the grid -/

/-- The first conditional's condition (k = 0), from the grid coordinates. -/
abbrev condZ (i : grid2.Coords) : Prop := (Scalar.cmpi .ne (Scalar.extui (Scalar.cmpi .eq (BitVec.ofNat 32 (i 1).val) 0#32)) 0#32) = 1#1
/-- It holds at the points ≡ 0 (mod 8). -/
theorem hcondZ : ∀ t : Fin cfg2.N, condZ (grid2.coords t) ↔ t.val % 8 = 0 :=
  (by decide +kernel : ∀ t : Fin grid2.N, condZ (grid2.coords t) ↔ t.val % 8 = 0)

/-- The second conditional's condition (k = 7). -/
abbrev condL (i : grid2.Coords) : Prop := k2_cond2 i = 1#1
/-- It holds at the points ≡ 7 (mod 8). -/
theorem hcondL : ∀ t : Fin cfg2.N, condL (grid2.coords t) ↔ t.val % 8 = 7 :=
  (by decide +kernel : ∀ t : Fin grid2.N, condL (grid2.coords t) ↔ t.val % 8 = 7)

/-- The inputs are never idle. -/
theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- The outputs are idle away from the closing points, and live there. -/
theorem idle_3 : ∀ t : Fin cfg2.N, ¬ t.val % 8 = 7 → cfg2.idle 3 (grid2.coords t) = true := by decide +kernel
theorem idle_4 : ∀ t : Fin cfg2.N, ¬ t.val % 8 = 7 → cfg2.idle 4 (grid2.coords t) = true := by decide +kernel
theorem idle_5 : ∀ t : Fin cfg2.N, ¬ t.val % 8 = 7 → cfg2.idle 5 (grid2.coords t) = true := by decide +kernel
theorem live_3 : ∀ t : Fin cfg2.N, t.val % 8 = 7 → cfg2.idle 3 (grid2.coords t) = false := by decide +kernel
theorem live_4 : ∀ t : Fin cfg2.N, t.val % 8 = 7 → cfg2.idle 4 (grid2.coords t) = false := by decide +kernel
theorem live_5 : ∀ t : Fin cfg2.N, t.val % 8 = 7 → cfg2.idle 5 (grid2.coords t) = false := by decide +kernel
/-- Away from the closing points no output block is written back. -/
theorem noFlush_3 (t : Fin cfg2.N) (h : ¬ t.val % 8 = 7) : (cfg2.win 3).flush t = false := by
  rw [← Bool.not_eq_true, flush2_3]; exact h
theorem noFlush_4 (t : Fin cfg2.N) (h : ¬ t.val % 8 = 7) : (cfg2.win 4).flush t = false := by
  rw [← Bool.not_eq_true, flush2_4]; exact h
theorem noFlush_5 (t : Fin cfg2.N) (h : ¬ t.val % 8 = 7) : (cfg2.win 5).flush t = false := by
  rw [← Bool.not_eq_true, flush2_5]; exact h

/-- The unit rectangle at the origin. -/
theorem hz2 : (![0, 0] : Fin 2 → Nat) = fun _ => 0 := funext fun a => by fin_cases a <;> rfl

/-! ## A whole-buffer store, last, leaves its payload -/

section Pieces
variable {Val : EltTy → Type} [∀ e, Nonempty (Val e)] {S : Shape} {e : EltTy}

/-- The unit rectangle at the origin of the buffer's own sizes holds every index. -/
theorem cover_unit_zero {off : Fin S.rank → Nat} (h : off = fun _ => 0) (inb : ∀ a, off a + S.size a ≤ S.size a)
    (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

/-- So a buffer whose last write went through it reads back that write's payload, whatever came before. -/
theorem read_writes_unit_zero {sg : RefSig} {κ : Kind} {sp : Space} (v : View sg κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon _ _ _ (cover_unit_zero h inb w L), View.canon_cons_unit_zero h inb]

end Pieces

/-! ## The body's run, case by case, on any whole memrefs -/

set_option maxHeartbeats 1000000 in
/-- The first point of a row block (k = 0): the accumulator, found at anything, is cleared and ends at the block
    product added to zero; the inputs' buffers are as found; the noise and the outputs are not touched. -/
theorem runA (c : Dev nD) (i : grid2.Coords) (arg2 : Memref sig .tc .vmem S2048x1024 .f32) (harg2 : arg2.IsWhole) (arg3 : Memref sig .tc .vmem S1024x256 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .f32) (harg8 : arg8.IsWhole) (hc0 : condZ i) (hc1 : ¬condL i)
    (x0 : Vec F S2048x1024 .f32) (x1 : Vec F S1024x256 .f32) (E : Set ℕ) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (k2_pay2 (k2_pay1 (F := F)) x0 x1)) -∗ K ⟨⟩))
      ⊢ wp frame (wpE (defs₀ (F := F)) Variants.none c none) E (cc2__fused_head_kernel i arg2 harg2 arg3 harg3 arg4 harg4 arg5 harg5 arg6 harg6 arg7 harg7 arg8 harg8) K := by
  simp only [cc2__fused_head_kernel_eq_skeleton]; unfold cc2__fused_head_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [read_writes_unit_zero _ _ hz2]
  sl_unfold_words
  simp only [View.readAt_eq_ld, harg2.read_unread, harg3.read_unread, View.ld_unit_zero (S := S2048x1024) hz2,
    View.ld_unit_zero (S := S1024x256) hz2, View.readCov_unit_zero (S := S2048x256) _ hz2]

set_option maxHeartbeats 1000000 in
/-- An interior point (0 < k < 7): the accumulator, found at `xs`, ends at the block product added to `xs`. -/
theorem runB (c : Dev nD) (i : grid2.Coords) (arg2 : Memref sig .tc .vmem S2048x1024 .f32) (harg2 : arg2.IsWhole) (arg3 : Memref sig .tc .vmem S1024x256 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .f32) (harg8 : arg8.IsWhole) (hc0 : ¬condZ i) (hc1 : ¬condL i)
    (x0 : Vec F S2048x1024 .f32) (x1 : Vec F S1024x256 .f32) (xs : Vec F S2048x256 .f32) (E : Set ℕ) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (k2_pay2 xs x0 x1)) -∗ K ⟨⟩))
      ⊢ wp frame (wpE (defs₀ (F := F)) Variants.none c none) E (cc2__fused_head_kernel i arg2 harg2 arg3 harg3 arg4 harg4 arg5 harg5 arg6 harg6 arg7 harg7 arg8 harg8) K := by
  simp only [cc2__fused_head_kernel_eq_skeleton]; unfold cc2__fused_head_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [read_writes_unit_zero _ _ hz2]
  simp only [View.readAt_eq_ld, harg2.read_unread, harg3.read_unread, harg8.read_unread, View.ld_unit_zero (S := S2048x1024) hz2,
    View.ld_unit_zero (S := S1024x256) hz2, View.ld_unit_zero (S := S2048x256) hz2]

set_option maxHeartbeats 1000000 in
/-- A closing point (k = 7): the accumulator, found at `xs`, ends at the block product added to `xs`, and the three
    outputs, found at anything, end at the mean, the log-deviation and the sample computed from it and the noise. -/
theorem runC (c : Dev nD) (i : grid2.Coords) (arg2 : Memref sig .tc .vmem S2048x1024 .f32) (harg2 : arg2.IsWhole) (arg3 : Memref sig .tc .vmem S1024x256 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .f32) (harg8 : arg8.IsWhole) (hc0 : ¬condZ i) (hc1 : condL i)
    (x0 : Vec F S2048x1024 .f32) (x1 : Vec F S1024x256 .f32) (x2 : Vec F S2048x128 .f32) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 xs x0 x1))
            ∗ owns (c : Thread nD τ) arg6 fullShare (k2_pay4 (k2_pay2 xs x0 x1))
            ∗ owns (c : Thread nD τ) arg7 fullShare (k2_pay5 (k2_pay2 xs x0 x1) x2)
            ∗ owns (c : Thread nD τ) arg8 fullShare (k2_pay2 xs x0 x1)) -∗ K ⟨⟩))
      ⊢ wp frame (wpE (defs₀ (F := F)) Variants.none c none) E (cc2__fused_head_kernel i arg2 harg2 arg3 harg3 arg4 harg4 arg5 harg5 arg6 harg6 arg7 harg7 arg8 harg8) K := by
  simp only [cc2__fused_head_kernel_eq_skeleton]; unfold cc2__fused_head_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [read_writes_unit_zero _ _ hz2]
    sl_unfold_words
    simp only [View.readAt_eq_ld, harg2.read_unread, harg3.read_unread, harg4.read_unread, harg8.read_unread, View.ld_unit_zero (S := S2048x1024) hz2,
    View.ld_unit_zero (S := S1024x256) hz2, View.ld_unit_zero (S := S2048x128) hz2, View.ld_unit_zero (S := S2048x256) hz2, View.readCov_unit_zero (S := S2048x256) _ hz2]
  isplitl [H4]
  · iexists _; isplitr
    swap; · iexact H4
    ipureintro
    rw [read_writes_unit_zero _ _ hz2]
    sl_unfold_words
    simp only [View.readAt_eq_ld, harg2.read_unread, harg3.read_unread, harg4.read_unread, harg8.read_unread, View.ld_unit_zero (S := S2048x1024) hz2,
    View.ld_unit_zero (S := S1024x256) hz2, View.ld_unit_zero (S := S2048x128) hz2, View.ld_unit_zero (S := S2048x256) hz2, View.readCov_unit_zero (S := S2048x256) _ hz2]
  isplitl [H5]
  · iexists _; isplitr
    swap; · iexact H5
    ipureintro
    rw [read_writes_unit_zero _ _ hz2]
    sl_unfold_words
    simp only [View.readAt_eq_ld, harg2.read_unread, harg3.read_unread, harg4.read_unread, harg8.read_unread, View.ld_unit_zero (S := S2048x1024) hz2,
    View.ld_unit_zero (S := S1024x256) hz2, View.ld_unit_zero (S := S2048x128) hz2, View.ld_unit_zero (S := S2048x256) hz2, View.readCov_unit_zero (S := S2048x256) _ hz2]
  iexists _; isplitr
  swap; · iexact HS0
  ipureintro
  sl_unfold_words
  rw [read_writes_unit_zero _ _ hz2]
  simp only [View.readAt_eq_ld, harg2.read_unread, harg3.read_unread, harg4.read_unread, harg8.read_unread, View.ld_unit_zero (S := S2048x1024) hz2,
    View.ld_unit_zero (S := S1024x256) hz2, View.ld_unit_zero (S := S2048x128) hz2, View.ld_unit_zero (S := S2048x256) hz2, View.readCov_unit_zero (S := S2048x256) _ hz2]

/-! ## The body obligation -/

variable (V : (c : Dev nD) → (b : Ref sig .tc) → Buf (Elt F) ((c : Thread nD τ).loc b))

/-- Each window's current staging memref at point `t`, as the pipeline passes it, and its wholeness. -/
abbrev ms0 (t : Fin cfg2.N) : Memref sig .tc .vmem S2048x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2048x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S2048x128 .f32 := win2_5.stage (cfg2.slots t 5)
abbrev hs5 (t : Fin cfg2.N) : (ms5 t).IsWhole := hstage2_5 ((cfg2.slots t 5).cast nbuf2_5)

/-- Each input's current staging buffer holds its block at every point, fetched there or not: where it is not
    fetched the block index has not moved. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The accumulation at a point that opens a row block, and at any other point. -/
theorem acc_first (c : Dev nD) (t : Fin cfg2.N) (h0 : t.val % 8 = 0) :
    acc V c t.val t.isLt = k2_pay2 (k2_pay1 (F := F)) (adjB V c t) (featB V c t) := by
  obtain ⟨n, hn⟩ := t
  cases n with
  | zero => rfl
  | succ n => exact (congrArg (fun a => k2_pay2 a (adjB V c ⟨n + 1, hn⟩) (featB V c ⟨n + 1, hn⟩)) (if_pos h0))

theorem acc_next (c : Dev nD) (t : Fin cfg2.N) (h0 : ¬t.val % 8 = 0) :
    acc V c t.val t.isLt = k2_pay2 (acc V c (t.val - 1) (Nat.lt_of_le_of_lt (Nat.sub_le _ _) t.isLt)) (adjB V c t) (featB V c t) := by
  obtain ⟨n, hn⟩ := t
  cases n with
  | zero => exact absurd (Nat.zero_mod _) h0
  | succ n => exact (congrArg (fun a => k2_pay2 a (adjB V c ⟨n + 1, hn⟩) (featB V c ⟨n + 1, hn⟩)) (if_neg h0))

/-- The invariant, position by position. -/
theorem Phi_zero (c : Dev nD) (n : ℕ) (h : n ≤ cfg2.N) (hz : n = 0) : Phi V c n h = Pipeline.ΦA (U := UR sig nD τ) spec2 c := by
  subst hz; rfl

theorem Phi_succ (c : Dev nD) (n : ℕ) (hn : n < cfg2.N) :
    Phi V c (n + 1) hn = iprop(owns (c : Thread nD τ) scM fullShare (acc V c n hn)
      ∗ Pipeline.scopedRestBut (Ix := Unit) (Name := ℕ) (U := UR sig nD τ) (Lvl := ℕ) (Val := Elt F) spec2 c [cc2_scratch0]
      ∗ (∃ r, prngReg c r)) := rfl

theorem Phi_pos (c : Dev nD) (n : ℕ) (h : n ≤ cfg2.N) (hz : n ≠ 0) :
    Phi V c n h = iprop(owns (c : Thread nD τ) scM fullShare (acc V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

theorem Phi_castSucc (c : Dev nD) (t : Fin cfg2.N) :
    (dat V c).Φ t.castSucc = Phi V c t.val (Nat.le_of_lt t.isLt) := by
  dsimp only [dat]; simp only [Fin.coe_castSucc]

/-- The scoped rest split at the accumulator's buffer. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What the region is entered with: the accumulator's buffer at anything, the other scoped buffers, the generator
    register. -/
theorem PhiA_eq (c : Dev nD) :
    (Pipeline.ΦA (U := UR sig nD τ) spec2 c : sProp 𝕄)
      = iprop(iprop(iprop((∃ d, owns (c : Thread nD τ) scM fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM, owns_whole]; try rfl

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point.  The inputs' buffers hold their blocks; the point's position in its row block says which
    case runs; the invariant hands over the accumulator at what the point before left (at anything at the very first
    point) and takes it back at this point's accumulation.  Away from a closing point the outputs' buffers are handed
    back as found; at a closing point they come back at the mean, the log-deviation and the sample. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = Phi V c (t.val + 1) t.isLt from rfl, Phi_succ]
  have hN : t.val < 32 := lt_of_lt_of_eq t.isLt (show cfg2.N = 32 from N_2)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  by_cases h1 : t.val % 8 = 7
  · have h0 : ¬t.val % 8 = 0 := by omega
    have hz : t.val ≠ 0 := by omega
    rw [show (dat V c).leavesExact 3 t = owns (c : Thread nD τ) (ms3 t) fullShare ((dat V c).after 3 t) from by
      unfold Dat.leavesExact; rw [live_3 t h1], after_3]
    rw [show (dat V c).leavesExact 4 t = owns (c : Thread nD τ) (ms4 t) fullShare ((dat V c).after 4 t) from by
      unfold Dat.leavesExact; rw [live_4 t h1], after_4]
    rw [show (dat V c).leavesExact 5 t = owns (c : Thread nD τ) (ms5 t) fullShare ((dat V c).after 5 t) from by
      unfold Dat.leavesExact; rw [live_5 t h1], after_5]
    unfold meanB logdevB sampleB
    rw [acc_next V c t h0]
    rw [Phi_castSucc V c t, Phi_pos V c _ _ hz]
    iintro ⟨⟨HS, HR, Hg⟩, Ho, ⟨%d0, H0⟩, ⟨%d1, H1⟩, ⟨%d2, H2⟩, ⟨%d3, H3⟩, ⟨%d4, H4⟩, ⟨%d5, H5⟩⟩
    iapply (runC c (grid2.coords t) (ms0 t) (hs0 t) (ms1 t) (hs1 t) (ms2 t) (hs2 t) (ms3 t) (hs3 t) (ms4 t) (hs4 t) (ms5 t) (hs5 t) scM (Memref.isWhole_whole _)
      (fun h => h0 ((hcondZ t).mp h)) ((hcondL t).mpr h1) (adjB V c t) (featB V c t) (epsB V c t)
      (acc V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat V c) 3 t (idle_3 t h1) (noFlush_3 t h1)]
    rw [Dat.leavesExact_idle (dat V c) 4 t (idle_4 t h1) (noFlush_4 t h1)]
    rw [Dat.leavesExact_idle (dat V c) 5 t (idle_5 t h1) (noFlush_5 t h1)]
    by_cases h0 : t.val % 8 = 0
    · rw [acc_first V c t h0]
      by_cases hz : t.val = 0
      · rw [Phi_castSucc V c t, Phi_zero V c _ _ hz, PhiA_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply (runA c (grid2.coords t) (ms0 t) (hs0 t) (ms1 t) (hs1 t) (ms2 t) (hs2 t) (ms3 t) (hs3 t) (ms4 t) (hs4 t) (ms5 t) (hs5 t) scM (Memref.isWhole_whole _)
          ((hcondZ t).mpr h0) (fun h => h1 ((hcondL t).mp h)) (adjB V c t) (featB V c t) Set.univ _)
        isplitl [H0]; · iexact H0
        isplitl [H1]; · iexact H1
        isplitl [HS]; · iexact HS
        iintro ⟨H0, H1, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      · rw [Phi_castSucc V c t, Phi_pos V c _ _ hz]
        iintro ⟨⟨HS, HR, Hg⟩, Ho, ⟨%d0, H0⟩, ⟨%d1, H1⟩, ⟨%d2, H2⟩, ⟨%d3, H3⟩, ⟨%d4, H4⟩, ⟨%d5, H5⟩⟩
        iapply (runA c (grid2.coords t) (ms0 t) (hs0 t) (ms1 t) (hs1 t) (ms2 t) (hs2 t) (ms3 t) (hs3 t) (ms4 t) (hs4 t) (ms5 t) (hs5 t) scM (Memref.isWhole_whole _)
          ((hcondZ t).mpr h0) (fun h => h1 ((hcondL t).mp h)) (adjB V c t) (featB V c t) Set.univ _)
        isplitl [H0]; · iexact H0
        isplitl [H1]; · iexact H1
        isplitl [HS]; · iexists _; iexact HS
        iintro ⟨H0, H1, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
    · have hz : t.val ≠ 0 := fun e => h0 (by rw [e])
      rw [acc_next V c t h0]
      rw [Phi_castSucc V c t, Phi_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (runB c (grid2.coords t) (ms0 t) (hs0 t) (ms1 t) (hs1 t) (ms2 t) (hs2 t) (ms3 t) (hs3 t) (ms4 t) (hs4 t) (ms5 t) (hs5 t) scM (Memref.isWhole_whole _)
        (fun h => h0 ((hcondZ t).mp h)) (fun h => h1 ((hcondL t).mp h)) (adjB V c t) (featB V c t)
        (acc V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA (U := UR sig nD τ) spec2 c : sProp 𝕄) ⊢ (dat V c).Φ 0 := by
  rw [show (dat V c).Φ 0 = Phi V c 0 (Nat.zero_le _) from rfl, Phi_zero V c 0 _ rfl]
  try exact Idealize.SL.BI.Entails.refl _

/-- After any point but the first the invariant gives the entry resources back: the accumulator's named contents are
    forgotten. -/
theorem Phi_out (c : Dev nD) (t : Fin (cfg2.N + 1)) (ht : t.val ≠ 0) :
    (dat V c).Φ t ⊢ (Pipeline.ΦA (U := UR sig nD τ) spec2 c : sProp 𝕄) := by
  rw [show (dat V c).Φ t = Phi V c t.val (Nat.le_of_lt_succ t.isLt) from rfl, Phi_pos V c _ _ ht, PhiA_eq]
  iintro ⟨HS, HR, Hg⟩
  isplitl [HS HR]
  · isplitl [HS]; · iexists _; iexact HS
    iexact HR
  iexact Hg

/-- The same after the last point. -/
theorem hout (c : Dev nD) : (dat V c).Φ (Fin.last cfg2.N) ⊢ (Pipeline.ΦA (U := UR sig nD τ) spec2 c : sProp 𝕄) :=
  Phi_out V c _ (by rw [Fin.val_last]; have : cfg2.N = 32 := N_2; omega)

end Cert.Kernel.Head

end
-- ==== Proof.KDecBody.lean ====
/-
  The decoder's product at one grid point: the body obligation of the 4 × 4 grid of row blocks.

  Each point holds two blocks of 2048 rows of the one array both input windows read and writes the 2048 × 2048 block
  of their products; nothing is carried from point to point, so the invariant is the same at every point.
-/
import proofs.«423324_j76630806495674_3_alg».proof.Proof.KDecData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Dec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers hold their blocks -/

/-- The first row block's buffer holds its block at every point, fetched there or not: where the pipeline does not
    fetch it the block index has not moved, and the body left the block in place. -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The same of the second row block's buffer. -/
theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body's one store -/

/-- The whole output block as a rectangle: offset zero, full size. -/
abbrev rO : Rect S2048x2048 := Rect.unit (s := S2048x2048) ![0, 0] S2048x2048.size inb_S2048x2048_S2048x2048_0_0

/-- The offset of a whole-buffer rectangle is zero on both axes. -/
theorem hz : (![0, 0] : Fin 2 → Nat) = fun _ => 0 := funext fun a => by fin_cases a <;> rfl

/-- One store of the whole block covers it. -/
theorem coverO (p : Vec F S2048x2048 .f32) (y : S2048x2048.Idx) :
    ∃ pc ∈ ([⟨rO, p⟩] : List (View.Piece (Elt F) S2048x2048 .f32)), y ∈ pc.1.set :=
  View.cover_of_tiled [⟨rO, p⟩] S2048x2048.size (by rfl) y

/-! ## The body's triple -/

set_option maxHeartbeats 1000000 in
/-- The body on whole memrefs, the two row blocks' at read contents `x0`, `x1` and the output's at anything, runs to
    the continuation holding the row blocks' as they were and the output's at the product `k3_pay1 x0 x1`: two loads,
    a load of the output that is not used, one store of the whole block. -/
theorem sound_kernel (c : Dev nD) (E : Set ℕ) (i : grid3.Coords)
    (arg2 : Memref sig .tc .vmem S2048x128 .f32) (harg2 : arg2.IsWhole)
    (arg3 : Memref sig .tc .vmem S2048x128 .f32) (harg3 : arg3.IsWhole)
    (arg4 : Memref sig .tc .vmem S2048x2048 .f32) (harg4 : arg4.IsWhole)
    (x0 x1 : Vec F S2048x128 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k3_pay1 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (coverO _), View.canon_unit_zero hz]
  simp only [View.readAt_eq_ld, View.ld_unit_zero (S := S2048x128) hz]

/-! ## The body obligation, at a generic point -/

/-- What the body is called with at point `t`: the invariant, what the core owes, and the three windows' current
    buffers, the row blocks' at what they hold and the output's at what it holds, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns: the same invariant, the same debt, the row blocks in place and the output at the product. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the row blocks' buffers hold their blocks, so the triple applies; the invariant and the
    core's debt pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).Φ t.succ = (dat V c).Φ t.castSucc from rfl,
    show (dat V c).owesAt () t.succ = (dat V c).owesAt () t.castSucc from rfl,
    after_0, after_1, after_2]
  unfold outB
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point, -/
theorem hin (c : Dev nD) : (Pipeline.ΦA (U := UR sig nD τ) spec3 c : sProp 𝕄) ⊢ (dat V c).Φ 0 :=
  Idealize.SL.BI.Entails.refl _

/-- and the invariant after the last point is what the region hands back. -/
theorem hout (c : Dev nD) : (dat V c).Φ (Fin.last cfg3.N) ⊢ (Pipeline.ΦA (U := UR sig nD τ) spec3 c : sProp 𝕄) :=
  Idealize.SL.BI.Entails.refl _

end Cert.Kernel.Dec

end
-- ==== Proof.KDecShare.lean ====
/-
  One grid region whose two input windows read the same array: the core's unscoped buffers split into the region's
  arrays — the shared array as its two half shares, the output array whole — and the rest, and join back at the exit.
-/
import proofs.«423324_j76630806495674_3_alg».proof.Proof.KDecData
import Idealize.ShloMosaic.Lib.Pipeline.Launch
import Idealize.ShloMosaic.Lib.Pipeline.RegionsLoop
import Idealize.ShloMosaic.Lib.Pipeline.Cells
import Idealize.ShloMosaic.Rules.PointsTo

set_option maxRecDepth 16384

noncomputable section

namespace Cert.Kernel.Dec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The three windows name two arrays: the two inputs the one, the output the other. -/
theorem image_arrRef : Finset.univ.image (Pipeline.arrRef spec3) = {main_v18_2, main_v19} := by decide

/-- The shares the region holds its arrays at: the first input window the left half, the second the right half, the
    output the whole. -/
theorem share_0 (c : Dev nD) : (dat V c).share 0 = fullShare.left := rfl
theorem share_1 (c : Dev nD) : (dat V c).share 1 = fullShare.right := rfl
theorem share_2 (c : Dev nD) : (dat V c).share 2 = fullShare := rfl

/-- Window 0's array is the whole shared buffer, held at the left half share. -/
theorem arr_0 (c : Dev nD) (X : Buf (Elt F) ((cfg3.win 0).arr.view.loc (c : Thread nD τ))) :
    ((cfg3.win 0).arr.view.loc (c : Thread nD τ) ↦[(cfg3.win 0).arr.view.set]{(dat V c).share 0} X : sProp 𝕄)
      = ((c : Thread nD τ).loc main_v18_2 ↦{fullShare.left} X) := by
  rw [(arr_whole3 0).set_eq_univ, share_0]

/-- Window 1's array is the same whole buffer, held at the right half share. -/
theorem arr_1 (c : Dev nD) (X : Buf (Elt F) ((cfg3.win 1).arr.view.loc (c : Thread nD τ))) :
    ((cfg3.win 1).arr.view.loc (c : Thread nD τ) ↦[(cfg3.win 1).arr.view.set]{(dat V c).share 1} X : sProp 𝕄)
      = ((c : Thread nD τ).loc main_v18_2 ↦{fullShare.right} X) := by
  rw [(arr_whole3 1).set_eq_univ, share_1]

/-- Window 2's array is the whole output buffer, held at the full share. -/
theorem arr_2 (c : Dev nD) (X : Buf (Elt F) ((cfg3.win 2).arr.view.loc (c : Thread nD τ))) :
    ((cfg3.win 2).arr.view.loc (c : Thread nD τ) ↦[(cfg3.win 2).arr.view.set]{(dat V c).share 2} X : sProp 𝕄)
      = ((c : Thread nD τ).loc main_v19 ↦{fullShare} X) := by
  rw [(arr_whole3 2).set_eq_univ, share_2]

/-- An input array is never written: after any number of points both input windows still see the entry contents of
    the shared array. -/
theorem arrAt_0 (c : Dev nD) (n : ℕ) : (dat V c).arrAt 0 n = V c main_v18_2 := by
  rw [Pipeline.Dat.arrAt_in (dat V c) 0 rfl n]; rfl
theorem arrAt_1 (c : Dev nD) (n : ℕ) : (dat V c).arrAt 1 n = V c main_v18_2 := by
  rw [Pipeline.Dat.arrAt_in (dat V c) 1 rfl n]; rfl

/-- Before the first point the output array holds its entry contents. -/
theorem arrAt_2_zero (c : Dev nD) : (dat V c).arrAt 2 0 = V c main_v19 := rfl

/-- The core's unscoped buffers, each whole at the region-entry contents, hand the region its arrays — the shared
    array split in two halves — and the rest. -/
theorem arrays_of_bufs (c : Dev nD) :
    (unscopedBufs c (V c) : sProp 𝕄)
      ⊢ iprop((dat V c).arrays ((dat V c).arrAt · 0)
          ∗ Pipeline.unscopedRest (Ix := Unit) (Name := ℕ) (U := UR sig nD τ) (Lvl := ℕ) spec3 c (V c)) := by
  -- the unscoped buffers are the two buffers behind the windows' arrays and the rest
  rw [show (unscopedBufs c (V c) : sProp 𝕄) = iprop((Pipeline.arrBufs spec3 c (V c) : sProp 𝕄) ∗ Pipeline.unscopedRest spec3 c (V c))
    from Pipeline.unscopedBufs_split₀ cfgs 3 winFacts₀3.arr_unscoped c (V c)]
  refine sep_mono ?_ Entails.rfl
  unfold Pipeline.arrBufs Dat.arrays
  rw [image_arrRef, bigSep_W3, bigSep_insert (by decide), bigSep_singleton, arr_0, arr_1, arr_2]
  beta_reduce
  rw [arrAt_0, arrAt_1, arrAt_2_zero]
  change iprop(_ ∗ _) ⊢ _
  iintro ⟨H18, H19⟩
  -- the full share of the shared array is its left half and its right half
  ihave H18' := (pointsTo_share (PosShare.mem_left_op_right fullShare)).1 $$ H18
  icases H18' with ⟨Hl, Hr⟩
  isplitl [Hl]; · iexact Hl
  isplitl [Hr]; · iexact Hr
  iexact H19

/-- At the exit the two halves join again (both hold the entry contents: an input array is never written) and the
    output array holds what the write-backs left. -/
theorem bufs_of_arrays (c : Dev nD) (V' : (b : Ref sig .tc) → Buf (Elt F) ((c : Thread nD τ).loc b))
    (hout : V' main_v19 = (dat V c).arrAt 2 cfg3.N) (hrest : ∀ b : Ref sig .tc, b ≠ main_v19 → V' b = V c b) :
    iprop((dat V c).arrays ((dat V c).arrAt · cfg3.N)
        ∗ Pipeline.unscopedRest (Ix := Unit) (Name := ℕ) (U := UR sig nD τ) (Lvl := ℕ) spec3 c (V c))
      ⊢ (unscopedBufs c V' : sProp 𝕄) := by
  rw [show (unscopedBufs c V' : sProp 𝕄) = iprop((Pipeline.arrBufs spec3 c V' : sProp 𝕄) ∗ Pipeline.unscopedRest spec3 c V')
    from Pipeline.unscopedBufs_split₀ cfgs 3 winFacts₀3.arr_unscoped c V']
  refine sep_mono ?_ (Entails.of_eq ?_)
  · unfold Pipeline.arrBufs Dat.arrays
    rw [image_arrRef, bigSep_W3, bigSep_insert (by decide), bigSep_singleton, arr_0, arr_1, arr_2]
    beta_reduce
    rw [arrAt_0, arrAt_1, hout, hrest main_v18_2 (by decide)]
    change _ ⊢ iprop(_ ∗ _)
    iintro ⟨Hl, Hr, H19⟩
    isplitl [Hl Hr]
    · -- the two half shares of the shared array, at the same contents, are its full share
      iapply (pointsTo_share (PosShare.mem_left_op_right fullShare)).2
      isplitl [Hl]; · iexact Hl
      iexact Hr
    · iexact H19
  · -- off the windows' arrays the new valuation agrees with the old: a buffer that is no window's array is not the output
    unfold Pipeline.unscopedRest
    exact bigSep_congr fun b hb => by
      have hne : b ≠ main_v19 := fun h => (Finset.mem_sdiff.mp hb).2 (by
        rw [h, image_arrRef]; exact Finset.mem_insert_of_mem (Finset.mem_singleton_self _))
      rw [hrest b hne]

end Cert.Kernel.Dec

end
-- ==== Proof.KRun.lean ====
/-
  The program's run, step by step: the host operations and the four grid regions in order, each region entered from
  the buffer contents the step before left and left at the contents the next step finds; at the end every buffer is
  read off the last contents.
-/
import proofs.«423324_j76630806495674_3_alg».proof.Proof.KChain
import proofs.«423324_j76630806495674_3_alg».proof.Proof.KProjBody
import proofs.«423324_j76630806495674_3_alg».proof.Proof.KConvBody
import proofs.«423324_j76630806495674_3_alg».proof.Proof.KHeadBody
import proofs.«423324_j76630806495674_3_alg».proof.Proof.KDecBody
import proofs.«423324_j76630806495674_3_alg».proof.Proof.KDecShare
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the four regions, each at its entry contents -/

def pdats : (p : Fin 4) → (c : Dev nD) → Dat τ (Elt F) Unit ℕ (UR sig nD τ) ℕ (Pipeline.pin (pcfgs (F := F)) adm p) c
  | ⟨0, _⟩ => fun c => Proj.dat (E1 m) c
  | ⟨1, _⟩ => fun c => Conv.dat (E3 m) c
  | ⟨2, _⟩ => fun c => Head.dat (E4 m) c
  | ⟨3, _⟩ => fun c => Dec.dat (E5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the generator register at some state, nothing owed. -/
abbrev R (c : Dev nD) : sProp 𝕄 := iprop((∃ r, prngReg c r) ∗ ∃ W, owes (c : Thread nD τ) (0 : CellTallies nD τ sig Unit) W)

/-- A stretch of host operations as a step. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0's exit contents read at the TensorCore's references. -/
abbrev E2 (c : Dev nD) (b : Ref sig .tc) : Buf (Elt F) ((c : Thread nD τ).loc b) := W2 m c b

/-! ## The regions as steps -/

/-- Each region's arrays at the exit, and the other buffers unchanged. -/
theorem hF0 (c : Dev nD) (w : Fin cfg0.W) : (pdats m 0 c).arrAt w cfg0.N = E2 m c (Pipeline.arrRef spec0 w) := by
  match w with
  | ⟨0, _⟩ => exact (((Proj.dat (E1 m) c).arrAt_in 0 rfl _).trans (Proj.A_eq (E1 m) c 0)).trans (W2_of m c main_v13 (by decide)).symm
  | ⟨1, _⟩ => exact (((Proj.dat (E1 m) c).arrAt_in 1 rfl _).trans (Proj.A_eq (E1 m) c 1)).trans (W2_of m c main_v14 (by decide)).symm
  | ⟨2, _⟩ => exact (W2_out m c).symm
theorem hrest0 (c : Dev nD) : ∀ b, b ∉ Finset.univ.image (Pipeline.arrRef spec0) → E2 m c b = E1 m c b :=
  fun b hb => W2_of m c b fun e => hb (Finset.mem_image.mpr ⟨2, Finset.mem_univ _, e.symm⟩)

theorem hF1 (c : Dev nD) (w : Fin cfg1.W) : (pdats m 1 c).arrAt w cfg1.N = E4 m c (Pipeline.arrRef spec1 w) := by
  match w with
  | ⟨0, _⟩ => exact (((Conv.dat (E3 m) c).arrAt_in 0 rfl _).trans (Conv.A_eq (E3 m) c 0)).trans (W4_of m c main_v12 (by decide)).symm
  | ⟨1, _⟩ => exact (((Conv.dat (E3 m) c).arrAt_in 1 rfl _).trans (Conv.A_eq (E3 m) c 1)).trans (W4_of m c main_v15 (by decide)).symm
  | ⟨2, _⟩ => exact (((Conv.dat (E3 m) c).arrAt_in 2 rfl _).trans (Conv.A_eq (E3 m) c 2)).trans (W4_of m c main_v16 (by decide)).symm
  | ⟨3, _⟩ => exact (W4_out m c).symm
theorem hrest1 (c : Dev nD) : ∀ b, b ∉ Finset.univ.image (Pipeline.arrRef spec1) → E4 m c b = E3 m c b :=
  fun b hb => W4_of m c b fun e => hb (Finset.mem_image.mpr ⟨3, Finset.mem_univ _, e.symm⟩)

theorem hF2 (c : Dev nD) (w : Fin cfg2.W) : (pdats m 2 c).arrAt w cfg2.N = E5 m c (Pipeline.arrRef spec2 w) := by
  match w with
  | ⟨0, _⟩ => exact (((Head.dat (E4 m) c).arrAt_in 0 rfl _).trans (Head.A_eq (E4 m) c 0)).trans (W5_of m c main_v11 (by decide) (by decide) (by decide)).symm
  | ⟨1, _⟩ => exact (((Head.dat (E4 m) c).arrAt_in 1 rfl _).trans (Head.A_eq (E4 m) c 1)).trans (W5_of m c main_v17 (by decide) (by decide) (by decide)).symm
  | ⟨2, _⟩ => exact (((Head.dat (E4 m) c).arrAt_in 2 rfl _).trans (Head.A_eq (E4 m) c 2)).trans (W5_of m c main_arg7 (by decide) (by decide) (by decide)).symm
  | ⟨3, _⟩ => exact (W5_mean m c).symm
  | ⟨4, _⟩ => exact (W5_logdev m c).symm
  | ⟨5, _⟩ => exact (W5_sample m c).symm
theorem hrest2 (c : Dev nD) : ∀ b, b ∉ Finset.univ.image (Pipeline.arrRef spec2) → E5 m c b = E4 m c b :=
  fun b hb => W5_of m c b (fun e => hb (Finset.mem_image.mpr ⟨3, Finset.mem_univ _, e.symm⟩))
    (fun e => hb (Finset.mem_image.mpr ⟨4, Finset.mem_univ _, e.symm⟩)) (fun e => hb (Finset.mem_image.mpr ⟨5, Finset.mem_univ _, e.symm⟩))

-- a library lemma stated over the pinned configuration unifies with the printed one only when unification may unfold
-- plain definitions in a metavariable's type
set_option backward.isDefEq.respectTransparency.types false in
/-- Region 0 over the thread state: entered with every unscoped buffer at `W1`, left with them at `W2`. Its arrays
    are split out of the unscoped buffers and put back at the exit contents; the generator register goes into the
    region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA (U := UR sig nD τ) spec0 c : sProp 𝕄) from by
      unfold Pipeline.ΦA
      iintro ⟨Hp, -, Hr⟩
      isplitl [Hr]; · iexact Hr
      iexact Hp).trans (Proj.hin (E1 m) c)
  hout c := by
    rw [Pipeline.ownSems0_none]
    exact (Proj.hout (E1 m) c).trans (show (Pipeline.ΦA (U := UR sig nD τ) spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays
    are split out of the unscoped buffers and put back at the exit contents; the generator register goes into the
    region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Conv.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA (U := UR sig nD τ) spec1 c : sProp 𝕄) from by
      unfold Pipeline.ΦA
      iintro ⟨Hp, -, Hr⟩
      isplitl [Hr]; · iexact Hr
      iexact Hp).trans (Conv.hin (E3 m) c)
  hout c := by
    rw [Pipeline.ownSems0_none]
    exact (Conv.hout (E3 m) c).trans (show (Pipeline.ΦA (U := UR sig nD τ) spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W4`, left with them at `W5`. Its arrays
    are split out of the unscoped buffers and put back at the exit contents; the generator register goes into the
    region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Head.body_obligation (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA (U := UR sig nD τ) spec2 c : sProp 𝕄) from by
      unfold Pipeline.ΦA
      iintro ⟨Hp, -, Hr⟩
      isplitl [Hr]; · iexact Hr
      iexact Hp).trans (Head.hin (E4 m) c)
  hout c := by
    rw [Pipeline.ownSems0_none]
    exact (Head.hout (E4 m) c).trans (show (Pipeline.ΦA (U := UR sig nD τ) spec2 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the Gram matrix), whose two input windows read one array: its arrays are split out of the unscoped
    buffers with that array in two halves and joined again at the exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (Dec.body_obligation (E5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (E5 m c)
  hentry c := by
    rw [Pipeline.ownSems0_none]
    have hsplit := Dec.arrays_of_bufs (E5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA (U := UR sig nD τ) spec3 c : sProp 𝕄) from by
      unfold Pipeline.ΦA
      iintro ⟨Hp, -, Hr⟩
      isplitl [Hr]; · iexact Hr
      iexact Hp).trans (Dec.hin (E5 m) c)
  hout c := by
    rw [Pipeline.ownSems0_none]
    exact (Dec.hout (E5 m) c).trans (show (Pipeline.ΦA (U := UR sig nD τ) spec3 c : sProp 𝕄) ⊢ _ from by
      unfold Pipeline.ΦA
      iintro ⟨Hr, Hp⟩
      isplitl [Hp]; · iexact Hp
      isplitr; · iempintro
      iexact Hr)
  hexit c := by
    have hjoin := Dec.bufs_of_arrays (E5 m) c (fun b => W6 m c b) (W6_out m c) (fun b hb => W6_of m c b hb)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

/-! ## The program as its steps, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .region (reg3 m),
    .host (hseg hostOps4 hostOps4_sub hostOps4_fresh (W6 m)) ]

theorem main_run (c : Dev nD) : main (F := F) c = Pipeline.Seg.run (segs m) := (main_chain c).trans (by chain_rfl)

set_option backward.isDefEq.respectTransparency.types false in
/-- THE RUN. From any memory with zero counters every weakly fair execution terminates, nothing faulting, and in every
    final state each unscoped buffer holds the last step's contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m c) ∗ R c) ⊢ _ from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- A buffer the program never writes holds its launch contents at the end; an output buffer holds the last step's. -/
theorem run_read : θ_run defs (onTc (τ := τ) (main (F := F))) ⟨m, fun _ => 0, ρ⟩ (fun r => ∀ c : Dev nD,
      r.2.mem ((c.tc : Thread nD τ).loc main_v20) = W7 m c main_v20
      ∧ r.2.mem ((c.tc : Thread nD τ).loc main_v18_0) = W7 m c main_v18_0
      ∧ r.2.mem ((c.tc : Thread nD τ).loc main_v18_1) = W7 m c main_v18_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v20 (by decide)), h c _ (mem_uc main_v18_0 (by decide)), h c _ (mem_uc main_v18_1 (by decide)),
      (h c _ (mem_uc main_arg0 (by decide))).trans (W7_kept m c main_arg0 (by decide) (by decide) (by decide) (by decide) (by decide) (by decide) (by decide) (by decide) (by decide)),
      (h c _ (mem_uc main_arg1 (by decide))).trans (W7_kept m c main_arg1 (by decide) (by decide) (by decide) (by decide) (by decide) (by decide) (by decide) (by decide) (by decide)),
      (h c _ (mem_uc main_arg2 (by decide))).trans (W7_kept m c main_arg2 (by decide) (by decide) (by decide) (by decide) (by decide) (by decide) (by decide) (by decide) (by decide)),
      (h c _ (mem_uc main_arg3 (by decide))).trans (W7_kept m c main_arg3 (by decide) (by decide) (by decide) (by decide) (by decide) (by decide) (by decide) (by decide) (by decide)),
      (h c _ (mem_uc main_arg4 (by decide))).trans (W7_kept m c main_arg4 (by decide) (by decide) (by decide) (by decide) (by decide) (by decide) (by decide) (by decide) (by decide)),
      (h c _ (mem_uc main_arg5 (by decide))).trans (W7_kept m c main_arg5 (by decide) (by decide) (by decide) (by decide) (by decide) (by decide) (by decide) (by decide) (by decide)),
      (h c _ (mem_uc main_arg6 (by decide))).trans (W7_kept m c main_arg6 (by decide) (by decide) (by decide) (by decide) (by decide) (by decide) (by decide) (by decide) (by decide)),
      (h c _ (mem_uc main_arg7 (by decide))).trans (W7_kept m c main_arg7 (by decide) (by decide) (by decide) (by decide) (by decide) (by decide) (by decide) (by decide) (by decide))⟩)
    (run m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2.2.2) (run_read m ρ)

end Cert.Kernel.Run

end
-- ==== Proof.KIProjData.lean ====
/-
  The first matrix product, x · w1, as a grid of four row blocks: what each grid point finds, what it leaves.

  Each of the 4 points holds a 2048 × 512 block of x and all of w1.  The accumulator is cleared, the block's product
  added to it, and the sum written out, all at the one point (the contraction axis has a single block), so nothing is
  carried from point to point.
-/
import proofs.«423324_j76630806495674_3_alg».proof.Proof.Gen.KernelIdeal.Launch
import proofs.«423324_j76630806495674_3_alg».proof.Proof.Gen.KernelIdeal.Skeleton
import proofs.«423324_j76630806495674_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x and the block of w1 at a point, at their literal types. -/
abbrev xB (c : Dev nD) (t : Fin cfg0.N) : Vec F S2048x512 .bf16 := iblk V c 0 t
abbrev wB (c : Dev nD) (t : Fin cfg0.N) : Vec F S512x256 .bf16 := iblk V c 1 t

/-- The accumulator after the point: zero plus the block product. -/
def acc (c : Dev nD) (t : Fin cfg0.N) : Vec F S2048x256 .f32 := k0_pay2 (k0_pay1 (F := F)) (xB V c t) (wB V c t)

/-- The output block the point writes: the accumulator, narrowed. -/
def outB (c : Dev nD) (t : Fin cfg0.N) : Vec F S2048x256 .bf16 := k0_pay3 (acc V c t)

/-- The accumulator buffer. -/
abbrev scM : Memref sig .tc .vmem S2048x256 .f32 := Memref.whole cc0_scratch0

/-- The proof data: arrays as found; inputs left in place, the output at `outB`; the invariant keeps no contents. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outB V c t
  Φ _ := Pipeline.ΦA (U := UR sig nD τ) spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outB V c t := by dsimp only [dat]

end Cert.KernelIdeal.Proj

end
-- ==== Proof.KIConvData.lean ====
/-
  The first graph layer, relu(A · h) · W, on a 4 × 4 grid: what each grid point finds, what it leaves.

  Point t = 4 i + k holds block (i, k) of the adjacency matrix and row block k of the features.  An accumulator of
  2048 × 256 sums the block products over k (cleared at k = 0); at k = 3 its rectified value is multiplied by the
  256 × 256 weight matrix and written to row block i of the output.  The accumulator is carried from point to point.
-/
import proofs.«423324_j76630806495674_3_alg».proof.Proof.Gen.KernelIdeal.Launch
import proofs.«423324_j76630806495674_3_alg».proof.Proof.Gen.KernelIdeal.Skeleton
import proofs.«423324_j76630806495674_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block, the feature block and the weights at a point, at their literal types. -/
abbrev adjB (c : Dev nD) (t : Fin cfg1.N) : Vec F S2048x2048 .bf16 := iblk V c 0 t
abbrev featB (c : Dev nD) (t : Fin cfg1.N) : Vec F S2048x256 .bf16 := iblk V c 1 t
abbrev wB (c : Dev nD) (t : Fin cfg1.N) : Vec F S256x256 .f32 := iblk V c 2 t

/-- THE ACCUMULATION. The accumulator after point `n`: the block product at `n` added to zero when `n` opens a row block
    (`n % 4 = 0`), else to what the point before left. -/
def acc (c : Dev nD) : (n : ℕ) → n < cfg1.N → Vec F S2048x256 .f32
  | 0, hn => k1_pay2 (k1_pay1 (F := F)) (adjB V c ⟨0, hn⟩) (featB V c ⟨0, hn⟩)
  | n + 1, hn => k1_pay2 (if (n + 1) % 4 = 0 then k1_pay1 (F := F) else acc c n (Nat.lt_of_succ_lt hn)) (adjB V c ⟨n + 1, hn⟩) (featB V c ⟨n + 1, hn⟩)

/-- The output block a closing point (`t % 4 = 3`) writes: the rectified accumulator times the weights.  (At the other
    points the output buffer is left as found, and this value is not consulted.) -/
def outB (c : Dev nD) (t : Fin cfg1.N) : Vec F S2048x256 .f32 := k1_pay3 (acc V c t.val t.isLt) (wB V c t)

/-- The accumulator buffer. -/
abbrev scM : Memref sig .tc .vmem S2048x256 .f32 := Memref.whole cc1_scratch0

/-- The invariant before position `n`: before the first point nothing is known of the scoped buffers; afterwards the
    accumulator holds `acc` of the point before, the other scoped buffers anything. -/
def Phi (c : Dev nD) : (n : ℕ) → n ≤ cfg1.N → sProp 𝕄
  | 0, _ => Pipeline.ΦA (U := UR sig nD τ) spec1 c
  | n + 1, hn => iprop(owns (c : Thread nD τ) scM fullShare (acc V c n hn)
      ∗ Pipeline.scopedRestBut (Ix := Unit) (Name := ℕ) (U := UR sig nD τ) (Lvl := ℕ) (Val := Elt F) spec1 c [cc1_scratch0]
      ∗ (∃ r, prngReg c r))

/-- The proof data: arrays as found; inputs left in place, the output at `outB`; the invariant `Phi`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outB V c t
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outB V c t := by dsimp only [dat]

end Cert.KernelIdeal.Conv

end
-- ==== Proof.KIHeadData.lean ====
/-
  The two heads and the sample, on a 4 × 8 grid: what each grid point finds, what it leaves.

  Point t = 8 i + k holds block (i, k) of the adjacency matrix (2048 × 1024), row block k of the 8192 × 256 operand and
  row block i of the noise.  An accumulator of 2048 × 256 sums the block products over k (cleared at k = 0); at k = 7
  its left half is written out as the mean, its right half as the log-deviation, and mean + noise · exp(log-deviation)
  as the sample.  The accumulator is carried from point to point.
-/
import proofs.«423324_j76630806495674_3_alg».proof.Proof.Gen.KernelIdeal.Launch
import proofs.«423324_j76630806495674_3_alg».proof.Proof.Gen.KernelIdeal.Skeleton
import proofs.«423324_j76630806495674_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block, the operand block and the noise block at a point, at their literal types. -/
abbrev adjB (c : Dev nD) (t : Fin cfg2.N) : Vec F S2048x1024 .f32 := iblk V c 0 t
abbrev featB (c : Dev nD) (t : Fin cfg2.N) : Vec F S1024x256 .f32 := iblk V c 1 t
abbrev epsB (c : Dev nD) (t : Fin cfg2.N) : Vec F S2048x128 .f32 := iblk V c 2 t

/-- THE ACCUMULATION. The accumulator after point `n`: the block product at `n` added to zero when `n` opens a row block
    (`n % 8 = 0`), else to what the point before left. -/
def acc (c : Dev nD) : (n : ℕ) → n < cfg2.N → Vec F S2048x256 .f32
  | 0, hn => k2_pay2 (k2_pay1 (F := F)) (adjB V c ⟨0, hn⟩) (featB V c ⟨0, hn⟩)
  | n + 1, hn => k2_pay2 (if (n + 1) % 8 = 0 then k2_pay1 (F := F) else acc c n (Nat.lt_of_succ_lt hn)) (adjB V c ⟨n + 1, hn⟩) (featB V c ⟨n + 1, hn⟩)

/-- The three output blocks a closing point (`t % 8 = 7`) writes.  (At the other points the output buffers are left as
    found, and these values are not consulted.) -/
def meanB (c : Dev nD) (t : Fin cfg2.N) : Vec F S2048x128 .f32 := k2_pay3 (acc V c t.val t.isLt)
def logdevB (c : Dev nD) (t : Fin cfg2.N) : Vec F S2048x128 .f32 := k2_pay4 (acc V c t.val t.isLt)
def sampleB (c : Dev nD) (t : Fin cfg2.N) : Vec F S2048x128 .f32 := k2_pay5 (acc V c t.val t.isLt) (epsB V c t)

/-- The accumulator buffer. -/
abbrev scM : Memref sig .tc .vmem S2048x256 .f32 := Memref.whole cc2_scratch0

/-- The invariant before position `n`: before the first point nothing is known of the scoped buffers; afterwards the
    accumulator holds `acc` of the point before, the other scoped buffers anything. -/
def Phi (c : Dev nD) : (n : ℕ) → n ≤ cfg2.N → sProp 𝕄
  | 0, _ => Pipeline.ΦA (U := UR sig nD τ) spec2 c
  | n + 1, hn => iprop(owns (c : Thread nD τ) scM fullShare (acc V c n hn)
      ∗ Pipeline.scopedRestBut (Ix := Unit) (Name := ℕ) (U := UR sig nD τ) (Lvl := ℕ) (Val := Elt F) spec2 c [cc2_scratch0]
      ∗ (∃ r, prngReg c r))

/-- The proof data: arrays as found; inputs left in place, the outputs at their blocks; the invariant `Phi`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => meanB V c t
    | ⟨4, _⟩ => logdevB V c t
    | ⟨5, _⟩ => sampleB V c t
  Φ t := Phi V c t.val (Nat.le_of_lt_succ t.isLt)
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = meanB V c t := by dsimp only [dat]
theorem after_4 (c : Dev nD) (t : Fin cfg2.N) : (dat V c).after 4 t = logdevB V c t := by dsimp only [dat]
theorem after_5 (c : Dev nD) (t : Fin cfg2.N) : (dat V c).after 5 t = sampleB V c t := by dsimp only [dat]

end Cert.KernelIdeal.Head

end
-- ==== Proof.KIDecData.lean ====
/-
  The Gram matrix z · zᵀ on a 4 × 4 grid: what each grid point finds, what it leaves.

  Point t = 4 i + j holds row block i of z through one window and row block j of z through another (the two windows
  read the same array), and writes block (i, j) of the product.  Nothing is carried from point to point.
-/
import proofs.«423324_j76630806495674_3_alg».proof.Proof.Gen.KernelIdeal.Launch
import proofs.«423324_j76630806495674_3_alg».proof.Proof.Gen.KernelIdeal.Skeleton
import proofs.«423324_j76630806495674_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Dec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two row blocks at a point, at their literal types. -/
abbrev rowB (c : Dev nD) (t : Fin cfg3.N) : Vec F S2048x128 .f32 := iblk V c 0 t
abbrev colB (c : Dev nD) (t : Fin cfg3.N) : Vec F S2048x128 .f32 := iblk V c 1 t

/-- The output block the point writes. -/
def outB (c : Dev nD) (t : Fin cfg3.N) : Vec F S2048x2048 .f32 := k3_pay1 (rowB V c t) (colB V c t)

/-- The proof data: arrays as found; inputs left in place, the output at `outB`; the invariant keeps no contents; the
    two windows on the one array each hold half of it. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => outB V c t
  Φ _ := Pipeline.ΦA (U := UR sig nD τ) spec3 c
  q w := match w with
    | ⟨0, _⟩ => fullShare.left
    | ⟨1, _⟩ => fullShare.right
    | ⟨2, _⟩ => fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = outB V c t := by dsimp only [dat]

end Cert.KernelIdeal.Dec

end
-- ==== Proof.KIChain.lean ====
/-
  The buffer contents between the steps of the program: the launch memory, then each stretch of host operations
  applied, then each grid region's output arrays replaced by what the region's write-backs leave.
-/
import proofs.«423324_j76630806495674_3_alg».proof.Proof.KIProjData
import proofs.«423324_j76630806495674_3_alg».proof.Proof.KIConvData
import proofs.«423324_j76630806495674_3_alg».proof.Proof.KIHeadData
import proofs.«423324_j76630806495674_3_alg».proof.Proof.KIDecData
import proofs.«423324_j76630806495674_3_alg».proof.Proof.Gen.KernelIdeal.Regions

noncomputable section

namespace Cert.KernelIdeal.Chain

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core `c`'s buffers at launch. -/
abbrev W0 (c : Dev nD) : Valuation τ sig (Elt F) := fun b => m (c, b)
/-- After the first stretch of host operations: the dense adjacency matrix in both precisions, the narrowed inputs. -/
abbrev W1 (c : Dev nD) : Valuation τ sig (Elt F) := StableHlo.after hostOps0 (W0 m c)
abbrev E1 (c : Dev nD) (b : Ref sig .tc) : Buf (Elt F) ((c : Thread nD τ).loc b) := W1 m c b
/-- After the first product: its output array at what the region leaves. -/
def W2 (c : Dev nD) : Valuation τ sig (Elt F) :=
  Function.update (W1 m c) main_v15 ((Proj.dat (E1 m) c).arrAt 2 cfg0.N)
/-- After the weights are laid side by side. -/
abbrev W3 (c : Dev nD) : Valuation τ sig (Elt F) := StableHlo.after hostOps1 (W2 m c)
abbrev E3 (c : Dev nD) (b : Ref sig .tc) : Buf (Elt F) ((c : Thread nD τ).loc b) := W3 m c b
/-- After the first graph layer. -/
def W4 (c : Dev nD) : Valuation τ sig (Elt F) :=
  Function.update (W3 m c) main_v17 ((Conv.dat (E3 m) c).arrAt 3 cfg1.N)
abbrev E4 (c : Dev nD) (b : Ref sig .tc) : Buf (Elt F) ((c : Thread nD τ).loc b) := W4 m c b
/-- After the heads: mean, log-deviation and sample. -/
def W5 (c : Dev nD) : Valuation τ sig (Elt F) :=
  Function.update (Function.update (Function.update (W4 m c) main_v18_0 ((Head.dat (E4 m) c).arrAt 3 cfg2.N))
    main_v18_1 ((Head.dat (E4 m) c).arrAt 4 cfg2.N)) main_v18_2 ((Head.dat (E4 m) c).arrAt 5 cfg2.N)
abbrev E5 (c : Dev nD) (b : Ref sig .tc) : Buf (Elt F) ((c : Thread nD τ).loc b) := W5 m c b
/-- After the Gram matrix. -/
def W6 (c : Dev nD) : Valuation τ sig (Elt F) :=
  Function.update (W5 m c) main_v19 ((Dec.dat (E5 m) c).arrAt 2 cfg3.N)
/-- After the final flattening. -/
abbrev W7 (c : Dev nD) : Valuation τ sig (Elt F) := StableHlo.after hostOps4 (W6 m c)

/-! ## What each step leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v15) : W2 m c r = W1 m c r := by
  unfold W2; exact Function.update_of_ne (StableHlo.devRef_ne_of_ne h : (Proc.devRef .tc r : DevRef τ sig) ≠ Proc.devRef .tc main_v15) _ _
theorem W2_out (c : Dev nD) : W2 m c main_v15 = (Proj.dat (E1 m) c).arrAt 2 cfg0.N := by
  unfold W2; exact Function.update_self _ _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v17) : W4 m c r = W3 m c r := by
  unfold W4; exact Function.update_of_ne (StableHlo.devRef_ne_of_ne h : (Proc.devRef .tc r : DevRef τ sig) ≠ Proc.devRef .tc main_v17) _ _
theorem W4_out (c : Dev nD) : W4 m c main_v17 = (Conv.dat (E3 m) c).arrAt 3 cfg1.N := by
  unfold W4; exact Function.update_self _ _ _
theorem W5_of (c : Dev nD) (r : Ref sig .tc) (h0 : r ≠ main_v18_0) (h1 : r ≠ main_v18_1) (h2 : r ≠ main_v18_2) : W5 m c r = W4 m c r := by
  unfold W5
  rw [Function.update_of_ne (StableHlo.devRef_ne_of_ne h2 : (Proc.devRef .tc r : DevRef τ sig) ≠ Proc.devRef .tc main_v18_2),
    Function.update_of_ne (StableHlo.devRef_ne_of_ne h1 : (Proc.devRef .tc r : DevRef τ sig) ≠ Proc.devRef .tc main_v18_1),
    Function.update_of_ne (StableHlo.devRef_ne_of_ne h0 : (Proc.devRef .tc r : DevRef τ sig) ≠ Proc.devRef .tc main_v18_0)]
theorem W5_mean (c : Dev nD) : W5 m c main_v18_0 = (Head.dat (E4 m) c).arrAt 3 cfg2.N := by
  unfold W5
  rw [Function.update_of_ne (StableHlo.devRef_ne_of_ne (by decide) : (Proc.devRef .tc main_v18_0 : DevRef τ sig) ≠ Proc.devRef .tc main_v18_2),
    Function.update_of_ne (StableHlo.devRef_ne_of_ne (by decide) : (Proc.devRef .tc main_v18_0 : DevRef τ sig) ≠ Proc.devRef .tc main_v18_1)]
  exact Function.update_self _ _ _
theorem W5_logdev (c : Dev nD) : W5 m c main_v18_1 = (Head.dat (E4 m) c).arrAt 4 cfg2.N := by
  unfold W5
  rw [Function.update_of_ne (StableHlo.devRef_ne_of_ne (by decide) : (Proc.devRef .tc main_v18_1 : DevRef τ sig) ≠ Proc.devRef .tc main_v18_2)]
  exact Function.update_self _ _ _
theorem W5_sample (c : Dev nD) : W5 m c main_v18_2 = (Head.dat (E4 m) c).arrAt 5 cfg2.N := by
  unfold W5; exact Function.update_self _ _ _
theorem W6_of (c : Dev nD) (r : Ref sig .tc) (h : r ≠ main_v19) : W6 m c r = W5 m c r := by
  unfold W6; exact Function.update_of_ne (StableHlo.devRef_ne_of_ne h : (Proc.devRef .tc r : DevRef τ sig) ≠ Proc.devRef .tc main_v19) _ _
theorem W6_out (c : Dev nD) : W6 m c main_v19 = (Dec.dat (E5 m) c).arrAt 2 cfg3.N := by
  unfold W6; exact Function.update_self _ _ _
theorem W7_of (c : Dev nD) (r : Ref sig .tc) (h : r ∉ hostOps4_W) : W7 m c r = W6 m c r :=
  StableHlo.after_of_writes_sub hostOps4 _ hostOps4_writes h

/-- A buffer no step writes holds its launch contents at the end. -/
theorem W7_kept (c : Dev nD) (r : Ref sig .tc) (h0 : r ∉ hostOps0_W) (h1 : r ∉ hostOps1_W) (h4 : r ∉ hostOps4_W)
    (n15 : r ≠ main_v15) (n17 : r ≠ main_v17) (n180 : r ≠ main_v18_0) (n181 : r ≠ main_v18_1) (n182 : r ≠ main_v18_2) (n19 : r ≠ main_v19) :
    W7 m c r = m ((c : Thread nD τ).loc r) :=
  (W7_of m c r h4).trans <| (W6_of m c r n19).trans <| (W5_of m c r n180 n181 n182).trans <| (W4_of m c r n17).trans <|
    (W3_of m c r h1).trans <| (W2_of m c r n15).trans <| (W1_of m c r h0).trans rfl

end Cert.KernelIdeal.Chain

end
-- ==== Proof.KIProjBody.lean ====
/-
  The first matrix product at one grid point: the body obligation of the grid of four row blocks.

  The contraction axis has a single block, so at every point the accumulator is cleared, the block's product added to
  it, and the sum narrowed and written out.  The accumulator lives in a scratch buffer the invariant keeps at some
  contents: it is taken out for the point and put back with its contents forgotten.
-/
import proofs.«423324_j76630806495674_3_alg».proof.Proof.KIProjData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers hold their blocks -/

/-- The buffer of the block of x holds its block at every point, fetched there or not: where the pipeline does not
    fetch it the block index has not moved, and the body left the block in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The same of w1's buffer, which is fetched at the first point only. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body's two conditions hold at every point -/

/-- The condition under which the accumulator is cleared: the contraction index is zero. -/
abbrev cond1 (i : grid0.Coords) : Prop :=
  (Scalar.cmpi .ne (Scalar.extui (Scalar.cmpi .eq (BitVec.ofNat 32 (i 2).val) 0#32)) 0#32) = 1#1

/-- The contraction axis has one block, so the accumulator is cleared at every point, -/
theorem hcond1 : ∀ t : Fin cfg0.N, cond1 (grid0.coords t) :=
  (by decide +kernel : ∀ t : Fin grid0.N, cond1 (grid0.coords t))

/-- and written out at every point. -/
theorem hcond2 : ∀ t : Fin cfg0.N, k0_cond2 (grid0.coords t) = 1#1 :=
  (by decide +kernel : ∀ t : Fin grid0.N, k0_cond2 (grid0.coords t) = 1#1)

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-! ## The body's stores -/

/-- A whole 2048 × 256 buffer as a rectangle: offset zero, full size. -/
abbrev rO : Rect S2048x256 := Rect.unit (s := S2048x256) ![0, 0] S2048x256.size inb_S2048x256_S2048x256_0_0

/-- The offset of a whole-buffer rectangle is zero on both axes. -/
theorem hz : (![0, 0] : Fin 2 → Nat) = fun _ => 0 := funext fun a => by fin_cases a <;> rfl

/-- One store of the whole output block covers it. -/
theorem coverO (p : Vec F S2048x256 .bf16) (y : S2048x256.Idx) :
    ∃ pc ∈ ([⟨rO, p⟩] : List (View.Piece (Elt F) S2048x256 .bf16)), y ∈ pc.1.set :=
  View.cover_of_tiled [⟨rO, p⟩] S2048x256.size (by rfl) y

/-! ## The body's triple -/

set_option maxHeartbeats 4800000 in
/-- The body on whole memrefs at a point where both conditions hold, the inputs' at read contents `x`, `w`, the
    output's and the accumulator's at anything, runs to the continuation holding the inputs' as they were, the output's
    at the narrowed sum `k0_pay3 (k0_pay2 k0_pay1 x w)` and the accumulator's at some contents. -/
theorem sound_kernel (c : Dev nD) (E : Set ℕ) (i : grid0.Coords) (hc1 : cond1 i) (hc2 : k0_cond2 i = 1#1)
    (arg3 : Memref sig .tc .vmem S2048x512 .bf16) (harg3 : arg3.IsWhole)
    (arg4 : Memref sig .tc .vmem S512x256 .bf16) (harg4 : arg4.IsWhole)
    (arg5 : Memref sig .tc .vmem S2048x256 .bf16) (harg5 : arg5.IsWhole)
    (arg6 : Memref sig .tc .vmem S2048x256 .f32) (harg6 : arg6.IsWhole)
    (x : Vec F S2048x512 .bf16) (w : Vec F S512x256 .bf16) (K : PUnit → sProp 𝕄) :
    iprop(owns (c : Thread nD τ) arg3 fullShare x ∗ owns (c : Thread nD τ) arg4 fullShare w
        ∗ (∃ d, owns (c : Thread nD τ) arg5 fullShare d) ∗ (∃ s, owns (c : Thread nD τ) arg6 fullShare s)
        ∗ (iprop(owns (c : Thread nD τ) arg3 fullShare x ∗ owns (c : Thread nD τ) arg4 fullShare w
            ∗ owns (c : Thread nD τ) arg5 fullShare (k0_pay3 (k0_pay2 (k0_pay1 (F := F)) x w))
            ∗ (∃ s, owns (c : Thread nD τ) arg6 fullShare s)) -∗ K ⟨⟩))
      ⊢ wp frame (wpE (defs₀ (F := F)) Variants.none c none) E
          (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%ds, %fs, -, HS⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (coverO _), View.canon_unit_zero hz]
    sl_unfold_words
    simp only [View.readCov_cons_toLoadRect, View.readAt_eq_ld, View.ld_unit_zero (S := S2048x512) hz,
      View.ld_unit_zero (S := S512x256) hz]
  iexists _, _; isplitr
  swap; · iexact HS
  ipureintro; rfl

/-! ## The invariant with the accumulator taken out -/

/-- The invariant keeps every scoped buffer that is no staging buffer at some contents, and the generator register at
    some state; the accumulator is one of those buffers, here split off as a whole memref at some contents. -/
theorem PhiA_eq (c : Dev nD) :
    (Pipeline.ΦA (U := UR sig nD τ) spec0 c : sProp 𝕄)
      = iprop(iprop(iprop((∃ s, owns (c : Thread nD τ) scM fullShare s))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM, owns_whole]; try rfl

/-! ## The body obligation, at a generic point -/

/-- What the body is called with at point `t`: the invariant, what the core owes, and the three windows' current
    buffers at what they hold, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns: the same invariant, the same debt, and each buffer at what the body leaves in it. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 1000000 in
/-- The body at any point: the inputs' buffers hold their blocks and both conditions hold, so the triple applies; the
    accumulator is lent by the invariant and returned to it at whatever it then holds; the rest of the invariant and
    the core's debt pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  rw [show (dat V c).leavesExact 2 t = owns (c : Thread nD τ) (st0_2 t) fullShare ((dat V c).after 2 t) from by
    unfold Dat.leavesExact; rw [live_2 t], after_2]
  rw [show (dat V c).Φ t.castSucc = (Pipeline.ΦA (U := UR sig nD τ) spec0 c : sProp 𝕄) from rfl, PhiA_eq]
  unfold outB acc
  iintro ⟨⟨⟨HS, Hr⟩, Hg⟩, Ho, ⟨%d0, H0⟩, ⟨%d1, H1⟩, ⟨%d2, H2⟩⟩
  iapply (sound_kernel c Set.univ (grid0.coords t) (hcond1 t) (hcond2 t) _ _ _ _ _ _ _ _ (iblk V c 0 t) (iblk V c 1 t) _)
  isplitl [H0]; · iexact H0
  isplitl [H1]; · iexact H1
  isplitl [H2]; · iexists _; iexact H2
  isplitl [HS]; · iexact HS
  iintro ⟨H0, H1, H2, HS⟩
  isplitl [HS Hr Hg]
  · isplitr [Hg]
    · isplitl [HS]; · iexact HS
      iexact Hr
    iexact Hg
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, -/
theorem hin (c : Dev nD) : (Pipeline.ΦA (U := UR sig nD τ) spec0 c : sProp 𝕄) ⊢ (dat V c).Φ 0 :=
  Idealize.SL.BI.Entails.refl _

/-- and the invariant after the last point is what the region hands back. -/
theorem hout (c : Dev nD) : (dat V c).Φ (Fin.last cfg0.N) ⊢ (Pipeline.ΦA (U := UR sig nD τ) spec0 c : sProp 𝕄) :=
  Idealize.SL.BI.Entails.refl _

end Cert.KernelIdeal.Proj

end
-- ==== Proof.KIConvBody.lean ====
/-
  The first graph layer on its 4 × 4 grid: the body at every grid point meets its obligation.

  Point t = 4 i + k.  Three cases by k: k = 0 clears the accumulator and adds the block product (the output is idle and
  is handed back as found); k = 1, 2 add the block product to what the point before left (the output idle); k = 3 adds
  the block product and writes the rectified accumulator times the weights to the output.  In every case the accumulator
  ends at `acc` of the point, which is the invariant after the point.
-/
import proofs.«423324_j76630806495674_3_alg».proof.Proof.KIConvData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions, in closed form over the grid -/

/-- The first condition (the point opens a row block): from the grid coordinates. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The second condition (the point closes a row block). -/
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Away from the closing points the output window is idle and is not written back. -/
theorem idleAt_3 : ∀ t : Fin cfg1.N, ¬cond1 (grid1.coords t) → cfg1.idle 3 (grid1.coords t) = true := by decide +kernel
theorem noFlush_3 : ∀ t : Fin cfg1.N, ¬cond1 (grid1.coords t) → (cfg1.win 3).flush t = false := by decide +kernel
/-- At the closing points it is live. -/
theorem liveAt_3 : ∀ t : Fin cfg1.N, cond1 (grid1.coords t) → cfg1.idle 3 (grid1.coords t) = false := by decide +kernel

theorem hz2 : (![0, 0] : Fin 2 → Nat) = fun _ => 0 := funext fun a => by fin_cases a <;> rfl

/-! ## Whole-buffer stores and loads read back -/

/-- One whole-buffer store leaves its payload. -/
theorem read_writes_one {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_cons_self, View.mem_set_unit_zero h inb y⟩), View.canon_unit_zero h]

/-- Two whole-buffer stores leave the later one's payload. -/
theorem read_writes_two {Val : EltTy → Type} [∀ e, Nonempty (Val e)] {S : Shape} {e : EltTy} {sig' : RefSig} {κ : Kind} {sp : Space}
    (v : View sig' κ sp S e) (f : v.ty.Contents Val) {off : Fin S.rank → Nat} (h : off = fun _ => 0)
    (inb : ∀ a, off a + S.size a ≤ S.size a) (w : S.Idx → Val e) (p : View.Piece Val S e) :
    v.read Val (v.writes Val f [(⟨Rect.unit off S.size inb, w⟩ : View.Piece Val S e), p]) = w := by
  rw [View.read_writes_eq_canon v f _ (fun y => ⟨_, List.mem_cons_self, View.mem_set_unit_zero h inb y⟩), View.canon_cons_unit_zero h]

/-- A load of a whole buffer reads its contents. -/
theorem readAt_whole {Val : EltTy → Type} {S : Shape} {e : EltTy} {sig' : RefSig} {κ : Kind} {sp : Space}
    (M : Memref sig' κ sp S e) (hM : M.IsWhole) {off : Fin S.rank → Nat} (h : off = fun _ => 0)
    (inb : ∀ a, off a + S.size a ≤ S.size a) (x : S.Idx → Val e) :
    View.readAt Val M.view (Rect.unit off S.size inb).toLoadRect (hM.unread x) = x := by
  rw [View.readAt_eq_ld, hM.read_unread, View.ld_unit_zero h]

/-! ## The body, case by case, on any whole memrefs -/

set_option maxHeartbeats 1000000 in
/-- A point that opens a row block (k = 0): whatever the accumulator held, it ends at the block product added to zero;
    the inputs and the output are left as found. -/
theorem run_A (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S256x256 .f32) (harg4 : arg4.IsWhole)
    (arg5 : Memref sig .tc .vmem S2048x256 .f32) (harg5 : arg5.IsWhole)
    (arg6 : Memref sig .tc .vmem S2048x256 .f32) (harg6 : arg6.IsWhole)
    (hc0 : cond0 i) (hc1 : ¬cond1 i)
    (x0 : Vec F S2048x2048 .bf16) (x1 : Vec F S2048x256 .bf16) (x2 : Vec F S256x256 .f32)
    (xi3 : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 (k1_pay1 (F := F)) x0 x1)) -∗ K ⟨⟩))
      ⊢ wp frame (wpE (defs₀ (F := F)) Variants.none c none) E (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  refine (read_writes_two (Val := Elt F) (S := S2048x256) arg6.view _ hz2 _ _ _).trans ?_
  exact congr (congr (congrArg k1_pay2 (View.readCov_unit_zero (Val := Elt F) arg6.view hz2 _ (k1_pay1 (F := F)))) (readAt_whole arg2 harg2 hz2 _ x0)) (readAt_whole arg3 harg3 hz2 _ x1)

set_option maxHeartbeats 1000000 in
/-- A point inside a row block (k = 1, 2): the block product is added to what the accumulator held; the inputs and the
    output are left as found. -/
theorem run_B (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S256x256 .f32) (harg4 : arg4.IsWhole)
    (arg5 : Memref sig .tc .vmem S2048x256 .f32) (harg5 : arg5.IsWhole)
    (arg6 : Memref sig .tc .vmem S2048x256 .f32) (harg6 : arg6.IsWhole)
    (hc0 : ¬cond0 i) (hc1 : ¬cond1 i)
    (x0 : Vec F S2048x2048 .bf16) (x1 : Vec F S2048x256 .bf16) (x2 : Vec F S256x256 .f32)
    (xi3 : Vec F S2048x256 .f32) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 xs x0 x1)) -∗ K ⟨⟩))
      ⊢ wp frame (wpE (defs₀ (F := F)) Variants.none c none) E (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  refine (read_writes_one (Val := Elt F) (S := S2048x256) arg6.view _ hz2 _ _).trans ?_
  exact congr (congr (congrArg k1_pay2 (readAt_whole arg6 harg6 hz2 _ xs)) (readAt_whole arg2 harg2 hz2 _ x0)) (readAt_whole arg3 harg3 hz2 _ x1)

set_option maxHeartbeats 1000000 in
/-- A point that closes a row block (k = 3): the block product is added to what the accumulator held, and the output
    ends at the rectified sum times the weights, whatever it held. -/
theorem run_C (c : Dev nD) (i : grid1.Coords)
    (arg2 : Memref sig .tc .vmem S2048x2048 .bf16) (harg2 : arg2.IsWhole)
    (arg3 : Memref sig .tc .vmem S2048x256 .bf16) (harg3 : arg3.IsWhole)
    (arg4 : Memref sig .tc .vmem S256x256 .f32) (harg4 : arg4.IsWhole)
    (arg5 : Memref sig .tc .vmem S2048x256 .f32) (harg5 : arg5.IsWhole)
    (arg6 : Memref sig .tc .vmem S2048x256 .f32) (harg6 : arg6.IsWhole)
    (hc0 : ¬cond0 i) (hc1 : cond1 i)
    (x0 : Vec F S2048x2048 .bf16) (x1 : Vec F S2048x256 .bf16) (x2 : Vec F S256x256 .f32)
    (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1__gcn1_kernel i arg2 harg2 arg3 harg3 arg4 harg4 arg5 harg5 arg6 harg6) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    refine (read_writes_one (Val := Elt F) (S := S2048x256) arg5.view _ hz2 _ _).trans ?_
    exact congr (congrArg k1_pay3 ((View.readCov_unit_zero (Val := Elt F) arg6.view hz2 _ _).trans
      (congr (congr (congrArg k1_pay2 (readAt_whole arg6 harg6 hz2 _ xs)) (readAt_whole arg2 harg2 hz2 _ x0)) (readAt_whole arg3 harg3 hz2 _ x1))))
      (readAt_whole arg4 harg4 hz2 _ x2)
  iexists _; isplitr
  swap; · iexact HS
  ipureintro
  sl_unfold_words
  refine (read_writes_one (Val := Elt F) (S := S2048x256) arg6.view _ hz2 _ _).trans ?_
  exact congr (congr (congrArg k1_pay2 (readAt_whole arg6 harg6 hz2 _ xs)) (readAt_whole arg2 harg2 hz2 _ x0)) (readAt_whole arg3 harg3 hz2 _ x1)

/-! ## What the body finds -/

variable (V : (c : Dev nD) → (b : Ref sig .tc) → Buf (Elt F) ((c : Thread nD τ).loc b))

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The accumulation at a point that opens a row block. -/
theorem acc_open (c : Dev nD) (t : Fin cfg1.N) (h0 : t.val % 4 = 0) :
    acc V c t.val t.isLt = k1_pay2 (k1_pay1 (F := F)) (adjB V c t) (featB V c t) := by
  obtain ⟨n, hn⟩ := t
  cases n with
  | zero => rfl
  | succ n => exact congrArg (fun x => k1_pay2 x (adjB V c ⟨n + 1, hn⟩) (featB V c ⟨n + 1, hn⟩)) (if_pos h0)

/-- The accumulation at any other point: over what the point before left. -/
theorem acc_step (c : Dev nD) (t : Fin cfg1.N) (h0 : ¬t.val % 4 = 0) :
    acc V c t.val t.isLt = k1_pay2 (acc V c (t.val - 1) (Nat.lt_of_le_of_lt (Nat.sub_le _ _) t.isLt)) (adjB V c t) (featB V c t) := by
  obtain ⟨n, hn⟩ := t
  cases n with
  | zero => exact absurd (Nat.zero_mod _) h0
  | succ n => exact congrArg (fun x => k1_pay2 x (adjB V c ⟨n + 1, hn⟩) (featB V c ⟨n + 1, hn⟩)) (if_neg h0)

/-- The invariant at a point's start, restated at the point's position. -/
theorem Phi_castSucc (c : Dev nD) (t : Fin cfg1.N) : (dat V c).Φ t.castSucc = Phi V c t.val (Nat.le_of_lt t.isLt) := by
  dsimp only [dat]; simp only [Fin.coe_castSucc]

theorem Phi_zero (c : Dev nD) (n : ℕ) (h : n ≤ cfg1.N) (hz : n = 0) : Phi V c n h = Pipeline.ΦA (U := UR sig nD τ) spec1 c := by
  subst hz; rfl

theorem Phi_succ (c : Dev nD) (n : ℕ) (hn : n < cfg1.N) :
    Phi V c (n + 1) hn = iprop(owns (c : Thread nD τ) scM fullShare (acc V c n hn)
      ∗ Pipeline.scopedRestBut (Ix := Unit) (Name := ℕ) (U := UR sig nD τ) (Lvl := ℕ) (Val := Elt F) spec1 c [cc1_scratch0]
      ∗ (∃ r, prngReg c r)) := rfl

theorem Phi_pos (c : Dev nD) (n : ℕ) (h : n ≤ cfg1.N) (hz : n ≠ 0) :
    Phi V c n h = iprop(owns (c : Thread nD τ) scM fullShare (acc V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- What the launch hands the region, with the accumulator's buffer split off at some contents. -/
theorem PhiA_eq (c : Dev nD) :
    (Pipeline.ΦA (U := UR sig nD τ) spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM, owns_whole]; try rfl

/-! ## The body obligation, at a generic point -/

/-- Each window's current staging memref at point `t`, as the pipeline passes it to the body, and its wholeness. -/
abbrev ms_0 (t : Fin cfg1.N) : Memref sig .tc .vmem S2048x2048 .bf16 := win1_0.stage (cfg1.slots t 0)
abbrev ms_1 (t : Fin cfg1.N) : Memref sig .tc .vmem S2048x256 .bf16 := win1_1.stage (cfg1.slots t 1)
abbrev ms_2 (t : Fin cfg1.N) : Memref sig .tc .vmem S256x256 .f32 := win1_2.stage (cfg1.slots t 2)
abbrev ms_3 (t : Fin cfg1.N) : Memref sig .tc .vmem S2048x256 .f32 := win1_3.stage (cfg1.slots t 3)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point.  The inputs' buffers hold their blocks; the position of the point in its row block selects
    the case; the invariant hands the body the accumulator at what the point before left (at anything at the first
    point) and takes it back at this point's sum; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  have hN : t.val < 16 := lt_of_lt_of_eq t.isLt (show cfg1.N = 16 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 4 = 0
  · have h1 : ¬t.val % 4 = 3 := by omega
    rw [Dat.leavesExact_idle (dat V c) 3 t (idleAt_3 t (fun h => h1 ((hcond1 t).mp h))) (noFlush_3 t (fun h => h1 ((hcond1 t).mp h)))]
    rw [acc_open V c t h0]
    by_cases hz : t.val = 0
    · rw [Phi_castSucc V c t, Phi_zero V c _ _ hz, PhiA_eq]
      iintro ⟨⟨⟨HS, HR⟩, Hg⟩, Ho, ⟨%d0, H0⟩, ⟨%d1, H1⟩, ⟨%d2, H2⟩, ⟨%d3, H3⟩⟩
      iapply (run_A c (grid1.coords t) _ _ _ _ _ _ _ _ _ _ ((hcond0 t).mpr h0) (fun h => h1 ((hcond1 t).mp h)) (adjB V c t) (featB V c t) (wB V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨HS, HR, Hg⟩, Ho, ⟨%d0, H0⟩, ⟨%d1, H1⟩, ⟨%d2, H2⟩, ⟨%d3, H3⟩⟩
      iapply (run_A c (grid1.coords t) _ _ _ _ _ _ _ _ _ _ ((hcond0 t).mpr h0) (fun h => h1 ((hcond1 t).mp h)) (adjB V c t) (featB V c t) (wB V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [liveAt_3 t ((hcond1 t).mpr h1)], after_3]
      unfold outB
      rw [acc_step V c t h0]
      rw [Phi_castSucc V c t, Phi_pos V c _ _ hz]
      iintro ⟨⟨HS, HR, Hg⟩, Ho, ⟨%d0, H0⟩, ⟨%d1, H1⟩, ⟨%d2, H2⟩, ⟨%d3, H3⟩⟩
      iapply (run_C c (grid1.coords t) _ _ _ _ _ _ _ _ _ _ (fun h => h0 ((hcond0 t).mp h)) ((hcond1 t).mpr h1) (adjB V c t) (featB V c t) (wB V c t) (acc V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat V c) 3 t (idleAt_3 t (fun h => h1 ((hcond1 t).mp h))) (noFlush_3 t (fun h => h1 ((hcond1 t).mp h)))]
      rw [acc_step V c t h0]
      rw [Phi_castSucc V c t, Phi_pos V c _ _ hz]
      iintro ⟨⟨HS, HR, Hg⟩, Ho, ⟨%d0, H0⟩, ⟨%d1, H1⟩, ⟨%d2, H2⟩, ⟨%d3, H3⟩⟩
      iapply (run_B c (grid1.coords t) _ _ _ _ _ _ _ _ _ _ (fun h => h0 ((hcond0 t).mp h)) (fun h => h1 ((hcond1 t).mp h)) (adjB V c t) (featB V c t) (wB V c t) _ (acc V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA (U := UR sig nD τ) spec1 c : sProp 𝕄) ⊢ (dat V c).Φ 0 := by
  rw [show (dat V c).Φ 0 = Phi V c 0 (Nat.zero_le _) from rfl, Phi_zero V c 0 _ rfl]
  try exact Idealize.SL.BI.Entails.refl _

/-- After the last point the invariant gives it back: the accumulator's contents are forgotten. -/
theorem hout (c : Dev nD) : (dat V c).Φ (Fin.last cfg1.N) ⊢ (Pipeline.ΦA (U := UR sig nD τ) spec1 c : sProp 𝕄) := by
  rw [show (dat V c).Φ (Fin.last cfg1.N) = Phi V c (Fin.last cfg1.N).val (Nat.le_of_lt_succ (Fin.last cfg1.N).isLt) from rfl,
    Phi_pos V c _ _ (by rw [Fin.val_last]; have : cfg1.N = 16 := N_1; omega), PhiA_eq]
  iintro ⟨HS, HR, Hg⟩
  isplitl [HS HR]
  · isplitl [HS]; · iexists _; iexact HS
    iexact HR
  iexact Hg

end Cert.KernelIdeal.Conv

end
-- ==== Proof.KIHeadBody.lean ====
/-
  The two heads and the sample: the kernel body at every grid point.

  At point t = 8 i + k the body clears the accumulator when k = 0, adds the block product of the adjacency block
  and the operand block to it, and when k = 7 writes the mean (left half), the log-deviation (right half) and the
  sample mean + noise · exp(log-deviation) to the three output blocks.  Three cases by k: the first point of a row
  block, an interior point, the closing point.  Each case's run is stated with the named contents, and the body
  obligation follows point by point.
-/
import proofs.«423324_j76630806495674_3_alg».proof.Proof.KIHeadData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions and the idle table, over the grid -/

/-- The first conditional's condition (k = 0), from the grid coordinates. -/
abbrev condZ (i : grid2.Coords) : Prop := (Scalar.cmpi .ne (Scalar.extui (Scalar.cmpi .eq (BitVec.ofNat 32 (i 1).val) 0#32)) 0#32) = 1#1
/-- It holds at the points ≡ 0 (mod 8). -/
theorem hcondZ : ∀ t : Fin cfg2.N, condZ (grid2.coords t) ↔ t.val % 8 = 0 :=
  (by decide +kernel : ∀ t : Fin grid2.N, condZ (grid2.coords t) ↔ t.val % 8 = 0)

/-- The second conditional's condition (k = 7). -/
abbrev condL (i : grid2.Coords) : Prop := k2_cond2 i = 1#1
/-- It holds at the points ≡ 7 (mod 8). -/
theorem hcondL : ∀ t : Fin cfg2.N, condL (grid2.coords t) ↔ t.val % 8 = 7 :=
  (by decide +kernel : ∀ t : Fin grid2.N, condL (grid2.coords t) ↔ t.val % 8 = 7)

/-- The inputs are never idle. -/
theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- The outputs are idle away from the closing points, and live there. -/
theorem idle_3 : ∀ t : Fin cfg2.N, ¬ t.val % 8 = 7 → cfg2.idle 3 (grid2.coords t) = true := by decide +kernel
theorem idle_4 : ∀ t : Fin cfg2.N, ¬ t.val % 8 = 7 → cfg2.idle 4 (grid2.coords t) = true := by decide +kernel
theorem idle_5 : ∀ t : Fin cfg2.N, ¬ t.val % 8 = 7 → cfg2.idle 5 (grid2.coords t) = true := by decide +kernel
theorem live_3 : ∀ t : Fin cfg2.N, t.val % 8 = 7 → cfg2.idle 3 (grid2.coords t) = false := by decide +kernel
theorem live_4 : ∀ t : Fin cfg2.N, t.val % 8 = 7 → cfg2.idle 4 (grid2.coords t) = false := by decide +kernel
theorem live_5 : ∀ t : Fin cfg2.N, t.val % 8 = 7 → cfg2.idle 5 (grid2.coords t) = false := by decide +kernel
/-- Away from the closing points no output block is written back. -/
theorem noFlush_3 (t : Fin cfg2.N) (h : ¬ t.val % 8 = 7) : (cfg2.win 3).flush t = false := by
  rw [← Bool.not_eq_true, flush2_3]; exact h
theorem noFlush_4 (t : Fin cfg2.N) (h : ¬ t.val % 8 = 7) : (cfg2.win 4).flush t = false := by
  rw [← Bool.not_eq_true, flush2_4]; exact h
theorem noFlush_5 (t : Fin cfg2.N) (h : ¬ t.val % 8 = 7) : (cfg2.win 5).flush t = false := by
  rw [← Bool.not_eq_true, flush2_5]; exact h

/-- The unit rectangle at the origin. -/
theorem hz2 : (![0, 0] : Fin 2 → Nat) = fun _ => 0 := funext fun a => by fin_cases a <;> rfl

/-! ## A whole-buffer store, last, leaves its payload -/

section Pieces
variable {Val : EltTy → Type} [∀ e, Nonempty (Val e)] {S : Shape} {e : EltTy}

/-- The unit rectangle at the origin of the buffer's own sizes holds every index. -/
theorem cover_unit_zero {off : Fin S.rank → Nat} (h : off = fun _ => 0) (inb : ∀ a, off a + S.size a ≤ S.size a)
    (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

/-- So a buffer whose last write went through it reads back that write's payload, whatever came before. -/
theorem read_writes_unit_zero {sg : RefSig} {κ : Kind} {sp : Space} (v : View sg κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon _ _ _ (cover_unit_zero h inb w L), View.canon_cons_unit_zero h inb]

end Pieces

/-! ## The body's run, case by case, on any whole memrefs -/

set_option maxHeartbeats 1000000 in
/-- The first point of a row block (k = 0): the accumulator, found at anything, is cleared and ends at the block
    product added to zero; the inputs' buffers are as found; the noise and the outputs are not touched. -/
theorem runA (c : Dev nD) (i : grid2.Coords) (arg2 : Memref sig .tc .vmem S2048x1024 .f32) (harg2 : arg2.IsWhole) (arg3 : Memref sig .tc .vmem S1024x256 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .f32) (harg8 : arg8.IsWhole) (hc0 : condZ i) (hc1 : ¬condL i)
    (x0 : Vec F S2048x1024 .f32) (x1 : Vec F S1024x256 .f32) (E : Set ℕ) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (k2_pay2 (k2_pay1 (F := F)) x0 x1)) -∗ K ⟨⟩))
      ⊢ wp frame (wpE (defs₀ (F := F)) Variants.none c none) E (cc2__fused_head_kernel i arg2 harg2 arg3 harg3 arg4 harg4 arg5 harg5 arg6 harg6 arg7 harg7 arg8 harg8) K := by
  simp only [cc2__fused_head_kernel_eq_skeleton]; unfold cc2__fused_head_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [read_writes_unit_zero _ _ hz2]
  sl_unfold_words
  simp only [View.readAt_eq_ld, harg2.read_unread, harg3.read_unread, View.ld_unit_zero (S := S2048x1024) hz2,
    View.ld_unit_zero (S := S1024x256) hz2, View.readCov_unit_zero (S := S2048x256) _ hz2]

set_option maxHeartbeats 1000000 in
/-- An interior point (0 < k < 7): the accumulator, found at `xs`, ends at the block product added to `xs`. -/
theorem runB (c : Dev nD) (i : grid2.Coords) (arg2 : Memref sig .tc .vmem S2048x1024 .f32) (harg2 : arg2.IsWhole) (arg3 : Memref sig .tc .vmem S1024x256 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .f32) (harg8 : arg8.IsWhole) (hc0 : ¬condZ i) (hc1 : ¬condL i)
    (x0 : Vec F S2048x1024 .f32) (x1 : Vec F S1024x256 .f32) (xs : Vec F S2048x256 .f32) (E : Set ℕ) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (k2_pay2 xs x0 x1)) -∗ K ⟨⟩))
      ⊢ wp frame (wpE (defs₀ (F := F)) Variants.none c none) E (cc2__fused_head_kernel i arg2 harg2 arg3 harg3 arg4 harg4 arg5 harg5 arg6 harg6 arg7 harg7 arg8 harg8) K := by
  simp only [cc2__fused_head_kernel_eq_skeleton]; unfold cc2__fused_head_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [read_writes_unit_zero _ _ hz2]
  simp only [View.readAt_eq_ld, harg2.read_unread, harg3.read_unread, harg8.read_unread, View.ld_unit_zero (S := S2048x1024) hz2,
    View.ld_unit_zero (S := S1024x256) hz2, View.ld_unit_zero (S := S2048x256) hz2]

set_option maxHeartbeats 1000000 in
/-- A closing point (k = 7): the accumulator, found at `xs`, ends at the block product added to `xs`, and the three
    outputs, found at anything, end at the mean, the log-deviation and the sample computed from it and the noise. -/
theorem runC (c : Dev nD) (i : grid2.Coords) (arg2 : Memref sig .tc .vmem S2048x1024 .f32) (harg2 : arg2.IsWhole) (arg3 : Memref sig .tc .vmem S1024x256 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x256 .f32) (harg8 : arg8.IsWhole) (hc0 : ¬condZ i) (hc1 : condL i)
    (x0 : Vec F S2048x1024 .f32) (x1 : Vec F S1024x256 .f32) (x2 : Vec F S2048x128 .f32) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 xs x0 x1))
            ∗ owns (c : Thread nD τ) arg6 fullShare (k2_pay4 (k2_pay2 xs x0 x1))
            ∗ owns (c : Thread nD τ) arg7 fullShare (k2_pay5 (k2_pay2 xs x0 x1) x2)
            ∗ owns (c : Thread nD τ) arg8 fullShare (k2_pay2 xs x0 x1)) -∗ K ⟨⟩))
      ⊢ wp frame (wpE (defs₀ (F := F)) Variants.none c none) E (cc2__fused_head_kernel i arg2 harg2 arg3 harg3 arg4 harg4 arg5 harg5 arg6 harg6 arg7 harg7 arg8 harg8) K := by
  simp only [cc2__fused_head_kernel_eq_skeleton]; unfold cc2__fused_head_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [read_writes_unit_zero _ _ hz2]
    sl_unfold_words
    simp only [View.readAt_eq_ld, harg2.read_unread, harg3.read_unread, harg4.read_unread, harg8.read_unread, View.ld_unit_zero (S := S2048x1024) hz2,
    View.ld_unit_zero (S := S1024x256) hz2, View.ld_unit_zero (S := S2048x128) hz2, View.ld_unit_zero (S := S2048x256) hz2, View.readCov_unit_zero (S := S2048x256) _ hz2]
  isplitl [H4]
  · iexists _; isplitr
    swap; · iexact H4
    ipureintro
    rw [read_writes_unit_zero _ _ hz2]
    sl_unfold_words
    simp only [View.readAt_eq_ld, harg2.read_unread, harg3.read_unread, harg4.read_unread, harg8.read_unread, View.ld_unit_zero (S := S2048x1024) hz2,
    View.ld_unit_zero (S := S1024x256) hz2, View.ld_unit_zero (S := S2048x128) hz2, View.ld_unit_zero (S := S2048x256) hz2, View.readCov_unit_zero (S := S2048x256) _ hz2]
  isplitl [H5]
  · iexists _; isplitr
    swap; · iexact H5
    ipureintro
    rw [read_writes_unit_zero _ _ hz2]
    sl_unfold_words
    simp only [View.readAt_eq_ld, harg2.read_unread, harg3.read_unread, harg4.read_unread, harg8.read_unread, View.ld_unit_zero (S := S2048x1024) hz2,
    View.ld_unit_zero (S := S1024x256) hz2, View.ld_unit_zero (S := S2048x128) hz2, View.ld_unit_zero (S := S2048x256) hz2, View.readCov_unit_zero (S := S2048x256) _ hz2]
  iexists _; isplitr
  swap; · iexact HS0
  ipureintro
  sl_unfold_words
  rw [read_writes_unit_zero _ _ hz2]
  simp only [View.readAt_eq_ld, harg2.read_unread, harg3.read_unread, harg4.read_unread, harg8.read_unread, View.ld_unit_zero (S := S2048x1024) hz2,
    View.ld_unit_zero (S := S1024x256) hz2, View.ld_unit_zero (S := S2048x128) hz2, View.ld_unit_zero (S := S2048x256) hz2, View.readCov_unit_zero (S := S2048x256) _ hz2]

/-! ## The body obligation -/

variable (V : (c : Dev nD) → (b : Ref sig .tc) → Buf (Elt F) ((c : Thread nD τ).loc b))

/-- Each window's current staging memref at point `t`, as the pipeline passes it, and its wholeness. -/
abbrev ms0 (t : Fin cfg2.N) : Memref sig .tc .vmem S2048x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2048x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S2048x128 .f32 := win2_5.stage (cfg2.slots t 5)
abbrev hs5 (t : Fin cfg2.N) : (ms5 t).IsWhole := hstage2_5 ((cfg2.slots t 5).cast nbuf2_5)

/-- Each input's current staging buffer holds its block at every point, fetched there or not: where it is not
    fetched the block index has not moved. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The accumulation at a point that opens a row block, and at any other point. -/
theorem acc_first (c : Dev nD) (t : Fin cfg2.N) (h0 : t.val % 8 = 0) :
    acc V c t.val t.isLt = k2_pay2 (k2_pay1 (F := F)) (adjB V c t) (featB V c t) := by
  obtain ⟨n, hn⟩ := t
  cases n with
  | zero => rfl
  | succ n => exact (congrArg (fun a => k2_pay2 a (adjB V c ⟨n + 1, hn⟩) (featB V c ⟨n + 1, hn⟩)) (if_pos h0))

theorem acc_next (c : Dev nD) (t : Fin cfg2.N) (h0 : ¬t.val % 8 = 0) :
    acc V c t.val t.isLt = k2_pay2 (acc V c (t.val - 1) (Nat.lt_of_le_of_lt (Nat.sub_le _ _) t.isLt)) (adjB V c t) (featB V c t) := by
  obtain ⟨n, hn⟩ := t
  cases n with
  | zero => exact absurd (Nat.zero_mod _) h0
  | succ n => exact (congrArg (fun a => k2_pay2 a (adjB V c ⟨n + 1, hn⟩) (featB V c ⟨n + 1, hn⟩)) (if_neg h0))

/-- The invariant, position by position. -/
theorem Phi_zero (c : Dev nD) (n : ℕ) (h : n ≤ cfg2.N) (hz : n = 0) : Phi V c n h = Pipeline.ΦA (U := UR sig nD τ) spec2 c := by
  subst hz; rfl

theorem Phi_succ (c : Dev nD) (n : ℕ) (hn : n < cfg2.N) :
    Phi V c (n + 1) hn = iprop(owns (c : Thread nD τ) scM fullShare (acc V c n hn)
      ∗ Pipeline.scopedRestBut (Ix := Unit) (Name := ℕ) (U := UR sig nD τ) (Lvl := ℕ) (Val := Elt F) spec2 c [cc2_scratch0]
      ∗ (∃ r, prngReg c r)) := rfl

theorem Phi_pos (c : Dev nD) (n : ℕ) (h : n ≤ cfg2.N) (hz : n ≠ 0) :
    Phi V c n h = iprop(owns (c : Thread nD τ) scM fullShare (acc V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

theorem Phi_castSucc (c : Dev nD) (t : Fin cfg2.N) :
    (dat V c).Φ t.castSucc = Phi V c t.val (Nat.le_of_lt t.isLt) := by
  dsimp only [dat]; simp only [Fin.coe_castSucc]

/-- The scoped rest split at the accumulator's buffer. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What the region is entered with: the accumulator's buffer at anything, the other scoped buffers, the generator
    register. -/
theorem PhiA_eq (c : Dev nD) :
    (Pipeline.ΦA (U := UR sig nD τ) spec2 c : sProp 𝕄)
      = iprop(iprop(iprop((∃ d, owns (c : Thread nD τ) scM fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM, owns_whole]; try rfl

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point.  The inputs' buffers hold their blocks; the point's position in its row block says which
    case runs; the invariant hands over the accumulator at what the point before left (at anything at the very first
    point) and takes it back at this point's accumulation.  Away from a closing point the outputs' buffers are handed
    back as found; at a closing point they come back at the mean, the log-deviation and the sample. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = Phi V c (t.val + 1) t.isLt from rfl, Phi_succ]
  have hN : t.val < 32 := lt_of_lt_of_eq t.isLt (show cfg2.N = 32 from N_2)
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  by_cases h1 : t.val % 8 = 7
  · have h0 : ¬t.val % 8 = 0 := by omega
    have hz : t.val ≠ 0 := by omega
    rw [show (dat V c).leavesExact 3 t = owns (c : Thread nD τ) (ms3 t) fullShare ((dat V c).after 3 t) from by
      unfold Dat.leavesExact; rw [live_3 t h1], after_3]
    rw [show (dat V c).leavesExact 4 t = owns (c : Thread nD τ) (ms4 t) fullShare ((dat V c).after 4 t) from by
      unfold Dat.leavesExact; rw [live_4 t h1], after_4]
    rw [show (dat V c).leavesExact 5 t = owns (c : Thread nD τ) (ms5 t) fullShare ((dat V c).after 5 t) from by
      unfold Dat.leavesExact; rw [live_5 t h1], after_5]
    unfold meanB logdevB sampleB
    rw [acc_next V c t h0]
    rw [Phi_castSucc V c t, Phi_pos V c _ _ hz]
    iintro ⟨⟨HS, HR, Hg⟩, Ho, ⟨%d0, H0⟩, ⟨%d1, H1⟩, ⟨%d2, H2⟩, ⟨%d3, H3⟩, ⟨%d4, H4⟩, ⟨%d5, H5⟩⟩
    iapply (runC c (grid2.coords t) (ms0 t) (hs0 t) (ms1 t) (hs1 t) (ms2 t) (hs2 t) (ms3 t) (hs3 t) (ms4 t) (hs4 t) (ms5 t) (hs5 t) scM (Memref.isWhole_whole _)
      (fun h => h0 ((hcondZ t).mp h)) ((hcondL t).mpr h1) (adjB V c t) (featB V c t) (epsB V c t)
      (acc V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat V c) 3 t (idle_3 t h1) (noFlush_3 t h1)]
    rw [Dat.leavesExact_idle (dat V c) 4 t (idle_4 t h1) (noFlush_4 t h1)]
    rw [Dat.leavesExact_idle (dat V c) 5 t (idle_5 t h1) (noFlush_5 t h1)]
    by_cases h0 : t.val % 8 = 0
    · rw [acc_first V c t h0]
      by_cases hz : t.val = 0
      · rw [Phi_castSucc V c t, Phi_zero V c _ _ hz, PhiA_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply (runA c (grid2.coords t) (ms0 t) (hs0 t) (ms1 t) (hs1 t) (ms2 t) (hs2 t) (ms3 t) (hs3 t) (ms4 t) (hs4 t) (ms5 t) (hs5 t) scM (Memref.isWhole_whole _)
          ((hcondZ t).mpr h0) (fun h => h1 ((hcondL t).mp h)) (adjB V c t) (featB V c t) Set.univ _)
        isplitl [H0]; · iexact H0
        isplitl [H1]; · iexact H1
        isplitl [HS]; · iexact HS
        iintro ⟨H0, H1, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      · rw [Phi_castSucc V c t, Phi_pos V c _ _ hz]
        iintro ⟨⟨HS, HR, Hg⟩, Ho, ⟨%d0, H0⟩, ⟨%d1, H1⟩, ⟨%d2, H2⟩, ⟨%d3, H3⟩, ⟨%d4, H4⟩, ⟨%d5, H5⟩⟩
        iapply (runA c (grid2.coords t) (ms0 t) (hs0 t) (ms1 t) (hs1 t) (ms2 t) (hs2 t) (ms3 t) (hs3 t) (ms4 t) (hs4 t) (ms5 t) (hs5 t) scM (Memref.isWhole_whole _)
          ((hcondZ t).mpr h0) (fun h => h1 ((hcondL t).mp h)) (adjB V c t) (featB V c t) Set.univ _)
        isplitl [H0]; · iexact H0
        isplitl [H1]; · iexact H1
        isplitl [HS]; · iexists _; iexact HS
        iintro ⟨H0, H1, HS⟩
        isplitl [HS HR Hg]
        · isplitl [HS]; · iexact HS
          isplitl [HR]; · iexact HR
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
    · have hz : t.val ≠ 0 := fun e => h0 (by rw [e])
      rw [acc_next V c t h0]
      rw [Phi_castSucc V c t, Phi_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (runB c (grid2.coords t) (ms0 t) (hs0 t) (ms1 t) (hs1 t) (ms2 t) (hs2 t) (ms3 t) (hs3 t) (ms4 t) (hs4 t) (ms5 t) (hs5 t) scM (Memref.isWhole_whole _)
        (fun h => h0 ((hcondZ t).mp h)) (fun h => h1 ((hcondL t).mp h)) (adjB V c t) (featB V c t)
        (acc V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA (U := UR sig nD τ) spec2 c : sProp 𝕄) ⊢ (dat V c).Φ 0 := by
  rw [show (dat V c).Φ 0 = Phi V c 0 (Nat.zero_le _) from rfl, Phi_zero V c 0 _ rfl]
  try exact Idealize.SL.BI.Entails.refl _

/-- After any point but the first the invariant gives the entry resources back: the accumulator's named contents are
    forgotten. -/
theorem Phi_out (c : Dev nD) (t : Fin (cfg2.N + 1)) (ht : t.val ≠ 0) :
    (dat V c).Φ t ⊢ (Pipeline.ΦA (U := UR sig nD τ) spec2 c : sProp 𝕄) := by
  rw [show (dat V c).Φ t = Phi V c t.val (Nat.le_of_lt_succ t.isLt) from rfl, Phi_pos V c _ _ ht, PhiA_eq]
  iintro ⟨HS, HR, Hg⟩
  isplitl [HS HR]
  · isplitl [HS]; · iexists _; iexact HS
    iexact HR
  iexact Hg

/-- The same after the last point. -/
theorem hout (c : Dev nD) : (dat V c).Φ (Fin.last cfg2.N) ⊢ (Pipeline.ΦA (U := UR sig nD τ) spec2 c : sProp 𝕄) :=
  Phi_out V c _ (by rw [Fin.val_last]; have : cfg2.N = 32 := N_2; omega)

end Cert.KernelIdeal.Head

end
-- ==== Proof.KIDecBody.lean ====
/-
  The decoder's product at one grid point: the body obligation of the 4 × 4 grid of row blocks.

  Each point holds two blocks of 2048 rows of the one array both input windows read and writes the 2048 × 2048 block
  of their products; nothing is carried from point to point, so the invariant is the same at every point.
-/
import proofs.«423324_j76630806495674_3_alg».proof.Proof.KIDecData
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Dec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers hold their blocks -/

/-- The first row block's buffer holds its block at every point, fetched there or not: where the pipeline does not
    fetch it the block index has not moved, and the body left the block in place. -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The same of the second row block's buffer. -/
theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body's one store -/

/-- The whole output block as a rectangle: offset zero, full size. -/
abbrev rO : Rect S2048x2048 := Rect.unit (s := S2048x2048) ![0, 0] S2048x2048.size inb_S2048x2048_S2048x2048_0_0

/-- The offset of a whole-buffer rectangle is zero on both axes. -/
theorem hz : (![0, 0] : Fin 2 → Nat) = fun _ => 0 := funext fun a => by fin_cases a <;> rfl

/-- One store of the whole block covers it. -/
theorem coverO (p : Vec F S2048x2048 .f32) (y : S2048x2048.Idx) :
    ∃ pc ∈ ([⟨rO, p⟩] : List (View.Piece (Elt F) S2048x2048 .f32)), y ∈ pc.1.set :=
  View.cover_of_tiled [⟨rO, p⟩] S2048x2048.size (by rfl) y

/-! ## The body's triple -/

set_option maxHeartbeats 1000000 in
/-- The body on whole memrefs, the two row blocks' at read contents `x0`, `x1` and the output's at anything, runs to
    the continuation holding the row blocks' as they were and the output's at the product `k3_pay1 x0 x1`: two loads,
    a load of the output that is not used, one store of the whole block. -/
theorem sound_kernel (c : Dev nD) (E : Set ℕ) (i : grid3.Coords)
    (arg2 : Memref sig .tc .vmem S2048x128 .f32) (harg2 : arg2.IsWhole)
    (arg3 : Memref sig .tc .vmem S2048x128 .f32) (harg3 : arg3.IsWhole)
    (arg4 : Memref sig .tc .vmem S2048x2048 .f32) (harg4 : arg4.IsWhole)
    (x0 x1 : Vec F S2048x128 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k3_pay1 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (coverO _), View.canon_unit_zero hz]
  simp only [View.readAt_eq_ld, View.ld_unit_zero (S := S2048x128) hz]

/-! ## The body obligation, at a generic point -/

/-- What the body is called with at point `t`: the invariant, what the core owes, and the three windows' current
    buffers, the row blocks' at what they hold and the output's at what it holds, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns: the same invariant, the same debt, the row blocks in place and the output at the product. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the row blocks' buffers hold their blocks, so the triple applies; the invariant and the
    core's debt pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).Φ t.succ = (dat V c).Φ t.castSucc from rfl,
    show (dat V c).owesAt () t.succ = (dat V c).owesAt () t.castSucc from rfl,
    after_0, after_1, after_2]
  unfold outB
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point, -/
theorem hin (c : Dev nD) : (Pipeline.ΦA (U := UR sig nD τ) spec3 c : sProp 𝕄) ⊢ (dat V c).Φ 0 :=
  Idealize.SL.BI.Entails.refl _

/-- and the invariant after the last point is what the region hands back. -/
theorem hout (c : Dev nD) : (dat V c).Φ (Fin.last cfg3.N) ⊢ (Pipeline.ΦA (U := UR sig nD τ) spec3 c : sProp 𝕄) :=
  Idealize.SL.BI.Entails.refl _

end Cert.KernelIdeal.Dec

end
-- ==== Proof.KIDecShare.lean ====
/-
  One grid region whose two input windows read the same array: the core's unscoped buffers split into the region's
  arrays — the shared array as its two half shares, the output array whole — and the rest, and join back at the exit.
-/
import proofs.«423324_j76630806495674_3_alg».proof.Proof.KIDecData
import Idealize.ShloMosaic.Lib.Pipeline.Launch
import Idealize.ShloMosaic.Lib.Pipeline.RegionsLoop
import Idealize.ShloMosaic.Lib.Pipeline.Cells
import Idealize.ShloMosaic.Rules.PointsTo

set_option maxRecDepth 16384

noncomputable section

namespace Cert.KernelIdeal.Dec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The three windows name two arrays: the two inputs the one, the output the other. -/
theorem image_arrRef : Finset.univ.image (Pipeline.arrRef spec3) = {main_v18_2, main_v19} := by decide

/-- The shares the region holds its arrays at: the first input window the left half, the second the right half, the
    output the whole. -/
theorem share_0 (c : Dev nD) : (dat V c).share 0 = fullShare.left := rfl
theorem share_1 (c : Dev nD) : (dat V c).share 1 = fullShare.right := rfl
theorem share_2 (c : Dev nD) : (dat V c).share 2 = fullShare := rfl

/-- Window 0's array is the whole shared buffer, held at the left half share. -/
theorem arr_0 (c : Dev nD) (X : Buf (Elt F) ((cfg3.win 0).arr.view.loc (c : Thread nD τ))) :
    ((cfg3.win 0).arr.view.loc (c : Thread nD τ) ↦[(cfg3.win 0).arr.view.set]{(dat V c).share 0} X : sProp 𝕄)
      = ((c : Thread nD τ).loc main_v18_2 ↦{fullShare.left} X) := by
  rw [(arr_whole3 0).set_eq_univ, share_0]

/-- Window 1's array is the same whole buffer, held at the right half share. -/
theorem arr_1 (c : Dev nD) (X : Buf (Elt F) ((cfg3.win 1).arr.view.loc (c : Thread nD τ))) :
    ((cfg3.win 1).arr.view.loc (c : Thread nD τ) ↦[(cfg3.win 1).arr.view.set]{(dat V c).share 1} X : sProp 𝕄)
      = ((c : Thread nD τ).loc main_v18_2 ↦{fullShare.right} X) := by
  rw [(arr_whole3 1).set_eq_univ, share_1]

/-- Window 2's array is the whole output buffer, held at the full share. -/
theorem arr_2 (c : Dev nD) (X : Buf (Elt F) ((cfg3.win 2).arr.view.loc (c : Thread nD τ))) :
    ((cfg3.win 2).arr.view.loc (c : Thread nD τ) ↦[(cfg3.win 2).arr.view.set]{(dat V c).share 2} X : sProp 𝕄)
      = ((c : Thread nD τ).loc main_v19 ↦{fullShare} X) := by
  rw [(arr_whole3 2).set_eq_univ, share_2]

/-- An input array is never written: after any number of points both input windows still see the entry contents of
    the shared array. -/
theorem arrAt_0 (c : Dev nD) (n : ℕ) : (dat V c).arrAt 0 n = V c main_v18_2 := by
  rw [Pipeline.Dat.arrAt_in (dat V c) 0 rfl n]; rfl
theorem arrAt_1 (c : Dev nD) (n : ℕ) : (dat V c).arrAt 1 n = V c main_v18_2 := by
  rw [Pipeline.Dat.arrAt_in (dat V c) 1 rfl n]; rfl

/-- Before the first point the output array holds its entry contents. -/
theorem arrAt_2_zero (c : Dev nD) : (dat V c).arrAt 2 0 = V c main_v19 := rfl

/-- The core's unscoped buffers, each whole at the region-entry contents, hand the region its arrays — the shared
    array split in two halves — and the rest. -/
theorem arrays_of_bufs (c : Dev nD) :
    (unscopedBufs c (V c) : sProp 𝕄)
      ⊢ iprop((dat V c).arrays ((dat V c).arrAt · 0)
          ∗ Pipeline.unscopedRest (Ix := Unit) (Name := ℕ) (U := UR sig nD τ) (Lvl := ℕ) spec3 c (V c)) := by
  -- the unscoped buffers are the two buffers behind the windows' arrays and the rest
  rw [show (unscopedBufs c (V c) : sProp 𝕄) = iprop((Pipeline.arrBufs spec3 c (V c) : sProp 𝕄) ∗ Pipeline.unscopedRest spec3 c (V c))
    from Pipeline.unscopedBufs_split₀ cfgs 3 winFacts₀3.arr_unscoped c (V c)]
  refine sep_mono ?_ Entails.rfl
  unfold Pipeline.arrBufs Dat.arrays
  rw [image_arrRef, bigSep_W3, bigSep_insert (by decide), bigSep_singleton, arr_0, arr_1, arr_2]
  beta_reduce
  rw [arrAt_0, arrAt_1, arrAt_2_zero]
  change iprop(_ ∗ _) ⊢ _
  iintro ⟨H18, H19⟩
  -- the full share of the shared array is its left half and its right half
  ihave H18' := (pointsTo_share (PosShare.mem_left_op_right fullShare)).1 $$ H18
  icases H18' with ⟨Hl, Hr⟩
  isplitl [Hl]; · iexact Hl
  isplitl [Hr]; · iexact Hr
  iexact H19

/-- At the exit the two halves join again (both hold the entry contents: an input array is never written) and the
    output array holds what the write-backs left. -/
theorem bufs_of_arrays (c : Dev nD) (V' : (b : Ref sig .tc) → Buf (Elt F) ((c : Thread nD τ).loc b))
    (hout : V' main_v19 = (dat V c).arrAt 2 cfg3.N) (hrest : ∀ b : Ref sig .tc, b ≠ main_v19 → V' b = V c b) :
    iprop((dat V c).arrays ((dat V c).arrAt · cfg3.N)
        ∗ Pipeline.unscopedRest (Ix := Unit) (Name := ℕ) (U := UR sig nD τ) (Lvl := ℕ) spec3 c (V c))
      ⊢ (unscopedBufs c V' : sProp 𝕄) := by
  rw [show (unscopedBufs c V' : sProp 𝕄) = iprop((Pipeline.arrBufs spec3 c V' : sProp 𝕄) ∗ Pipeline.unscopedRest spec3 c V')
    from Pipeline.unscopedBufs_split₀ cfgs 3 winFacts₀3.arr_unscoped c V']
  refine sep_mono ?_ (Entails.of_eq ?_)
  · unfold Pipeline.arrBufs Dat.arrays
    rw [image_arrRef, bigSep_W3, bigSep_insert (by decide), bigSep_singleton, arr_0, arr_1, arr_2]
    beta_reduce
    rw [arrAt_0, arrAt_1, hout, hrest main_v18_2 (by decide)]
    change _ ⊢ iprop(_ ∗ _)
    iintro ⟨Hl, Hr, H19⟩
    isplitl [Hl Hr]
    · -- the two half shares of the shared array, at the same contents, are its full share
      iapply (pointsTo_share (PosShare.mem_left_op_right fullShare)).2
      isplitl [Hl]; · iexact Hl
      iexact Hr
    · iexact H19
  · -- off the windows' arrays the new valuation agrees with the old: a buffer that is no window's array is not the output
    unfold Pipeline.unscopedRest
    exact bigSep_congr fun b hb => by
      have hne : b ≠ main_v19 := fun h => (Finset.mem_sdiff.mp hb).2 (by
        rw [h, image_arrRef]; exact Finset.mem_insert_of_mem (Finset.mem_singleton_self _))
      rw [hrest b hne]

end Cert.KernelIdeal.Dec

end
-- ==== Proof.KIRun.lean ====
/-
  The program's run, step by step: the host operations and the four grid regions in order, each region entered from
  the buffer contents the step before left and left at the contents the next step finds; at the end every buffer is
  read off the last contents.
-/
import proofs.«423324_j76630806495674_3_alg».proof.Proof.KIChain
import proofs.«423324_j76630806495674_3_alg».proof.Proof.KIProjBody
import proofs.«423324_j76630806495674_3_alg».proof.Proof.KIConvBody
import proofs.«423324_j76630806495674_3_alg».proof.Proof.KIHeadBody
import proofs.«423324_j76630806495674_3_alg».proof.Proof.KIDecBody
import proofs.«423324_j76630806495674_3_alg».proof.Proof.KIDecShare
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the four regions, each at its entry contents -/

def pdats : (p : Fin 4) → (c : Dev nD) → Dat τ (Elt F) Unit ℕ (UR sig nD τ) ℕ (Pipeline.pin (pcfgs (F := F)) adm p) c
  | ⟨0, _⟩ => fun c => Proj.dat (E1 m) c
  | ⟨1, _⟩ => fun c => Conv.dat (E3 m) c
  | ⟨2, _⟩ => fun c => Head.dat (E4 m) c
  | ⟨3, _⟩ => fun c => Dec.dat (E5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the generator register at some state, nothing owed. -/
abbrev R (c : Dev nD) : sProp 𝕄 := iprop((∃ r, prngReg c r) ∗ ∃ W, owes (c : Thread nD τ) (0 : CellTallies nD τ sig Unit) W)

/-- A stretch of host operations as a step. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0's exit contents read at the TensorCore's references. -/
abbrev E2 (c : Dev nD) (b : Ref sig .tc) : Buf (Elt F) ((c : Thread nD τ).loc b) := W2 m c b

/-! ## The regions as steps -/

/-- Each region's arrays at the exit, and the other buffers unchanged. -/
theorem hF0 (c : Dev nD) (w : Fin cfg0.W) : (pdats m 0 c).arrAt w cfg0.N = E2 m c (Pipeline.arrRef spec0 w) := by
  match w with
  | ⟨0, _⟩ => exact (((Proj.dat (E1 m) c).arrAt_in 0 rfl _).trans (Proj.A_eq (E1 m) c 0)).trans (W2_of m c main_v13 (by decide)).symm
  | ⟨1, _⟩ => exact (((Proj.dat (E1 m) c).arrAt_in 1 rfl _).trans (Proj.A_eq (E1 m) c 1)).trans (W2_of m c main_v14 (by decide)).symm
  | ⟨2, _⟩ => exact (W2_out m c).symm
theorem hrest0 (c : Dev nD) : ∀ b, b ∉ Finset.univ.image (Pipeline.arrRef spec0) → E2 m c b = E1 m c b :=
  fun b hb => W2_of m c b fun e => hb (Finset.mem_image.mpr ⟨2, Finset.mem_univ _, e.symm⟩)

theorem hF1 (c : Dev nD) (w : Fin cfg1.W) : (pdats m 1 c).arrAt w cfg1.N = E4 m c (Pipeline.arrRef spec1 w) := by
  match w with
  | ⟨0, _⟩ => exact (((Conv.dat (E3 m) c).arrAt_in 0 rfl _).trans (Conv.A_eq (E3 m) c 0)).trans (W4_of m c main_v12 (by decide)).symm
  | ⟨1, _⟩ => exact (((Conv.dat (E3 m) c).arrAt_in 1 rfl _).trans (Conv.A_eq (E3 m) c 1)).trans (W4_of m c main_v15 (by decide)).symm
  | ⟨2, _⟩ => exact (((Conv.dat (E3 m) c).arrAt_in 2 rfl _).trans (Conv.A_eq (E3 m) c 2)).trans (W4_of m c main_v16 (by decide)).symm
  | ⟨3, _⟩ => exact (W4_out m c).symm
theorem hrest1 (c : Dev nD) : ∀ b, b ∉ Finset.univ.image (Pipeline.arrRef spec1) → E4 m c b = E3 m c b :=
  fun b hb => W4_of m c b fun e => hb (Finset.mem_image.mpr ⟨3, Finset.mem_univ _, e.symm⟩)

theorem hF2 (c : Dev nD) (w : Fin cfg2.W) : (pdats m 2 c).arrAt w cfg2.N = E5 m c (Pipeline.arrRef spec2 w) := by
  match w with
  | ⟨0, _⟩ => exact (((Head.dat (E4 m) c).arrAt_in 0 rfl _).trans (Head.A_eq (E4 m) c 0)).trans (W5_of m c main_v11 (by decide) (by decide) (by decide)).symm
  | ⟨1, _⟩ => exact (((Head.dat (E4 m) c).arrAt_in 1 rfl _).trans (Head.A_eq (E4 m) c 1)).trans (W5_of m c main_v17 (by decide) (by decide) (by decide)).symm
  | ⟨2, _⟩ => exact (((Head.dat (E4 m) c).arrAt_in 2 rfl _).trans (Head.A_eq (E4 m) c 2)).trans (W5_of m c main_arg7 (by decide) (by decide) (by decide)).symm
  | ⟨3, _⟩ => exact (W5_mean m c).symm
  | ⟨4, _⟩ => exact (W5_logdev m c).symm
  | ⟨5, _⟩ => exact (W5_sample m c).symm
theorem hrest2 (c : Dev nD) : ∀ b, b ∉ Finset.univ.image (Pipeline.arrRef spec2) → E5 m c b = E4 m c b :=
  fun b hb => W5_of m c b (fun e => hb (Finset.mem_image.mpr ⟨3, Finset.mem_univ _, e.symm⟩))
    (fun e => hb (Finset.mem_image.mpr ⟨4, Finset.mem_univ _, e.symm⟩)) (fun e => hb (Finset.mem_image.mpr ⟨5, Finset.mem_univ _, e.symm⟩))

-- a library lemma stated over the pinned configuration unifies with the printed one only when unification may unfold
-- plain definitions in a metavariable's type
set_option backward.isDefEq.respectTransparency.types false in
/-- Region 0 over the thread state: entered with every unscoped buffer at `W1`, left with them at `W2`. Its arrays
    are split out of the unscoped buffers and put back at the exit contents; the generator register goes into the
    region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA (U := UR sig nD τ) spec0 c : sProp 𝕄) from by
      unfold Pipeline.ΦA
      iintro ⟨Hp, -, Hr⟩
      isplitl [Hr]; · iexact Hr
      iexact Hp).trans (Proj.hin (E1 m) c)
  hout c := by
    rw [Pipeline.ownSems0_none]
    exact (Proj.hout (E1 m) c).trans (show (Pipeline.ΦA (U := UR sig nD τ) spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays
    are split out of the unscoped buffers and put back at the exit contents; the generator register goes into the
    region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Conv.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA (U := UR sig nD τ) spec1 c : sProp 𝕄) from by
      unfold Pipeline.ΦA
      iintro ⟨Hp, -, Hr⟩
      isplitl [Hr]; · iexact Hr
      iexact Hp).trans (Conv.hin (E3 m) c)
  hout c := by
    rw [Pipeline.ownSems0_none]
    exact (Conv.hout (E3 m) c).trans (show (Pipeline.ΦA (U := UR sig nD τ) spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W4`, left with them at `W5`. Its arrays
    are split out of the unscoped buffers and put back at the exit contents; the generator register goes into the
    region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Head.body_obligation (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA (U := UR sig nD τ) spec2 c : sProp 𝕄) from by
      unfold Pipeline.ΦA
      iintro ⟨Hp, -, Hr⟩
      isplitl [Hr]; · iexact Hr
      iexact Hp).trans (Head.hin (E4 m) c)
  hout c := by
    rw [Pipeline.ownSems0_none]
    exact (Head.hout (E4 m) c).trans (show (Pipeline.ΦA (U := UR sig nD τ) spec2 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the Gram matrix), whose two input windows read one array: its arrays are split out of the unscoped
    buffers with that array in two halves and joined again at the exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (Dec.body_obligation (E5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (E5 m c)
  hentry c := by
    rw [Pipeline.ownSems0_none]
    have hsplit := Dec.arrays_of_bufs (E5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA (U := UR sig nD τ) spec3 c : sProp 𝕄) from by
      unfold Pipeline.ΦA
      iintro ⟨Hp, -, Hr⟩
      isplitl [Hr]; · iexact Hr
      iexact Hp).trans (Dec.hin (E5 m) c)
  hout c := by
    rw [Pipeline.ownSems0_none]
    exact (Dec.hout (E5 m) c).trans (show (Pipeline.ΦA (U := UR sig nD τ) spec3 c : sProp 𝕄) ⊢ _ from by
      unfold Pipeline.ΦA
      iintro ⟨Hr, Hp⟩
      isplitl [Hp]; · iexact Hp
      isplitr; · iempintro
      iexact Hr)
  hexit c := by
    have hjoin := Dec.bufs_of_arrays (E5 m) c (fun b => W6 m c b) (W6_out m c) (fun b hb => W6_of m c b hb)
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

/-! ## The program as its steps, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .region (reg3 m),
    .host (hseg hostOps4 hostOps4_sub hostOps4_fresh (W6 m)) ]

theorem main_run (c : Dev nD) : main (F := F) c = Pipeline.Seg.run (segs m) := (main_chain c).trans (by chain_rfl)

set_option backward.isDefEq.respectTransparency.types false in
/-- THE RUN. From any memory with zero counters every weakly fair execution terminates, nothing faulting, and in every
    final state each unscoped buffer holds the last step's contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => (show iprop(StableHlo.held (c : Thread nD τ) (Pipeline.ucRefs τ sig) (W7 m c) ∗ R c) ⊢ _ from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- A buffer the program never writes holds its launch contents at the end; an output buffer holds the last step's. -/
theorem run_read : θ_run defs (onTc (τ := τ) (main (F := F))) ⟨m, fun _ => 0, ρ⟩ (fun r => ∀ c : Dev nD,
      r.2.mem ((c.tc : Thread nD τ).loc main_v20) = W7 m c main_v20
      ∧ r.2.mem ((c.tc : Thread nD τ).loc main_v18_0) = W7 m c main_v18_0
      ∧ r.2.mem ((c.tc : Thread nD τ).loc main_v18_1) = W7 m c main_v18_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v20 (by decide)), h c _ (mem_uc main_v18_0 (by decide)), h c _ (mem_uc main_v18_1 (by decide)),
      (h c _ (mem_uc main_arg0 (by decide))).trans (W7_kept m c main_arg0 (by decide) (by decide) (by decide) (by decide) (by decide) (by decide) (by decide) (by decide) (by decide)),
      (h c _ (mem_uc main_arg1 (by decide))).trans (W7_kept m c main_arg1 (by decide) (by decide) (by decide) (by decide) (by decide) (by decide) (by decide) (by decide) (by decide)),
      (h c _ (mem_uc main_arg2 (by decide))).trans (W7_kept m c main_arg2 (by decide) (by decide) (by decide) (by decide) (by decide) (by decide) (by decide) (by decide) (by decide)),
      (h c _ (mem_uc main_arg3 (by decide))).trans (W7_kept m c main_arg3 (by decide) (by decide) (by decide) (by decide) (by decide) (by decide) (by decide) (by decide) (by decide)),
      (h c _ (mem_uc main_arg4 (by decide))).trans (W7_kept m c main_arg4 (by decide) (by decide) (by decide) (by decide) (by decide) (by decide) (by decide) (by decide) (by decide)),
      (h c _ (mem_uc main_arg5 (by decide))).trans (W7_kept m c main_arg5 (by decide) (by decide) (by decide) (by decide) (by decide) (by decide) (by decide) (by decide) (by decide)),
      (h c _ (mem_uc main_arg6 (by decide))).trans (W7_kept m c main_arg6 (by decide) (by decide) (by decide) (by decide) (by decide) (by decide) (by decide) (by decide) (by decide)),
      (h c _ (mem_uc main_arg7 (by decide))).trans (W7_kept m c main_arg7 (by decide) (by decide) (by decide) (by decide) (by decide) (by decide) (by decide) (by decide) (by decide))⟩)
    (run m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2.2.2) (run_read m ρ)

end Cert.KernelIdeal.Run

end
-- ==== Proof.Spec.lean ====
/-
  The two sides as mathematics, on the extended reals.

  A graph on 8192 nodes is given by 262144 weighted edges (value, source, destination).  One side first lays the
  edges out as a dense 8192 × 8192 matrix (an entry is the sum of the values of the edges with that destination and
  source) and aggregates features by matrix products; the other aggregates edge by edge: the row of a node is the sum,
  over the edges arriving there, of the edge's value times the source node's feature row.  Both then compute a rectified
  first layer, two linear heads (a mean and a log-deviation), a sample `mean + eps · exp(logdev)` and the Gram matrix
  of the samples.
-/
import Idealize.ShloMosaic.Lib.ValueIdx
import Idealize.ShloMosaic.PureOps.Ideal

noncomputable section

namespace Cert.Spec

open Idealize.ShloMosaic Idealize.ShloMosaic.ValueIdx

/-- A matrix of extended reals, indexed as the programs index a rank-2 tensor. -/
abbrev Mat (a b : Nat) : Type := (⟨2, ![a, b]⟩ : Shape).Idx → EReal
/-- A vector of extended reals. -/
abbrev Vc (a : Nat) : Type := (⟨1, ![a]⟩ : Shape).Idx → EReal
/-- A vector of 32-bit words (node numbers). -/
abbrev Wd (a : Nat) : Type := (⟨1, ![a]⟩ : Shape).Idx → BitVec 32

/-- The matrix product, entry by entry. -/
def mmul {a k b : Nat} (X : Mat a k) (Y : Mat k b) : Mat a b :=
  fun i => ∑ q : Fin k, X (ix2 (idxEquiv2 i).1 q) * Y (ix2 q (idxEquiv2 i).2)

theorem mmul_apply {a k b : Nat} (X : Mat a k) (Y : Mat k b) (r : Fin a) (c : Fin b) :
    mmul X Y (ix2 r c) = ∑ q : Fin k, X (ix2 r q) * Y (ix2 q c) := rfl

/-- The rectifier, entry by entry. -/
def relu {a b : Nat} (X : Mat a b) : Mat a b := fun i => max (X i) 0

/-- The dense adjacency matrix of the edge list: entry (n, s) sums the values of the edges from s to n. -/
def dense (vals : Vc 262144) (src dst : Wd 262144) : Mat 8192 8192 :=
  fun i => ∑ e : Fin 262144,
    if (dst (ix1 e)).toInt = ((idxEquiv2 i).1.val : Int) ∧ (src (ix1 e)).toInt = ((idxEquiv2 i).2.val : Int) then vals (ix1 e) else 0

theorem dense_apply (vals : Vc 262144) (src dst : Wd 262144) (n s : Fin 8192) :
    dense vals src dst (ix2 n s) = ∑ e : Fin 262144,
      if (dst (ix1 e)).toInt = (n.val : Int) ∧ (src (ix1 e)).toInt = (s.val : Int) then vals (ix1 e) else 0 := rfl

/-- The node a source word names: the word read signed, below zero taken as zero, above the last node as the last node. -/
def rowOf (b : BitVec 32) : Fin 8192 := ⟨min b.toInt.toNat 8191, by omega⟩

/-- Aggregation edge by edge: row n sums, over the edges arriving at n, the edge's value times the source's row. -/
def spmm {c : Nat} (vals : Vc 262144) (src dst : Wd 262144) (h : Mat 8192 c) : Mat 8192 c :=
  fun i => ∑ e : Fin 262144,
    if (dst (ix1 e)).toInt = ((idxEquiv2 i).1.val : Int) then vals (ix1 e) * h (ix2 (rowOf (src (ix1 e))) (idxEquiv2 i).2) else 0

theorem spmm_apply {c : Nat} (vals : Vc 262144) (src dst : Wd 262144) (h : Mat 8192 c) (n : Fin 8192) (q : Fin c) :
    spmm vals src dst h (ix2 n q) = ∑ e : Fin 262144,
      if (dst (ix1 e)).toInt = (n.val : Int) then vals (ix1 e) * h (ix2 (rowOf (src (ix1 e))) q) else 0 := rfl

/-- Two 256 × 128 weight matrices side by side. -/
def wcat (wm wl : Mat 256 128) : Mat 256 256 :=
  fun i => if h : (idxEquiv2 i).2.val < 128 then wm (ix2 (idxEquiv2 i).1 ⟨(idxEquiv2 i).2.val, h⟩)
    else wl (ix2 (idxEquiv2 i).1 ⟨(idxEquiv2 i).2.val - 128, by have := (idxEquiv2 i).2.isLt; omega⟩)

/-- The left and the right half of the columns of an 8192 × 256 matrix. -/
def leftHalf (X : Mat 8192 256) : Mat 8192 128 := fun i => X (ix2 (idxEquiv2 i).1 ⟨(idxEquiv2 i).2.val, by have := (idxEquiv2 i).2.isLt; omega⟩)
def rightHalf (X : Mat 8192 256) : Mat 8192 128 := fun i => X (ix2 (idxEquiv2 i).1 ⟨(idxEquiv2 i).2.val + 128, by have := (idxEquiv2 i).2.isLt; omega⟩)

/-- The sample: mean plus noise times the exponential of the log-deviation. -/
def sample (mean logdev eps : Mat 8192 128) : Mat 8192 128 := fun i => mean i + eps i * Ideal.exp (logdev i)

/-- The Gram matrix of the rows of `z`, laid out flat, row-major. -/
def gram (z : Mat 8192 128) : Vc 67108864 :=
  fun i => ∑ d : Fin 128, z (ix2 (⟨(i 0).val / 8192, Nat.div_lt_of_lt_mul (show (i 0).val < 8192 * 8192 from (i 0).isLt)⟩ : Fin 8192) d) * z (ix2 (⟨(i 0).val % 8192, Nat.mod_lt _ (by decide)⟩ : Fin 8192) d)

/-! ## The dense side -/

/-- Both heads at once: the dense adjacency times (the rectified first layer times the two weight matrices side by side). -/
def headsD (x : Mat 8192 512) (vals : Vc 262144) (src dst : Wd 262144) (w1 : Mat 512 256) (wm wl : Mat 256 128) : Mat 8192 256 :=
  mmul (dense vals src dst) (mmul (relu (mmul (dense vals src dst) (mmul x w1))) (wcat wm wl))

def meanD (x : Mat 8192 512) (vals : Vc 262144) (src dst : Wd 262144) (w1 : Mat 512 256) (wm wl : Mat 256 128) : Mat 8192 128 :=
  leftHalf (headsD x vals src dst w1 wm wl)
def logdevD (x : Mat 8192 512) (vals : Vc 262144) (src dst : Wd 262144) (w1 : Mat 512 256) (wm wl : Mat 256 128) : Mat 8192 128 :=
  rightHalf (headsD x vals src dst w1 wm wl)
def reconD (x : Mat 8192 512) (vals : Vc 262144) (src dst : Wd 262144) (w1 : Mat 512 256) (wm wl : Mat 256 128) (eps : Mat 8192 128) : Vc 67108864 :=
  gram (sample (meanD x vals src dst w1 wm wl) (logdevD x vals src dst w1 wm wl) eps)

/-! ## The edge-by-edge side -/

def layerS (x : Mat 8192 512) (vals : Vc 262144) (src dst : Wd 262144) (w1 : Mat 512 256) : Mat 8192 256 :=
  relu (spmm vals src dst (mmul x w1))
def meanS (x : Mat 8192 512) (vals : Vc 262144) (src dst : Wd 262144) (w1 : Mat 512 256) (wm : Mat 256 128) : Mat 8192 128 :=
  spmm vals src dst (mmul (layerS x vals src dst w1) wm)
def logdevS (x : Mat 8192 512) (vals : Vc 262144) (src dst : Wd 262144) (w1 : Mat 512 256) (wl : Mat 256 128) : Mat 8192 128 :=
  spmm vals src dst (mmul (layerS x vals src dst w1) wl)
def reconS (x : Mat 8192 512) (vals : Vc 262144) (src dst : Wd 262144) (w1 : Mat 512 256) (wm wl : Mat 256 128) (eps : Mat 8192 128) : Vc 67108864 :=
  gram (sample (meanS x vals src dst w1 wm) (logdevS x vals src dst w1 wl) eps)

/-! ## The hypotheses under which the two sides agree -/

/-- Every entry is a real number. -/
def Real2 {a b : Nat} (X : Mat a b) : Prop := ∀ i, ∃ r : ℝ, X i = (r : EReal)
def Real1 {a : Nat} (X : Vc a) : Prop := ∀ i, ∃ r : ℝ, X i = (r : EReal)
/-- Every word names a node. -/
def InRange (w : Wd 262144) : Prop := ∀ e : Fin 262144, 0 ≤ (w (ix1 e)).toInt ∧ (w (ix1 e)).toInt < 8192

end Cert.Spec

end
-- ==== Proof.SpecGram.lean ====
/-
  The Gram matrix as a square matrix, and its flat row-major layout.
-/
import proofs.«423324_j76630806495674_3_alg».proof.Proof.Spec

noncomputable section

namespace Cert.Spec

open Idealize.ShloMosaic Idealize.ShloMosaic.ValueIdx

/-- Entry (n, p) of the Gram matrix: the inner product of rows n and p. -/
def gramM (z : Mat 8192 128) : Mat 8192 8192 :=
  fun i => ∑ d : Fin 128, z (ix2 (idxEquiv2 i).1 d) * z (ix2 (idxEquiv2 i).2 d)

theorem gramM_apply (z : Mat 8192 128) (n p : Fin 8192) : gramM z (ix2 n p) = ∑ d : Fin 128, z (ix2 n d) * z (ix2 p d) := rfl

/-- The flat layout reads the square one at (i / 8192, i % 8192). -/
theorem gram_eq (z : Mat 8192 128) (i : (⟨1, ![67108864]⟩ : Shape).Idx) :
    gram z i = gramM z (ix2 (⟨(i 0).val / 8192, Nat.div_lt_of_lt_mul (show (i 0).val < 8192 * 8192 from (i 0).isLt)⟩ : Fin 8192)
      (⟨(i 0).val % 8192, Nat.mod_lt _ (by decide)⟩ : Fin 8192)) := rfl

end Cert.Spec

end
-- ==== Proof.KIHostValue.lean ====
/-
  What the host operations around the grid regions compute: the dense adjacency matrix from the edge list, the
  weights side by side, the final flattening.
-/
import proofs.«423324_j76630806495674_3_alg».proof.Proof.KIChain
import proofs.«423324_j76630806495674_3_alg».proof.Proof.Spec
import proofs.«423324_j76630806495674_3_alg».proof.Proof.SpecGram
import Idealize.ShloMosaic.Lib.StableHlo.Run
import Idealize.ShloMosaic.Lib.Pipeline.Value
import Idealize.ShloMosaic.Lib.ValueIdxRank1
import Idealize.ShloMosaic.Lib.WordArith
import Idealize.ShloMosaic.PureOps.Ideal.Laws

set_option maxRecDepth 16384

noncomputable section

namespace Cert.KernelIdeal.Chain

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## The scatter's index arithmetic -/

local notation "sd" => scatter_S67108864_S262144x1_S262144_n_0_0_1

namespace HostValue

/-- An update's start index is read at (its edge, 0) of the index column. -/
theorem sd_siIdx (j : S262144.Idx) (c0 : Fin (sd).scatterDimsToOperandDims.length) :
    (sd).siIdx j c0 = ix2 (j 0) (0 : Fin 1) := by
  funext b
  match b with
  | ⟨0, _⟩ => exact Fin.ext rfl
  | ⟨1, _⟩ => exact Fin.ext (by have := c0.isLt; show c0.val = 0; have h : (sd).scatterDimsToOperandDims.length = 1 := rfl; omega)

/-- On the array's one axis the start is the index word read signed, and the window coordinate is zero. -/
theorem sd_start (idx : IVec S262144x1 32) (j : S262144.Idx) (a : Fin S67108864.rank) :
    (sd).start j idx a + ((sd).window j a : Int) = (idx (ix2 (j 0) (0 : Fin 1))).toInt := by
  have ha : a = (0 : Fin 1) := Subsingleton.elim _ _
  subst ha
  have h1 : (sd).start j idx (0 : Fin 1) = (idx (ix2 (j 0) (0 : Fin 1))).toInt := by
    unfold ScatterDims.start
    rw [dif_pos (by decide)]
    exact congrArg (fun k => (idx k).toInt) (sd_siIdx j _)
  have h2 : (sd).window j (0 : Fin 1) = 0 := by
    unfold ScatterDims.window
    rw [dif_neg (by decide)]
  rw [h1, h2]; simp

/-- Update j lands at position i exactly when its index word, read signed, is i. -/
theorem sd_resultIdx (idx : IVec S262144x1 32) (j : S262144.Idx) (i : S67108864.Idx) :
    (sd).resultIdx? j idx = some i ↔ (idx (ix2 (j 0) (0 : Fin 1))).toInt = ((i 0).val : Int) := by
  unfold ScatterDims.resultIdx?
  constructor
  · intro h
    split at h
    · rename_i hr
      have h' := congrFun (Option.some.inj h) (0 : Fin 1)
      have hv := congrArg Fin.val h'
      simp only [sd_start] at hv hr
      have := (hr (0 : Fin 1)).1
      omega
    · exact absurd h (by simp)
  · intro h
    have hr : ∀ a, 0 ≤ (sd).start j idx a + ((sd).window j a : Int) ∧ (sd).start j idx a + ((sd).window j a : Int) < (S67108864.size a : Int) := by
      intro a
      rw [sd_start, h]
      have ha : a = (0 : Fin 1) := Subsingleton.elim _ _
      subst ha
      have hlt : (i 0).val < 67108864 := (i 0).isLt
      constructor
      · omega
      · show ((i 0).val : Int) < (67108864 : Nat); omega
    rw [dif_pos hr]
    congr 1
    funext a
    have ha : a = (0 : Fin 1) := Subsingleton.elim _ _
    subst ha
    apply Fin.ext
    show ((sd).start j idx 0 + ((sd).window j 0 : Int)).toNat = (i 0).val
    rw [sd_start, h]; simp

/-- For node numbers below 8192 the word destination · 8192 + source does not wrap. -/
theorem flat_toInt (sw dw : BitVec 32) (hs : 0 ≤ sw.toInt ∧ sw.toInt < 8192) (hd : 0 ≤ dw.toInt ∧ dw.toInt < 8192) :
    (IntOp.addi (IntOp.muli dw 8192#32) sw).toInt = dw.toInt * 8192 + sw.toInt := by
  have h8 : (8192#32 : BitVec 32).toInt = 8192 := by decide
  have hm : (dw * 8192#32).toInt = dw.toInt * 8192 := by
    rw [WordArith.toInt_mul_of_bounds _ _ (by rw [h8]; omega) (by rw [h8]; omega), h8]
  show (dw * 8192#32 + sw).toInt = _
  rw [WordArith.toInt_add_of_bounds _ _ (by rw [hm]; omega) (by rw [hm]; omega), hm]

/-- A position that is not negative is kept by the wrap-around select. -/
theorem sel_keep (f : BitVec 32) (h : 0 ≤ f.toInt) :
    Scalar.select (IntOp.cmpi .slt f 0#32) (IntOp.addi f 67108864#32) f = f := by
  unfold Scalar.select
  rw [if_neg]
  intro hc
  have := IntOp.cmpi_slt.1 hc
  have h0 : (0#32 : BitVec 32).toInt = 0 := by decide
  omega

/-- The flat position of each edge: destination · 8192 + source, in 32-bit words. -/
def flatW (src dst : IVec S262144 32) : IVec S262144 32 :=
  addi (muli dst (broadcastInDim S262144 ![] bcast_S_S262144 (constantI S_ 32 8192#32))) src
/-- The flat position with a negative one moved up by the array's length. -/
def selW (src dst : IVec S262144 32) : IVec S262144 32 :=
  select (cmpi CmpIPredicate.slt (flatW src dst) (broadcastInDim S262144 ![] bcast_S_S262144 (constantI S_ 32 0#32)))
    (addi (flatW src dst) (broadcastInDim S262144 ![] bcast_S_S262144 (constantI S_ 32 67108864#32))) (flatW src dst)

set_option maxHeartbeats 4000000 in
/-- The square matrix as the operations' term over the launch memory. -/
theorem v11_term (m : (ℓ : Loc nD τ sig) → Buf (Elt Ideal) ℓ) (c : Dev nD) :
    (W1 m c main_v11 : Cert.Spec.Mat 8192 8192) =
      (shapeCast S8192x8192 (Host.scatterAdd sd (broadcastInDim S67108864 ![] bcast_S_S67108864 (constant (F := Ideal) S_ FTy.f32 0#32))
        (broadcastInDim S262144x1 ![0] bcast_S262144_S262144x1_0 (selW (W0 m c main_arg2) (W0 m c main_arg3)))
        (W0 m c main_arg1)) shapeCasts_S67108864_S8192x8192 : S8192x8192.Idx → EReal) := by
  show StableHlo.after hostOps0 (W0 m c) (Proc.devRef .tc main_v11) = _
  after_results_simp
  rfl

/-- In range, the selected position of edge e is destination · 8192 + source as integers. -/
theorem selW_toInt (src dst : IVec S262144 32) (hs : Cert.Spec.InRange src) (hd : Cert.Spec.InRange dst) (e : Fin 262144) :
    (selW src dst (ix1 e)).toInt = (dst (ix1 e)).toInt * 8192 + (src (ix1 e)).toInt := by
  have hf : (flatW src dst (ix1 e)).toInt = (dst (ix1 e)).toInt * 8192 + (src (ix1 e)).toInt := flat_toInt _ _ (hs e) (hd e)
  have hk : selW src dst (ix1 e) = flatW src dst (ix1 e) := sel_keep _ (by rw [hf]; have := hs e; have := hd e; omega)
  rw [hk, hf]

/-- The index column read at an edge is the edge's flat position. -/
theorem idxcol_apply (w : IVec S262144 32) (e : Fin 262144) :
    broadcastInDim S262144x1 ![0] bcast_S262144_S262144x1_0 w (ix2 e (0 : Fin 1)) = w (ix1 e) :=
  broadcastInDim_apply _ _ w _ (ix1 e) (by intro a; match a with | ⟨0, _⟩ => rfl)

end HostValue

open HostValue

/-! ## The six facts -/

/-- The edge list scattered by the flat index destination · 8192 + source, read back as a square matrix, is the dense
    adjacency matrix, when every source and destination names a node. -/
theorem adj_eq (m : (ℓ : Loc nD τ sig) → Buf (Elt Ideal) ℓ) (c : Dev nD) (hs : Cert.Spec.InRange ((m ((c : Thread nD τ).loc main_arg2)) : Cert.Spec.Wd 262144)) (hd : Cert.Spec.InRange ((m ((c : Thread nD τ).loc main_arg3)) : Cert.Spec.Wd 262144)) :
    (W1 m c main_v11 : Cert.Spec.Mat 8192 8192) = Cert.Spec.dense ((m ((c : Thread nD τ).loc main_arg1)) : Cert.Spec.Vc 262144) (m ((c : Thread nD τ).loc main_arg2)) (m ((c : Thread nD τ).loc main_arg3)) := by
  rw [v11_term]
  funext i
  obtain ⟨n, s, rfl⟩ : ∃ (n s : Fin 8192), i = ix2 n s := ⟨i 0, i 1, eq_ix2 i⟩
  rw [Cert.Spec.dense_apply]
  have hn : n.val < 8192 := n.isLt
  have hs' : s.val < 8192 := s.isLt
  have hpos : n.val * 8192 + s.val < 67108864 := by omega
  -- the square matrix at (n, s) is the flat array at n · 8192 + s
  refine (shapeCast_apply (s := S67108864) (t := S8192x8192) _ _ (ix2 n s) (ix1 (⟨n.val * 8192 + s.val, hpos⟩ : Fin 67108864)) ?_).trans ?_
  · rw [Shape.rowMajor_val_two, Shape.rowMajor_val_one]
    rfl
  -- the scatter-add there: zero plus the values of the edges whose flat position it is
  show Ideal.hostScatterAdd sd _ _ _ (ix1 (⟨n.val * 8192 + s.val, hpos⟩ : Fin 67108864)) = _
  unfold Ideal.hostScatterAdd
  have hz : (broadcastInDim S67108864 ![] bcast_S_S67108864 (constant (F := Ideal) S_ FTy.f32 0#32) (ix1 (⟨n.val * 8192 + s.val, hpos⟩ : Fin 67108864)) : EReal) = 0 :=
    Ideal.ofBits_zero_f32
  rw [hz, zero_add, Finset.sum_filter, ← Equiv.sum_comp (idxEquiv1 (n := 262144)).symm]
  refine Finset.sum_congr rfl (fun e _ => ?_)
  refine if_congr ?_ rfl rfl
  rw [sd_resultIdx]
  have hv := selW_toInt _ _ hs hd e
  have hse := hs e
  have hde := hd e
  have hidx := idxcol_apply (selW (W0 m c main_arg2) (W0 m c main_arg3)) e
  show (broadcastInDim S262144x1 ![0] bcast_S262144_S262144x1_0 (selW (W0 m c main_arg2) (W0 m c main_arg3)) (ix2 e (0 : Fin 1))).toInt = ((n.val * 8192 + s.val : Nat) : Int) ↔ _
  rw [hidx, hv]
  constructor
  · intro h; constructor <;> omega
  · rintro ⟨h1, h2⟩; omega

/-- Narrowing is the identity on the extended reals. -/
theorem x16_eq (m : (ℓ : Loc nD τ sig) → Buf (Elt Ideal) ℓ) (c : Dev nD) : (W1 m c main_v13 : Cert.Spec.Mat 8192 512) = ((m ((c : Thread nD τ).loc main_arg0)) : Cert.Spec.Mat 8192 512) := by
  have e : (W1 m c main_v13 : Cert.Spec.Mat 8192 512) = (truncf (F := Ideal) (s := S8192x512) (φ := .f32) .bf16 (W0 m c main_arg0) bitsLt_bf16_f32 : S8192x512.Idx → EReal) := by
    show StableHlo.after hostOps0 (W0 m c) (Proc.devRef .tc main_v13) = _
    after_results
  rw [e]; rfl
/-- Narrowing is the identity on the extended reals. -/
theorem w16_eq (m : (ℓ : Loc nD τ sig) → Buf (Elt Ideal) ℓ) (c : Dev nD) : (W1 m c main_v14 : Cert.Spec.Mat 512 256) = ((m ((c : Thread nD τ).loc main_arg4)) : Cert.Spec.Mat 512 256) := by
  have e : (W1 m c main_v14 : Cert.Spec.Mat 512 256) = (truncf (F := Ideal) (s := S512x256) (φ := .f32) .bf16 (W0 m c main_arg4) bitsLt_bf16_f32 : S512x256.Idx → EReal) := by
    show StableHlo.after hostOps0 (W0 m c) (Proc.devRef .tc main_v14) = _
    after_results
  rw [e]; rfl
/-- Narrowing is the identity on the extended reals. -/
theorem adj16_eq (m : (ℓ : Loc nD τ sig) → Buf (Elt Ideal) ℓ) (c : Dev nD) : (W1 m c main_v12 : Cert.Spec.Mat 8192 8192) = (W1 m c main_v11 : Cert.Spec.Mat 8192 8192) := by
  have e : (W1 m c main_v12 : Cert.Spec.Mat 8192 8192) = (truncf (F := Ideal) (s := S8192x8192) (φ := .f32) .bf16 (W1 m c main_v11) bitsLt_bf16_f32 : S8192x8192.Idx → EReal) := by
    show StableHlo.after hostOps0 (W0 m c) (Proc.devRef .tc main_v12) = truncf (F := Ideal) (s := S8192x8192) (φ := .f32) .bf16 (StableHlo.after hostOps0 (W0 m c) (Proc.devRef .tc main_v11)) bitsLt_bf16_f32
    after_results
  rw [e]; rfl

/-- The two head weight matrices side by side. -/
theorem wcat_eq (m : (ℓ : Loc nD τ sig) → Buf (Elt Ideal) ℓ) (c : Dev nD) : (W3 m c main_v16 : Cert.Spec.Mat 256 256) = Cert.Spec.wcat ((m ((c : Thread nD τ).loc main_arg5)) : Cert.Spec.Mat 256 128) ((m ((c : Thread nD τ).loc main_arg6)) : Cert.Spec.Mat 256 128) := by
  have e : (W3 m c main_v16 : Cert.Spec.Mat 256 256) = (concatenate S256x256 1 [⟨S256x128, (W2 m c main_arg5 : S256x128.Idx → EReal)⟩, ⟨S256x128, (W2 m c main_arg6 : S256x128.Idx → EReal)⟩] concatenates_S256x128_S256x128_S256x256_d1 : S256x256.Idx → EReal) := by
    show StableHlo.after hostOps1 (W2 m c) (Proc.devRef .tc main_v16) = _
    after_results
  have e5 : (W2 m c main_arg5 : S256x128.Idx → EReal) = ((m ((c : Thread nD τ).loc main_arg5)) : Cert.Spec.Mat 256 128) :=
    (W2_of m c main_arg5 (by decide)).trans ((W1_of m c main_arg5 (by decide)).trans rfl)
  have e6 : (W2 m c main_arg6 : S256x128.Idx → EReal) = ((m ((c : Thread nD τ).loc main_arg6)) : Cert.Spec.Mat 256 128) :=
    (W2_of m c main_arg6 (by decide)).trans ((W1_of m c main_arg6 (by decide)).trans rfl)
  rw [e, e5, e6]
  funext i
  unfold Cert.Spec.wcat
  by_cases h : (idxEquiv2 i).2.val < 128
  · rw [dif_pos h]
    refine concatenate_pair_apply_left (t := S256x256) (s₁ := S256x128) (s₂ := S256x128) (1 : Fin 2) _ _ _ i rfl _ ?_
    intro b
    match b with
    | ⟨0, _⟩ => rfl
    | ⟨1, _⟩ => rfl
  · rw [dif_neg h]
    refine concatenate_pair_apply_right (t := S256x256) (s₁ := S256x128) (s₂ := S256x128) (1 : Fin 2) _ _ _ i rfl rfl _ ?_ ?_
    · intro b hb
      match b, hb with
      | ⟨0, _⟩, _ => rfl
      | ⟨1, _⟩, hb => exact absurd rfl hb
    · show ((idxEquiv2 i).2.val - 128) + 128 = (i 1).val
      have : (idxEquiv2 i).2.val = (i 1).val := rfl
      omega
/-- The final flattening reads the square matrix at (i / 8192, i % 8192). -/
theorem flat_eq (m : (ℓ : Loc nD τ sig) → Buf (Elt Ideal) ℓ) (c : Dev nD) (i : (⟨1, ![67108864]⟩ : Shape).Idx) :
    (W7 m c main_v20 : Cert.Spec.Vc 67108864) i = (W6 m c main_v19 : Cert.Spec.Mat 8192 8192)
      (ix2 (⟨(i 0).val / 8192, Nat.div_lt_of_lt_mul (show (i 0).val < 8192 * 8192 from (i 0).isLt)⟩ : Fin 8192) (⟨(i 0).val % 8192, Nat.mod_lt _ (by decide)⟩ : Fin 8192)) := by
  have e : (W7 m c main_v20 : Cert.Spec.Vc 67108864) = (shapeCast S67108864 (W6 m c main_v19 : S8192x8192.Idx → EReal) shapeCasts_S8192x8192_S67108864 : S67108864.Idx → EReal) := by
    show StableHlo.after hostOps4 (W6 m c) (Proc.devRef .tc main_v20) = _
    after_results
    rfl
  rw [e]
  refine shapeCast_apply (s := S8192x8192) (t := S67108864) _ _ i _ ?_
  rw [Shape.rowMajor_val_two, Shape.rowMajor_val_one]
  show ((i 0).val / 8192) * 8192 + (i 0).val % 8192 = (i 0).val
  omega

end Cert.KernelIdeal.Chain

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KIProjValue.lean ====
/-
  The first product's output array after its four row blocks are written back: the whole matrix product.

  Point t holds rows 2048 i … 2048 i + 2047 of x (i the point's row block) and all of w1, and writes
  0 + Σ_k x(2048 i + b, k) · w1(k, q) to entry (b, q) of its output block, which is entry (2048 i + b, q) of the
  array.  The four blocks tile the 8192 rows, so the array ends at the product entry by entry.
-/
import proofs.«423324_j76630806495674_3_alg».proof.Proof.KIProjData
import proofs.«423324_j76630806495674_3_alg».proof.Proof.Spec
import proofs.«423324_j76630806495674_3_alg».proof.Proof.LibPlainDot
import Idealize.ShloMosaic.Lib.Pipeline.Value

set_option maxRecDepth 16384

noncomputable section

namespace Cert.KernelIdeal.Proj

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The block product contracts the left operand's columns against the right operand's rows. -/
theorem plainProj : PlainDot.IsPlain dot_S2048x512_S512x256_S2048x256_1_0_0_1_n_n := ⟨rfl, rfl, rfl, rfl, rfl, rfl⟩

/-- One output block, entry by entry: the zero accumulator plus the block product, narrowed (the identity on the
    extended reals). -/
theorem pay_apply (x : Vec Ideal S2048x512 .bf16) (w : Vec Ideal S512x256 .bf16) (b : Fin 2048) (q : Fin 256) :
    k0_pay3 (k0_pay2 (k0_pay1 (F := Ideal)) x w) (ix2 b q) = ∑ k : Fin 512, x (ix2 b k) * w (ix2 k q) := by
  unfold k0_pay3 k0_pay2 k0_pay1
  simp only [shapeCast_self]
  rw [truncf_apply, addf_apply, broadcast_apply]
  have h := PlainDot.matmul_zero_apply (φ₁ := .bf16) (φ₂ := .bf16) dot_S2048x512_S512x256_S2048x256_1_0_0_1_n_n plainProj none x w b q
  exact (congrArg (fun z => Ideal.ofBits .f32 0x00000000#32 + z) h).trans (by rw [Ideal.ofBits_zero_f32, zero_add])

/-- The index maps over the four points: the block of x moves with the output's row block and spans all columns,
    the block of w1 is the whole matrix, the output's column block is the only one, its row block is one of four. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block is some point's. -/
theorem idx_onto : ∀ q0 : Fin 4, ∃ t : Fin cfg0.N, win0_2.index t = ![q0.val, 0] :=
  (by decide +kernel : ∀ q0 : Fin 4, ∃ t : Fin grid0.N, win0_2.index t = ![q0.val, 0])

section Blocks

variable (V : (c : Dev nD) → (b : Ref sig .tc) → Buf (Elt Ideal) ((c : Thread nD τ).loc b))

/-- The product the array ends at. -/
abbrev G (c : Dev nD) : Cert.Spec.Mat 8192 256 := Cert.Spec.mmul (V c main_v13 : Cert.Spec.Mat 8192 512) (V c main_v14 : Cert.Spec.Mat 512 256)

/-- Entry (b, q) of the block written at point t is the product's entry at that block entry's place in the array:
    row 2048 i + b, column q, with i the point's row block. -/
theorem blk_apply (c : Dev nD) (t : Fin cfg0.N) (b : Fin 2048) (q : Fin 256) :
    outB V c t (ix2 b q) = G V c (((cfg0.win 2).blk t).view.emb (ix2 b q)) := by
  obtain ⟨e0, e1, e2, e3, e4, e5⟩ := idx_facts t
  have hb : b.val < 2048 := b.isLt
  have hemb : ((cfg0.win 2).blk t).view.emb (ix2 b q) = ix2 (⟨win0_2.index t (0 : Fin 2) * 2048 + b.val, by omega⟩ : Fin 8192) q := by
    funext a; apply Fin.ext
    match a with
    | ⟨0, _⟩ => show win0_2.index t (0 : Fin 2) * 2048 + 1 * b.val = win0_2.index t (0 : Fin 2) * 2048 + b.val; omega
    | ⟨1, _⟩ => show win0_2.index t (1 : Fin 2) * 256 + 1 * q.val = q.val; omega
  rw [hemb]
  unfold outB acc
  refine (pay_apply (xB V c t) (wB V c t) b q).trans ?_
  refine Eq.trans ?_ (Cert.Spec.mmul_apply (V c main_v13 : Cert.Spec.Mat 8192 512) (V c main_v14 : Cert.Spec.Mat 512 256) _ q).symm
  refine Finset.sum_congr rfl fun k _ => ?_
  have hx : xB V c t (ix2 b k) = (V c main_v13 : Cert.Spec.Mat 8192 512) (ix2 (⟨win0_2.index t (0 : Fin 2) * 2048 + b.val, by omega⟩ : Fin 8192) k) := by
    show V c main_v13 (((cfg0.win 0).blk t).view.emb (ix2 b k)) = _
    congr 1
    funext a; apply Fin.ext
    match a with
    | ⟨0, _⟩ => show win0_0.index t (0 : Fin 2) * 2048 + 1 * b.val = win0_2.index t (0 : Fin 2) * 2048 + b.val; omega
    | ⟨1, _⟩ => show win0_0.index t (1 : Fin 2) * 512 + 1 * k.val = k.val; omega
  have hw : wB V c t (ix2 k q) = (V c main_v14 : Cert.Spec.Mat 512 256) (ix2 k q) := by
    show V c main_v14 (((cfg0.win 1).blk t).view.emb (ix2 k q)) = _
    congr 1
    funext a; apply Fin.ext
    match a with
    | ⟨0, _⟩ => show win0_1.index t (0 : Fin 2) * 512 + 1 * k.val = k.val; omega
    | ⟨1, _⟩ => show win0_1.index t (1 : Fin 2) * 256 + 1 * q.val = q.val; omega
  rw [hx, hw]

/-- What point t writes back is block t of the product. -/
theorem flushed_eq (c : Dev nD) (t : Fin cfg0.N) :
    (dat (F := Ideal) V c).flushed 2 t = ((cfg0.win 2).blk t).view.read (Elt Ideal) (G V c) := by
  show (cfg0.win 2).cut (grid0.coords t) ((dat V c).after 2 t) = _
  rw [after_2]
  funext y
  obtain ⟨b, q, rfl⟩ : ∃ (b : Fin 2048) (q : Fin 256), y = ix2 b q := ⟨y 0, y 1, eq_ix2 y⟩
  exact blk_apply V c t b q

end Blocks

/-- An index of the array is in point t's block iff each coordinate is in the block's range on its axis. -/
theorem mem_blk (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v15).slice (win0_2.rect t)).set ↔ _
  rw [View.set_slice_whole, Rect.mem_set_unit]
  exact Iff.rfl

/-- Every entry of the array is in the block of the point whose row block holds its row: row r is in block r / 2048. -/
theorem cover (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- Every row block written back is the block of the product: the array ends at x · w1. -/
theorem out_eq (V : (c : Dev nD) → (b : Ref sig .tc) → Buf (Elt Ideal) ((c : Thread nD τ).loc b)) (c : Dev nD) :
    ((dat (F := Ideal) V c).arrAt 2 cfg0.N : Cert.Spec.Mat 8192 256) = Cert.Spec.mmul (V c main_v13 : Cert.Spec.Mat 8192 512) (V c main_v14 : Cert.Spec.Mat 512 256) :=
  (dat (F := Ideal) V c).arrAt_eq_of_cover 2 (G V c) (fun t _ => flushed_eq V c t) cover

end Cert.KernelIdeal.Proj

end
-- ==== Proof.KIConvValue.lean ====
/-
  The first graph layer's output array: the accumulation over the four column blocks is the whole product, and each
  closing point writes the rectified row block times the weights.
-/
import proofs.«423324_j76630806495674_3_alg».proof.Proof.KIConvData
import proofs.«423324_j76630806495674_3_alg».proof.Proof.Spec
import proofs.«423324_j76630806495674_3_alg».proof.Proof.LibPlainDot
import Idealize.ShloMosaic.Lib.Pipeline.Value

set_option maxRecDepth 16384

noncomputable section

namespace Cert.KernelIdeal.Conv

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The matrices the layer reads, as the region finds them. -/
abbrev Adj (V : (c : Dev nD) → (b : Ref sig .tc) → Buf (Elt Ideal) ((c : Thread nD τ).loc b)) (c : Dev nD) : Cert.Spec.Mat 8192 8192 := V c main_v12
abbrev Feat (V : (c : Dev nD) → (b : Ref sig .tc) → Buf (Elt Ideal) ((c : Thread nD τ).loc b)) (c : Dev nD) : Cert.Spec.Mat 8192 256 := V c main_v15
abbrev Wt (V : (c : Dev nD) → (b : Ref sig .tc) → Buf (Elt Ideal) ((c : Thread nD τ).loc b)) (c : Dev nD) : Cert.Spec.Mat 256 256 := V c main_v16

section Blocks

variable (V : (c : Dev nD) → (b : Ref sig .tc) → Buf (Elt Ideal) ((c : Thread nD τ).loc b)) (c : Dev nD)

theorem N_eq : cfg1.N = 16 := N_1

/-- The block index maps over the grid: point t = 4 i + k reads block (i, k) of the adjacency matrix, row block k of the
    features, the whole weight matrix, and writes row block i of the output. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- The adjacency block at point t is rows 2048 (t / 4) + · and columns 2048 (t % 4) + · of the matrix. -/
theorem adjB_apply (t : Fin cfg1.N) (b s : Fin 2048) (r x : Fin 8192)
    (hr : r.val = 2048 * (t.val / 4) + b.val) (hx : x.val = 2048 * (t.val % 4) + s.val) :
    adjB V c t (ix2 b s) = Adj V c (ix2 r x) := by
  obtain ⟨e0, e1, -⟩ := idx_facts t
  show V c main_v12 (((cfg1.win 0).blk t).view.emb (ix2 b s)) = V c main_v12 (ix2 r x)
  congr 1
  funext a
  apply Fin.ext
  match a with
  | ⟨0, _⟩ => show win1_0.index t (0 : Fin 2) * 2048 + 1 * b.val = r.val; omega
  | ⟨1, _⟩ => show win1_0.index t (1 : Fin 2) * 2048 + 1 * s.val = x.val; omega

/-- The feature block at point t is rows 2048 (t % 4) + · of the feature matrix. -/
theorem featB_apply (t : Fin cfg1.N) (s : Fin 2048) (q : Fin 256) (x : Fin 8192)
    (hx : x.val = 2048 * (t.val % 4) + s.val) :
    featB V c t (ix2 s q) = Feat V c (ix2 x q) := by
  obtain ⟨-, -, e0, e1, -⟩ := idx_facts t
  show V c main_v15 (((cfg1.win 1).blk t).view.emb (ix2 s q)) = V c main_v15 (ix2 x q)
  congr 1
  funext a
  apply Fin.ext
  match a with
  | ⟨0, _⟩ => show win1_1.index t (0 : Fin 2) * 2048 + 1 * s.val = x.val; omega
  | ⟨1, _⟩ => show win1_1.index t (1 : Fin 2) * 256 + 1 * q.val = q.val; omega

/-- The weight block at every point is the whole weight matrix. -/
theorem wB_apply (t : Fin cfg1.N) (q j : Fin 256) : wB V c t (ix2 q j) = Wt V c (ix2 q j) := by
  obtain ⟨-, -, -, -, e0, e1, -⟩ := idx_facts t
  show V c main_v16 (((cfg1.win 2).blk t).view.emb (ix2 q j)) = V c main_v16 (ix2 q j)
  congr 1
  funext a
  apply Fin.ext
  match a with
  | ⟨0, _⟩ => show win1_2.index t (0 : Fin 2) * 256 + 1 * q.val = q.val; omega
  | ⟨1, _⟩ => show win1_2.index t (1 : Fin 2) * 256 + 1 * j.val = j.val; omega

/-! ## The payloads, entry by entry -/

theorem plain_adj : PlainDot.IsPlain dot_S2048x2048_S2048x256_S2048x256_1_0_0_1_n_n := ⟨rfl, rfl, rfl, rfl, rfl, rfl⟩
theorem plain_wt : PlainDot.IsPlain dot_S2048x256_S256x256_S2048x256_1_0_0_1_n_n := ⟨rfl, rfl, rfl, rfl, rfl, rfl⟩

/-- The cleared accumulator is zero. -/
theorem pay1_apply (i : S2048x256.Idx) : k1_pay1 (F := Ideal) i = 0 := by
  unfold k1_pay1
  simp only [shapeCast_self]
  exact Ideal.ofBits_zero_f32

/-- A point adds its block product to the accumulator. -/
theorem pay2_apply (v3 : Vec Ideal S2048x256 .f32) (v4 : Vec Ideal S2048x2048 .bf16) (v6 : Vec Ideal S2048x256 .bf16)
    (b : Fin 2048) (q : Fin 256) :
    k1_pay2 v3 v4 v6 (ix2 b q) = v3 (ix2 b q) + ∑ s : Fin 2048, v4 (ix2 b s) * v6 (ix2 s q) := by
  unfold k1_pay2
  simp only [shapeCast_self]
  rw [addf_apply]
  exact congrArg (v3 (ix2 b q) + ·) (PlainDot.matmul_zero_apply _ plain_adj none v4 v6 b q)

/-- A closing point multiplies the rectified accumulator by the weights. -/
theorem pay3_apply (v16 : Vec Ideal S2048x256 .f32) (v19 : Vec Ideal S256x256 .f32) (b : Fin 2048) (j : Fin 256) :
    k1_pay3 v16 v19 (ix2 b j) = ∑ q : Fin 256, max (v16 (ix2 b q)) 0 * v19 (ix2 q j) := by
  unfold k1_pay3
  simp only [shapeCast_self]
  refine (PlainDot.matmul_zero_apply _ plain_wt (some .fp32) _ v19 b j).trans ?_
  refine Finset.sum_congr rfl fun q _ => ?_
  rw [maximumf_apply, broadcast_apply]
  exact congrArg (fun z => max (v16 (ix2 b q)) z * v19 (ix2 q j)) Ideal.ofBits_zero_f32

/-! ## The accumulation -/

/-- The block product point m adds (zero past the grid). -/
def bp (m : ℕ) (b : Fin 2048) (q : Fin 256) : EReal :=
  if h : m < cfg1.N then ∑ s : Fin 2048, adjB V c ⟨m, h⟩ (ix2 b s) * featB V c ⟨m, h⟩ (ix2 s q) else 0

/-- After point n the accumulator holds the block products of the points from the opening of n's row block up to n. -/
theorem acc_apply : ∀ (n : ℕ) (hn : n < cfg1.N) (b : Fin 2048) (q : Fin 256),
    acc V c n hn (ix2 b q) = ∑ j ∈ Finset.range (n % 4 + 1), bp V c (n - n % 4 + j) b q
  | 0, hn, b, q => by
    have hbp : bp V c 0 b q = ∑ s : Fin 2048, adjB V c ⟨0, hn⟩ (ix2 b s) * featB V c ⟨0, hn⟩ (ix2 s q) := dif_pos hn
    rw [acc, pay2_apply, ← hbp, pay1_apply, zero_add]
    show _ = ∑ j ∈ Finset.range 1, bp V c (0 + j) b q
    rw [Finset.sum_range_one]
  | n + 1, hn, b, q => by
    have ih := acc_apply n (Nat.lt_of_succ_lt hn) b q
    have hbp : bp V c (n + 1) b q = ∑ s : Fin 2048, adjB V c ⟨n + 1, hn⟩ (ix2 b s) * featB V c ⟨n + 1, hn⟩ (ix2 s q) := dif_pos hn
    rw [acc, pay2_apply, ← hbp]
    by_cases h4 : (n + 1) % 4 = 0
    · rw [if_pos h4, pay1_apply, zero_add, h4]
      simp only [zero_add, Finset.sum_range_one, Nat.sub_zero, Nat.add_zero]
    · rw [if_neg h4, ih]
      have e1 : (n + 1) % 4 + 1 = (n % 4 + 1) + 1 := by omega
      have e2 : n + 1 - (n + 1) % 4 = n - n % 4 := by omega
      have e3 : n - n % 4 + (n % 4 + 1) = n + 1 := by omega
      rw [e1, e2, Finset.sum_range_succ _ (n % 4 + 1), e3]

/-- A sum over 8192 indices, taken as four runs of 2048. -/
theorem sum_four_runs (g : Fin 8192 → EReal) :
    ∑ x : Fin 8192, g x = ∑ j : Fin 4, ∑ s : Fin 2048, g ⟨2048 * j.val + s.val, by omega⟩ := by
  rw [← Equiv.sum_comp (finProdFinEquiv (m := 4) (n := 2048)) g, Fintype.sum_prod_type]
  refine Finset.sum_congr rfl fun j _ => Finset.sum_congr rfl fun s _ => congrArg g (Fin.ext ?_)
  show s.val + 2048 * j.val = 2048 * j.val + s.val
  omega

/-- At a closing point the accumulator holds a row block of the whole product A · h. -/
theorem acc_closing (t : Fin cfg1.N) (ht : t.val % 4 = 3) (b : Fin 2048) (q : Fin 256) (r : Fin 8192)
    (hr : r.val = 2048 * (t.val / 4) + b.val) :
    acc V c t.val t.isLt (ix2 b q) = Cert.Spec.mmul (Adj V c) (Feat V c) (ix2 r q) := by
  have hN : t.val < 16 := N_eq ▸ t.isLt
  rw [acc_apply, Cert.Spec.mmul_apply, ht, sum_four_runs, show (3 + 1 : ℕ) = 4 from rfl, Finset.sum_range]
  refine Finset.sum_congr rfl fun j _ => ?_
  have hlt : t.val - 3 + j.val < cfg1.N := by have h16 := N_eq; omega
  unfold bp
  rw [dif_pos hlt]
  refine Finset.sum_congr rfl fun s _ => ?_
  rw [adjB_apply V c ⟨t.val - 3 + j.val, hlt⟩ b s r ⟨2048 * j.val + s.val, by omega⟩ (by show r.val = 2048 * ((t.val - 3 + j.val) / 4) + b.val; omega)
        (by show 2048 * j.val + s.val = 2048 * ((t.val - 3 + j.val) % 4) + s.val; omega),
      featB_apply V c ⟨t.val - 3 + j.val, hlt⟩ s q ⟨2048 * j.val + s.val, by omega⟩
        (by show 2048 * j.val + s.val = 2048 * ((t.val - 3 + j.val) % 4) + s.val; omega)]

/-! ## From the blocks to the array -/

/-- The layer's output as one function of the three matrices. -/
abbrev G : Cert.Spec.Mat 8192 256 := Cert.Spec.mmul (Cert.Spec.relu (Cert.Spec.mmul (Adj V c) (Feat V c))) (Wt V c)

/-- What a closing point writes is a row block of relu(A · h) · W. -/
theorem outB_apply (t : Fin cfg1.N) (ht : t.val % 4 = 3) (b : Fin 2048) (j : Fin 256) (r : Fin 8192)
    (hr : r.val = 2048 * (t.val / 4) + b.val) :
    outB V c t (ix2 b j) = G V c (ix2 r j) := by
  unfold outB
  rw [pay3_apply]
  refine Eq.trans ?_ (Cert.Spec.mmul_apply _ _ r j).symm
  refine Finset.sum_congr rfl fun q _ => ?_
  rw [acc_closing V c t ht b q r hr, wB_apply]
  rfl

/-- What a closing point writes back is its block of the one array function. -/
theorem flushed_eq (t : Fin cfg1.N) (hf : (cfg1.win 3).flush t = true) :
    (dat (F := Ideal) V c).flushed 3 t = ((cfg1.win 3).blk t).view.read (Elt Ideal) (G V c) := by
  have ht : t.val % 4 = 3 := (flush1_3 t).mp hf
  have hN : t.val < 16 := N_eq ▸ t.isLt
  obtain ⟨-, -, -, -, -, -, e0, e1⟩ := idx_facts t
  show (cfg1.win 3).cut (grid1.coords t) ((dat (F := Ideal) V c).after 3 t) = _
  rw [after_3]
  have key : ∀ (b : Fin 2048) (j : Fin 256), outB V c t (ix2 b j) = G V c (((cfg1.win 3).blk t).view.emb (ix2 b j)) := by
    intro b j
    rw [outB_apply V c t ht b j ⟨2048 * (t.val / 4) + b.val, by omega⟩ rfl]
    congr 1
    funext a
    apply Fin.ext
    match a with
    | ⟨0, _⟩ => show 2048 * (t.val / 4) + b.val = win1_3.index t (0 : Fin 2) * 2048 + 1 * b.val; omega
    | ⟨1, _⟩ => show j.val = win1_3.index t (1 : Fin 2) * 256 + 1 * j.val; omega
  funext y
  have hy : ∀ y : S2048x256.Idx, outB V c t y = G V c (((cfg1.win 3).blk t).view.emb y) := fun y => by
    rw [eq_ix2 y]; exact key (y 0) (y 1)
  exact hy y

/-- Every row of the output is in some closing point's block. -/
theorem cover (i : S8192x256.Idx) : ∃ t : Fin cfg1.N, (cfg1.win 3).flush t = true ∧ i ∈ ((cfg1.win 3).blk t).view.set := by
  have h0 : (i 0).val < 8192 := (i 0).isLt
  have h1 : (i 1).val < 256 := (i 1).isLt
  have hlt : 4 * ((i 0).val / 2048) + 3 < cfg1.N := by rw [N_eq]; omega
  obtain ⟨-, -, -, -, -, -, e0, e1⟩ := idx_facts ⟨4 * ((i 0).val / 2048) + 3, hlt⟩
  have e0' : win1_3.index ⟨4 * ((i 0).val / 2048) + 3, hlt⟩ (0 : Fin 2) = (4 * ((i 0).val / 2048) + 3) / 4 := e0
  refine ⟨⟨4 * ((i 0).val / 2048) + 3, hlt⟩, (flush1_3 _).mpr (by show (4 * ((i 0).val / 2048) + 3) % 4 = 3; omega), ?_⟩
  show i ∈ ((View.whole main_v17).slice (win1_3.rect ⟨4 * ((i 0).val / 2048) + 3, hlt⟩)).set
  rw [View.set_slice_whole, Rect.mem_set_unit]
  intro a
  match a with
  | ⟨0, _⟩ => show win1_3.index ⟨4 * ((i 0).val / 2048) + 3, hlt⟩ (0 : Fin 2) * 2048 ≤ (i 0).val ∧ (i 0).val < win1_3.index ⟨4 * ((i 0).val / 2048) + 3, hlt⟩ (0 : Fin 2) * 2048 + 2048; omega
  | ⟨1, _⟩ => show win1_3.index ⟨4 * ((i 0).val / 2048) + 3, hlt⟩ (1 : Fin 2) * 256 ≤ (i 1).val ∧ (i 1).val < win1_3.index ⟨4 * ((i 0).val / 2048) + 3, hlt⟩ (1 : Fin 2) * 256 + 256; omega

end Blocks

/-- The array ends at relu(A · h) · W. -/
theorem out_eq (V : (c : Dev nD) → (b : Ref sig .tc) → Buf (Elt Ideal) ((c : Thread nD τ).loc b)) (c : Dev nD) :
    ((dat (F := Ideal) V c).arrAt 3 cfg1.N : Cert.Spec.Mat 8192 256)
      = Cert.Spec.mmul (Cert.Spec.relu (Cert.Spec.mmul (V c main_v12 : Cert.Spec.Mat 8192 8192) (V c main_v15 : Cert.Spec.Mat 8192 256))) (V c main_v16 : Cert.Spec.Mat 256 256) := by
  exact (dat (F := Ideal) V c).arrAt_eq_of_cover 3 (G V c) (flushed_eq V c) (cover)

end Cert.KernelIdeal.Conv

end
-- ==== Proof.KIHeadValue.lean ====
/-
  The heads' three output arrays: the accumulation over the eight column blocks is the whole product A · M, whose
  left half is the mean and right half the log-deviation; the sample is mean + noise · exp(log-deviation).
-/
import proofs.«423324_j76630806495674_3_alg».proof.Proof.KIHeadData
import proofs.«423324_j76630806495674_3_alg».proof.Proof.Spec
import proofs.«423324_j76630806495674_3_alg».proof.Proof.LibPlainDot
import Idealize.ShloMosaic.Lib.Pipeline.Value

set_option maxRecDepth 16384

noncomputable section

namespace Cert.KernelIdeal.Head

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## Where a point's blocks sit in their arrays -/

/-- The printed index maps over the 4 × 8 grid: point t = 8 i + k takes block (i, k) of the adjacency matrix, row block k
    of the operand, and row block i of the noise and of the three outputs. -/
theorem idx_facts : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0
    ∧ win2_4.index t (0 : Fin 2) = t.val / 8 ∧ win2_4.index t (1 : Fin 2) = 0
    ∧ win2_5.index t (0 : Fin 2) = t.val / 8 ∧ win2_5.index t (1 : Fin 2) = 0 :=
  (by decide +kernel : ∀ t : Fin grid2.N, _)

variable (V : (c : Dev nD) → (b : Ref sig .tc) → Buf (Elt Ideal) ((c : Thread nD τ).loc b))

/-- The adjacency matrix, the operand and the noise as the region finds them, and the whole product. -/
abbrev adjM (c : Dev nD) : Cert.Spec.Mat 8192 8192 := V c main_v11
abbrev featM (c : Dev nD) : Cert.Spec.Mat 8192 256 := V c main_v17
abbrev epsM (c : Dev nD) : Cert.Spec.Mat 8192 128 := V c main_arg7
abbrev prodM (c : Dev nD) : Cert.Spec.Mat 8192 256 := Cert.Spec.mmul (adjM V c) (featM V c)

/-- The adjacency block at point t, entry (b, s), is entry (2048 (t / 8) + b, 1024 (t % 8) + s) of the matrix. -/
theorem adjB_apply (c : Dev nD) (t : Fin cfg2.N) (b : Fin 2048) (s : Fin 1024) (r' k' : Fin 8192)
    (hr : r'.val = 2048 * (t.val / 8) + b.val) (hk : k'.val = 1024 * (t.val % 8) + s.val) :
    adjB V c t (ix2 b s) = adjM V c (ix2 r' k') := by
  obtain ⟨e0, e1, -⟩ := idx_facts t
  show V c main_v11 (((cfg2.win 0).blk t).view.emb (ix2 b s)) = V c main_v11 (ix2 r' k')
  refine congrArg _ (funext fun a => Fin.ext ?_)
  match a with
  | ⟨0, _⟩ => show win2_0.index t (0 : Fin 2) * 2048 + 1 * b.val = r'.val; omega
  | ⟨1, _⟩ => show win2_0.index t (1 : Fin 2) * 1024 + 1 * s.val = k'.val; omega

/-- The operand block at point t, entry (s, q), is entry (1024 (t % 8) + s, q) of the operand. -/
theorem featB_apply (c : Dev nD) (t : Fin cfg2.N) (s : Fin 1024) (q : Fin 256) (k' : Fin 8192)
    (hk : k'.val = 1024 * (t.val % 8) + s.val) :
    featB V c t (ix2 s q) = featM V c (ix2 k' q) := by
  obtain ⟨-, -, e2, e3, -⟩ := idx_facts t
  show V c main_v17 (((cfg2.win 1).blk t).view.emb (ix2 s q)) = V c main_v17 (ix2 k' q)
  refine congrArg _ (funext fun a => Fin.ext ?_)
  match a with
  | ⟨0, _⟩ => show win2_1.index t (0 : Fin 2) * 1024 + 1 * s.val = k'.val; omega
  | ⟨1, _⟩ => show win2_1.index t (1 : Fin 2) * 256 + 1 * q.val = q.val; omega

/-- The noise block at point t, entry (b, q), is entry (2048 (t / 8) + b, q) of the noise. -/
theorem epsB_apply (c : Dev nD) (t : Fin cfg2.N) (b : Fin 2048) (q : Fin 128) (r' : Fin 8192)
    (hr : r'.val = 2048 * (t.val / 8) + b.val) :
    epsB V c t (ix2 b q) = epsM V c (ix2 r' q) := by
  obtain ⟨-, -, -, -, e4, e5, -⟩ := idx_facts t
  show V c main_arg7 (((cfg2.win 2).blk t).view.emb (ix2 b q)) = V c main_arg7 (ix2 r' q)
  refine congrArg _ (funext fun a => Fin.ext ?_)
  match a with
  | ⟨0, _⟩ => show win2_2.index t (0 : Fin 2) * 2048 + 1 * b.val = r'.val; omega
  | ⟨1, _⟩ => show win2_2.index t (1 : Fin 2) * 128 + 1 * q.val = q.val; omega

/-! ## The payloads, entry by entry -/

/-- The cleared accumulator is zero everywhere. -/
theorem pay1_apply (i : S2048x256.Idx) : (k2_pay1 (F := Ideal)) i = 0 := by
  unfold k2_pay1
  rw [shapeCast_self]
  exact Ideal.ofBits_zero_f32

/-- One accumulation step adds the block product. -/
theorem pay2_apply (v3 : Vec Ideal S2048x256 .f32) (v4 : Vec Ideal S2048x1024 .f32) (v6 : Vec Ideal S1024x256 .f32)
    (b : Fin 2048) (q : Fin 256) :
    k2_pay2 v3 v4 v6 (ix2 b q) = v3 (ix2 b q) + ∑ s : Fin 1024, v4 (ix2 b s) * v6 (ix2 s q) := by
  unfold k2_pay2
  simp only [shapeCast_self]
  rw [addf_apply]
  exact congrArg (v3 (ix2 b q) + ·) (PlainDot.matmul_zero_apply dot_S2048x1024_S1024x256_S2048x256_1_0_0_1_n_n
    ⟨rfl, rfl, rfl, rfl, rfl, rfl⟩ (some .fp32) v4 v6 b q)

/-- The left half of the accumulator's columns. -/
theorem pay3_apply (v : Vec Ideal S2048x256 .f32) (b : Fin 2048) (q : Fin 128) (q' : Fin 256) (hq : q'.val = q.val) :
    k2_pay3 v (ix2 b q) = v (ix2 b q') := by
  unfold k2_pay3
  refine Idealize.ShloMosaic.extractStridedSlice_apply _ _ _ (ix2 b q) (ix2 b q') fun a => ?_
  match a with
  | ⟨0, _⟩ => show b.val = 0 + b.val; omega
  | ⟨1, _⟩ => show q'.val = 0 + q.val; omega

/-- The right half of the accumulator's columns. -/
theorem pay4_apply (v : Vec Ideal S2048x256 .f32) (b : Fin 2048) (q : Fin 128) (q' : Fin 256) (hq : q'.val = q.val + 128) :
    k2_pay4 v (ix2 b q) = v (ix2 b q') := by
  unfold k2_pay4
  refine Idealize.ShloMosaic.extractStridedSlice_apply _ _ _ (ix2 b q) (ix2 b q') fun a => ?_
  match a with
  | ⟨0, _⟩ => show b.val = 0 + b.val; omega
  | ⟨1, _⟩ => show q'.val = 128 + q.val; omega

/-- The sample block: left half plus noise times the exponential of the right half. -/
theorem pay5_apply (v : Vec Ideal S2048x256 .f32) (e : Vec Ideal S2048x128 .f32) (i : S2048x128.Idx) :
    k2_pay5 v e i = k2_pay3 v i + e i * Ideal.exp (k2_pay4 v i) := rfl

/-! ## The accumulation over the eight column blocks -/

/-- A natural number read as a row or column number of the 8192-sided arrays (a number below 8192 is itself). -/
def fo (r : ℕ) : Fin 8192 := ⟨r % 8192, Nat.mod_lt _ (by decide)⟩

theorem fo_val {r : ℕ} (h : r < 8192) : (fo r).val = r := Nat.mod_eq_of_lt h

theorem point_lt (t : Fin cfg2.N) : t.val < 32 := lt_of_lt_of_eq t.isLt N_2

/-- The product of the two blocks point m holds, at entry (b, q), written in the whole arrays' entries. -/
def term (c : Dev nD) (m : ℕ) (b : Fin 2048) (q : Fin 256) : EReal :=
  ∑ s : Fin 1024, adjM V c (ix2 (fo (2048 * (m / 8) + b.val)) (fo (1024 * (m % 8) + s.val)))
    * featM V c (ix2 (fo (1024 * (m % 8) + s.val)) q)

theorem blockprod_eq (c : Dev nD) (t : Fin cfg2.N) (b : Fin 2048) (q : Fin 256) :
    ∑ s : Fin 1024, adjB V c t (ix2 b s) * featB V c t (ix2 s q) = term V c t.val b q := by
  have ht := point_lt t
  have hb := b.isLt
  refine Finset.sum_congr rfl fun s _ => ?_
  have hs := s.isLt
  rw [adjB_apply V c t b s (fo (2048 * (t.val / 8) + b.val)) (fo (1024 * (t.val % 8) + s.val)) (fo_val (by omega)) (fo_val (by omega)),
    featB_apply V c t s q (fo (1024 * (t.val % 8) + s.val)) (fo_val (by omega))]

theorem acc_zero (c : Dev nD) (hn : 0 < cfg2.N) :
    acc V c 0 hn = k2_pay2 (k2_pay1 (F := Ideal)) (adjB V c ⟨0, hn⟩) (featB V c ⟨0, hn⟩) := rfl

theorem acc_succ (c : Dev nD) (n : ℕ) (hn : n + 1 < cfg2.N) :
    acc V c (n + 1) hn = k2_pay2 (if (n + 1) % 8 = 0 then k2_pay1 (F := Ideal) else acc V c n (Nat.lt_of_succ_lt hn))
      (adjB V c ⟨n + 1, hn⟩) (featB V c ⟨n + 1, hn⟩) := rfl

/-- THE INVARIANT: after point n the accumulator holds the block products of the points of n's row block up to n. -/
theorem acc_apply (c : Dev nD) : ∀ (n : ℕ) (hn : n < cfg2.N) (b : Fin 2048) (q : Fin 256),
    acc V c n hn (ix2 b q) = ∑ j ∈ Finset.range (n % 8 + 1), term V c (8 * (n / 8) + j) b q
  | 0, hn, b, q => by
    rw [acc_zero, pay2_apply, pay1_apply, zero_add, blockprod_eq]
    show term V c 0 b q = ∑ j ∈ Finset.range 1, term V c (8 * (0 / 8) + j) b q
    rw [Finset.sum_range_one]
  | n + 1, hn, b, q => by
    rw [acc_succ, pay2_apply, blockprod_eq]
    show _ + term V c (n + 1) b q = _
    by_cases h0 : (n + 1) % 8 = 0
    · rw [if_pos h0, pay1_apply, zero_add, h0, Finset.sum_range_one]
      congr 1; omega
    · rw [if_neg h0, acc_apply c n (Nat.lt_of_succ_lt hn) b q]
      have h1 : (n + 1) % 8 = n % 8 + 1 := by omega
      have h2 : (n + 1) / 8 = n / 8 := by omega
      rw [h1, h2, Finset.sum_range_succ _ (n % 8 + 1)]
      congr 2; omega

/-- Eight runs of 1024 consecutive numbers are the numbers below 8192. -/
theorem sum_blocks (g : Fin 8192 → EReal) :
    ∑ j ∈ Finset.range 8, ∑ s : Fin 1024, g (fo (1024 * j + s.val)) = ∑ k : Fin 8192, g k := by
  rw [Finset.sum_range (fun j => ∑ s : Fin 1024, g (fo (1024 * j + s.val)))]
  rw [← Fintype.sum_prod_type' (fun (j : Fin 8) (s : Fin 1024) => g (fo (1024 * j.val + s.val)))]
  refine Fintype.sum_equiv (finProdFinEquiv (m := 8) (n := 1024)) _ _ fun p => congrArg g (Fin.ext ?_)
  have h1 := p.1.isLt
  have h2 := p.2.isLt
  show (1024 * p.1.val + p.2.val) % 8192 = p.2.val + 1024 * p.1.val
  omega

/-- AT A CLOSING POINT the accumulator holds rows 2048 (t / 8) … of the whole product. -/
theorem acc_closing (c : Dev nD) (t : Fin cfg2.N) (h7 : t.val % 8 = 7) (b : Fin 2048) (q : Fin 256) (r : Fin 8192)
    (hr : r.val = 2048 * (t.val / 8) + b.val) :
    acc V c t.val t.isLt (ix2 b q)
      = prodM V c (ix2 r q) := by
  have ht := point_lt t
  have hb := b.isLt
  show _ = Cert.Spec.mmul (adjM V c) (featM V c) (ix2 r q)
  rw [acc_apply, h7, Cert.Spec.mmul_apply,
    ← sum_blocks (fun k => adjM V c (ix2 r k) * featM V c (ix2 k q))]
  refine Finset.sum_congr rfl fun j hj => ?_
  have hj' : j < 8 := Finset.mem_range.mp hj
  have e1 : (8 * (t.val / 8) + j) / 8 = t.val / 8 := by omega
  have e2 : (8 * (t.val / 8) + j) % 8 = j := by omega
  have e3 : fo (2048 * (t.val / 8) + b.val) = r := Fin.ext ((fo_val (by omega)).trans hr.symm)
  unfold term
  rw [e1, e2, e3]

/-! ## The three output arrays -/

theorem leftHalf_apply (X : Cert.Spec.Mat 8192 256) (r : Fin 8192) (q : Fin 128) (q' : Fin 256) (hq : q'.val = q.val) :
    Cert.Spec.leftHalf X (ix2 r q) = X (ix2 r q') := by
  show X (ix2 r ⟨q.val, Nat.lt_of_lt_of_le q.isLt (by decide)⟩) = X (ix2 r q')
  exact congrArg (fun z => X (ix2 r z)) (Fin.ext hq.symm)

theorem rightHalf_apply (X : Cert.Spec.Mat 8192 256) (r : Fin 8192) (q : Fin 128) (q' : Fin 256) (hq : q'.val = q.val + 128) :
    Cert.Spec.rightHalf X (ix2 r q) = X (ix2 r q') := by
  show X (ix2 r ⟨q.val + 128, Nat.add_lt_add_right q.isLt 128⟩) = X (ix2 r q')
  exact congrArg (fun z => X (ix2 r z)) (Fin.ext hq.symm)

theorem sample_apply (mean logdev eps : Cert.Spec.Mat 8192 128) (i : (⟨2, ![8192, 128]⟩ : Shape).Idx) :
    Cert.Spec.sample mean logdev eps i = mean i + eps i * Ideal.exp (logdev i) := rfl

/-- Where entry (b, q) of an output block of point t sits in its array: row 2048 (t / 8) + b, column q. -/
theorem emb3 (t : Fin cfg2.N) (b : Fin 2048) (q : Fin 128) (r : Fin 8192) (hr : r.val = 2048 * (t.val / 8) + b.val) :
    ((cfg2.win 3).blk t).view.emb (ix2 b q) = ix2 r q := by
  obtain ⟨-, -, -, -, -, -, e6, e7, -⟩ := idx_facts t
  funext a; apply Fin.ext
  match a with
  | ⟨0, _⟩ => show win2_3.index t (0 : Fin 2) * 2048 + 1 * b.val = r.val; omega
  | ⟨1, _⟩ => show win2_3.index t (1 : Fin 2) * 128 + 1 * q.val = q.val; omega

theorem emb4 (t : Fin cfg2.N) (b : Fin 2048) (q : Fin 128) (r : Fin 8192) (hr : r.val = 2048 * (t.val / 8) + b.val) :
    ((cfg2.win 4).blk t).view.emb (ix2 b q) = ix2 r q := by
  obtain ⟨-, -, -, -, -, -, -, -, e8, e9, -⟩ := idx_facts t
  funext a; apply Fin.ext
  match a with
  | ⟨0, _⟩ => show win2_4.index t (0 : Fin 2) * 2048 + 1 * b.val = r.val; omega
  | ⟨1, _⟩ => show win2_4.index t (1 : Fin 2) * 128 + 1 * q.val = q.val; omega

theorem emb5 (t : Fin cfg2.N) (b : Fin 2048) (q : Fin 128) (r : Fin 8192) (hr : r.val = 2048 * (t.val / 8) + b.val) :
    ((cfg2.win 5).blk t).view.emb (ix2 b q) = ix2 r q := by
  obtain ⟨-, -, -, -, -, -, -, -, -, -, e10, e11⟩ := idx_facts t
  funext a; apply Fin.ext
  match a with
  | ⟨0, _⟩ => show win2_5.index t (0 : Fin 2) * 2048 + 1 * b.val = r.val; omega
  | ⟨1, _⟩ => show win2_5.index t (1 : Fin 2) * 128 + 1 * q.val = q.val; omega

/-- The row of the arrays under entry b of point t's output blocks. -/
def rowOf (t : Fin cfg2.N) (b : Fin 2048) : Fin 8192 :=
  ⟨2048 * (t.val / 8) + b.val, by have := point_lt t; have := b.isLt; omega⟩

/-- The mean block a closing point writes, entry by entry. -/
theorem meanB_apply (c : Dev nD) (t : Fin cfg2.N) (h7 : t.val % 8 = 7) (b : Fin 2048) (q : Fin 128) :
    meanB V c t (ix2 b q) = Cert.Spec.leftHalf (prodM V c) (ix2 (rowOf t b) q) := by
  have hq := q.isLt
  unfold meanB
  rw [pay3_apply _ b q ⟨q.val, by omega⟩ rfl, leftHalf_apply _ _ q ⟨q.val, by omega⟩ rfl]
  exact acc_closing V c t h7 b _ (rowOf t b) rfl

/-- The log-deviation block a closing point writes, entry by entry. -/
theorem logdevB_apply (c : Dev nD) (t : Fin cfg2.N) (h7 : t.val % 8 = 7) (b : Fin 2048) (q : Fin 128) :
    logdevB V c t (ix2 b q) = Cert.Spec.rightHalf (prodM V c) (ix2 (rowOf t b) q) := by
  have hq := q.isLt
  unfold logdevB
  rw [pay4_apply _ b q ⟨q.val + 128, by omega⟩ rfl, rightHalf_apply _ _ q ⟨q.val + 128, by omega⟩ rfl]
  exact acc_closing V c t h7 b _ (rowOf t b) rfl

/-- The sample block a closing point writes, entry by entry. -/
theorem sampleB_apply (c : Dev nD) (t : Fin cfg2.N) (h7 : t.val % 8 = 7) (b : Fin 2048) (q : Fin 128) :
    sampleB V c t (ix2 b q)
      = Cert.Spec.sample (Cert.Spec.leftHalf (prodM V c)) (Cert.Spec.rightHalf (prodM V c)) (epsM V c) (ix2 (rowOf t b) q) := by
  have hm := meanB_apply V c t h7 b q
  have hl := logdevB_apply V c t h7 b q
  unfold meanB at hm
  unfold logdevB at hl
  unfold sampleB
  rw [pay5_apply, hm, hl, sample_apply, epsB_apply V c t b q (rowOf t b) rfl]

/-- WHAT A CLOSING POINT WRITES BACK is its block of the mean, of the log-deviation, of the sample. -/
theorem mean_flushed (c : Dev nD) (t : Fin cfg2.N) (hf : (cfg2.win 3).flush t = true) :
    (dat V c).flushed 3 t = ((cfg2.win 3).blk t).view.read (Elt Ideal) (Cert.Spec.leftHalf (prodM V c)) := by
  have h7 : t.val % 8 = 7 := (flush2_3 t).mp hf
  show (cfg2.win 3).cut (grid2.coords t) ((dat V c).after 3 t) = _
  rw [after_3]
  funext y
  obtain ⟨b, q, rfl⟩ : ∃ (b : Fin 2048) (q : Fin 128), y = ix2 b q := ⟨y 0, y 1, eq_ix2 y⟩
  show meanB V c t (ix2 b q) = Cert.Spec.leftHalf (prodM V c) (((cfg2.win 3).blk t).view.emb (ix2 b q))
  rw [emb3 t b q (rowOf t b) rfl]
  exact meanB_apply V c t h7 b q

theorem logdev_flushed (c : Dev nD) (t : Fin cfg2.N) (hf : (cfg2.win 4).flush t = true) :
    (dat V c).flushed 4 t = ((cfg2.win 4).blk t).view.read (Elt Ideal) (Cert.Spec.rightHalf (prodM V c)) := by
  have h7 : t.val % 8 = 7 := (flush2_4 t).mp hf
  show (cfg2.win 4).cut (grid2.coords t) ((dat V c).after 4 t) = _
  rw [after_4]
  funext y
  obtain ⟨b, q, rfl⟩ : ∃ (b : Fin 2048) (q : Fin 128), y = ix2 b q := ⟨y 0, y 1, eq_ix2 y⟩
  show logdevB V c t (ix2 b q) = Cert.Spec.rightHalf (prodM V c) (((cfg2.win 4).blk t).view.emb (ix2 b q))
  rw [emb4 t b q (rowOf t b) rfl]
  exact logdevB_apply V c t h7 b q

theorem sample_flushed (c : Dev nD) (t : Fin cfg2.N) (hf : (cfg2.win 5).flush t = true) :
    (dat V c).flushed 5 t = ((cfg2.win 5).blk t).view.read (Elt Ideal)
      (Cert.Spec.sample (Cert.Spec.leftHalf (prodM V c)) (Cert.Spec.rightHalf (prodM V c)) (epsM V c)) := by
  have h7 : t.val % 8 = 7 := (flush2_5 t).mp hf
  show (cfg2.win 5).cut (grid2.coords t) ((dat V c).after 5 t) = _
  rw [after_5]
  funext y
  obtain ⟨b, q, rfl⟩ : ∃ (b : Fin 2048) (q : Fin 128), y = ix2 b q := ⟨y 0, y 1, eq_ix2 y⟩
  show sampleB V c t (ix2 b q) = Cert.Spec.sample (Cert.Spec.leftHalf (prodM V c)) (Cert.Spec.rightHalf (prodM V c)) (epsM V c)
    (((cfg2.win 5).blk t).view.emb (ix2 b q))
  rw [emb5 t b q (rowOf t b) rfl]
  exact sampleB_apply V c t h7 b q

/-! ## From blocks to the arrays: the four closing points' row blocks fill the 8192 rows -/

/-- An index of an output array is in point t's block iff each coordinate is in the block's range on its axis. -/
theorem mem_blk3 (t : Fin cfg2.N) (i : S8192x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v18_0).slice (win2_3.rect t)).set ↔ _
  rw [View.set_slice_whole, Rect.mem_set_unit]
  exact Iff.rfl

theorem mem_blk4 (t : Fin cfg2.N) (i : S8192x128.Idx) :
    i ∈ ((cfg2.win 4).blk t).view.set ↔ ∀ a : Fin 2, win2_4.index t a * S2048x128.size a ≤ (i a).val ∧ (i a).val < win2_4.index t a * S2048x128.size a + S2048x128.size a := by
  show i ∈ ((View.whole main_v18_1).slice (win2_4.rect t)).set ↔ _
  rw [View.set_slice_whole, Rect.mem_set_unit]
  exact Iff.rfl

theorem mem_blk5 (t : Fin cfg2.N) (i : S8192x128.Idx) :
    i ∈ ((cfg2.win 5).blk t).view.set ↔ ∀ a : Fin 2, win2_5.index t a * S2048x128.size a ≤ (i a).val ∧ (i a).val < win2_5.index t a * S2048x128.size a + S2048x128.size a := by
  show i ∈ ((View.whole main_v18_2).slice (win2_5.rect t)).set ↔ _
  rw [View.set_slice_whole, Rect.mem_set_unit]
  exact Iff.rfl

/-- The closing point of the row block that holds row r. -/
theorem closing_point (r : ℕ) (hr : r < 8192) : ∃ t : Fin cfg2.N, t.val = 8 * (r / 2048) + 7 :=
  ⟨⟨8 * (r / 2048) + 7, lt_of_lt_of_eq (show 8 * (r / 2048) + 7 < 32 by omega) N_2.symm⟩, rfl⟩

theorem cover3 (i : S8192x128.Idx) : ∃ t : Fin cfg2.N, (cfg2.win 3).flush t = true ∧ i ∈ ((cfg2.win 3).blk t).view.set := by
  have hi0 : (i 0).val < 8192 := (i 0).isLt
  have hi1 : (i 1).val < 128 := (i 1).isLt
  obtain ⟨t, tv⟩ := closing_point (i 0).val hi0
  obtain ⟨-, -, -, -, -, -, e6, e7, -⟩ := idx_facts t
  refine ⟨t, (flush2_3 t).mpr (by omega), ?_⟩
  rw [mem_blk3]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 128 ≤ (i 1).val ∧ (i 1).val < win2_3.index t (1 : Fin 2) * 128 + 128; omega

theorem cover4 (i : S8192x128.Idx) : ∃ t : Fin cfg2.N, (cfg2.win 4).flush t = true ∧ i ∈ ((cfg2.win 4).blk t).view.set := by
  have hi0 : (i 0).val < 8192 := (i 0).isLt
  have hi1 : (i 1).val < 128 := (i 1).isLt
  obtain ⟨t, tv⟩ := closing_point (i 0).val hi0
  obtain ⟨-, -, -, -, -, -, -, -, e8, e9, -⟩ := idx_facts t
  refine ⟨t, (flush2_4 t).mpr (by omega), ?_⟩
  rw [mem_blk4]
  intro a
  match a with
  | ⟨0, _⟩ => show win2_4.index t (0 : Fin 2) * 2048 ≤ (i 0).val ∧ (i 0).val < win2_4.index t (0 : Fin 2) * 2048 + 2048; omega
  | ⟨1, _⟩ => show win2_4.index t (1 : Fin 2) * 128 ≤ (i 1).val ∧ (i 1).val < win2_4.index t (1 : Fin 2) * 128 + 128; omega

theorem cover5 (i : S8192x128.Idx) : ∃ t : Fin cfg2.N, (cfg2.win 5).flush t = true ∧ i ∈ ((cfg2.win 5).blk t).view.set := by
  have hi0 : (i 0).val < 8192 := (i 0).isLt
  have hi1 : (i 1).val < 128 := (i 1).isLt
  obtain ⟨t, tv⟩ := closing_point (i 0).val hi0
  obtain ⟨-, -, -, -, -, -, -, -, -, -, e10, e11⟩ := idx_facts t
  refine ⟨t, (flush2_5 t).mpr (by omega), ?_⟩
  rw [mem_blk5]
  intro a
  match a with
  | ⟨0, _⟩ => show win2_5.index t (0 : Fin 2) * 2048 ≤ (i 0).val ∧ (i 0).val < win2_5.index t (0 : Fin 2) * 2048 + 2048; omega
  | ⟨1, _⟩ => show win2_5.index t (1 : Fin 2) * 128 ≤ (i 1).val ∧ (i 1).val < win2_5.index t (1 : Fin 2) * 128 + 128; omega

theorem mean_eq (V : (c : Dev nD) → (b : Ref sig .tc) → Buf (Elt Ideal) ((c : Thread nD τ).loc b)) (c : Dev nD) :
    ((dat (F := Ideal) V c).arrAt 3 cfg2.N : Cert.Spec.Mat 8192 128)
      = Cert.Spec.leftHalf (Cert.Spec.mmul (V c main_v11 : Cert.Spec.Mat 8192 8192) (V c main_v17 : Cert.Spec.Mat 8192 256)) :=
  (dat V c).arrAt_eq_of_cover 3 (Cert.Spec.leftHalf (prodM V c)) (fun t hf => mean_flushed V c t hf) cover3

theorem logdev_eq (V : (c : Dev nD) → (b : Ref sig .tc) → Buf (Elt Ideal) ((c : Thread nD τ).loc b)) (c : Dev nD) :
    ((dat (F := Ideal) V c).arrAt 4 cfg2.N : Cert.Spec.Mat 8192 128)
      = Cert.Spec.rightHalf (Cert.Spec.mmul (V c main_v11 : Cert.Spec.Mat 8192 8192) (V c main_v17 : Cert.Spec.Mat 8192 256)) :=
  (dat V c).arrAt_eq_of_cover 4 (Cert.Spec.rightHalf (prodM V c)) (fun t hf => logdev_flushed V c t hf) cover4

theorem sample_eq (V : (c : Dev nD) → (b : Ref sig .tc) → Buf (Elt Ideal) ((c : Thread nD τ).loc b)) (c : Dev nD) :
    ((dat (F := Ideal) V c).arrAt 5 cfg2.N : Cert.Spec.Mat 8192 128)
      = Cert.Spec.sample (Cert.Spec.leftHalf (Cert.Spec.mmul (V c main_v11 : Cert.Spec.Mat 8192 8192) (V c main_v17 : Cert.Spec.Mat 8192 256)))
          (Cert.Spec.rightHalf (Cert.Spec.mmul (V c main_v11 : Cert.Spec.Mat 8192 8192) (V c main_v17 : Cert.Spec.Mat 8192 256))) (V c main_arg7 : Cert.Spec.Mat 8192 128) :=
  (dat V c).arrAt_eq_of_cover 5 (Cert.Spec.sample (Cert.Spec.leftHalf (prodM V c)) (Cert.Spec.rightHalf (prodM V c)) (epsM V c))
    (fun t hf => sample_flushed V c t hf) cover5

end Cert.KernelIdeal.Head

end
-- ==== Proof.KIDecValue.lean ====
/-
  The Gram region's output array after its sixteen blocks are written back: the whole Gram matrix.

  Point t = 4 i + j holds rows 2048 i … of z and rows 2048 j … of z, and writes Σ_d z(2048 i + a, d) · z(2048 j + b, d)
  to entry (a, b) of its output block, which is entry (2048 i + a, 2048 j + b) of the array.  The sixteen blocks tile
  the 8192 × 8192 array, so it ends at z · zᵀ entry by entry.
-/
import proofs.«423324_j76630806495674_3_alg».proof.Proof.KIDecData
import proofs.«423324_j76630806495674_3_alg».proof.Proof.Spec
import proofs.«423324_j76630806495674_3_alg».proof.Proof.SpecGram
import Idealize.ShloMosaic.Lib.Pipeline.Value
import Idealize.ShloMosaic.PureOps.Ideal.Laws

set_option maxRecDepth 16384

noncomputable section

/-! ## A product with a transpose, read at an index

For a contraction of an M×K matrix with an N×K matrix along their second axes (no batch axes), the entry at row r and
column c is the sum over k of A[r, k] · B[c, k]. -/

namespace TransDot

open Idealize.ShloMosaic Idealize.ShloMosaic.ValueIdx

variable {M K N : Nat} {φ₁ φ₂ : FTy}

/-- The axis lists of a product with a transpose. -/
structure IsTrans (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable (d : DotDims ⟨2, ![M, K]⟩ ⟨2, ![N, K]⟩ ⟨2, ![M, N]⟩) (hd : IsTrans d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row r, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row c, column the contraction coordinate. -/
theorem rhsIdx_eq (r : Fin M) (c : Fin N) (k : Fin K) :
    d.rhsIdx (ix2 r c) ((contrEquiv1 d K (contr_rank d hd) (contr_size d hd)).symm k) = ix2 c k := by
  funext a
  apply Fin.ext
  match a with
  | ⟨0, _⟩ =>
    show (d.rhsIdx (ix2 r c) _ (0 : Fin 2)).val = c.val
    unfold DotDims.rhsIdx
    have hb : (0 : Fin 2) ∉ d.rhsBatch := by rw [hd.rb]; exact List.not_mem_nil
    have hn : (0 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])
  | ⟨1, _⟩ =>
    show (d.rhsIdx (ix2 r c) _ (1 : Fin 2)).val = k.val
    rw [d.rhsIdx_val_of_single hd.rc]
    exact contrEquiv1_symm_val d K (contr_rank d hd) (contr_size d hd) k

/-- The contraction sum, re-indexed by the shared axis's coordinate. -/
theorem sum_eq (A : (⟨2, ![M, K]⟩ : Shape).Idx → EReal) (B : (⟨2, ![N, K]⟩ : Shape).Idx → EReal) (r : Fin M) (c : Fin N) :
    (∑ q : d.contr.Idx, A (d.lhsIdx (ix2 r c) q) * B (d.rhsIdx (ix2 r c) q)) = ∑ k : Fin K, A (ix2 r k) * B (ix2 c k) := by
  rw [← Equiv.sum_comp (contrEquiv1 d K (contr_rank d hd) (contr_size d hd)).symm]
  exact Finset.sum_congr rfl fun k _ => by rw [lhsIdx_eq d hd r c k, rhsIdx_eq d hd r c k]

/-- The matrix product into the zero accumulator, at an entry. -/
theorem matmul_zero_apply (prec : Option ContractPrecision) (A : FVec Ideal ⟨2, ![M, K]⟩ φ₁) (B : FVec Ideal ⟨2, ![N, K]⟩ φ₂)
    (r : Fin M) (c : Fin N) :
    FloatOps.matmul d prec A B (constant ⟨2, ![M, N]⟩ .f32 0x00000000#32) (ix2 r c) = ∑ k : Fin K, A (ix2 r k) * B (ix2 c k) := by
  rw [Ideal.matmul_constant_zero_apply]
  exact sum_eq d hd A B r c

end TransDot

namespace Cert.KernelIdeal.Dec

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The block product contracts the columns of both operands. -/
theorem transDec : TransDot.IsTrans dot_S2048x128_S2048x128_S2048x2048_1_1_0_0_n_n := ⟨rfl, rfl, rfl, rfl, rfl, rfl⟩

/-- One output block, entry by entry: the inner product of a row of the first block with a row of the second. -/
theorem pay_apply (x : Vec Ideal S2048x128 .f32) (y : Vec Ideal S2048x128 .f32) (a : Fin 2048) (b : Fin 2048) :
    k3_pay1 (F := Ideal) x y (ix2 a b) = ∑ k : Fin 128, x (ix2 a k) * y (ix2 b k) := by
  unfold k3_pay1
  simp only [shapeCast_self]
  exact TransDot.matmul_zero_apply (φ₁ := .f32) (φ₂ := .f32) dot_S2048x128_S2048x128_S2048x2048_1_1_0_0_n_n transDec (some .fp32) x y a b

/-- The index maps over the sixteen points: the first block of z moves with the output's row block, the second with
    its column block, each spans all columns of z, and the output's block indices are below four. -/
theorem idx_facts : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0
    ∧ win3_2.index t (0 : Fin 2) ≤ 3
    ∧ win3_2.index t (1 : Fin 2) ≤ 3 :=
  (by decide +kernel : ∀ t : Fin grid3.N, _)

/-- Every block of the array is some point's. -/
theorem idx_onto : ∀ (q0 q1 : Fin 4), ∃ t : Fin cfg3.N, win3_2.index t = ![q0.val, q1.val] :=
  (by decide +kernel : ∀ (q0 q1 : Fin 4), ∃ t : Fin grid3.N, win3_2.index t = ![q0.val, q1.val])

section Blocks

variable (V : (c : Dev nD) → (b : Ref sig .tc) → Buf (Elt Ideal) ((c : Thread nD τ).loc b))

/-- The Gram matrix the array ends at. -/
abbrev G (c : Dev nD) : Cert.Spec.Mat 8192 8192 := Cert.Spec.gramM (V c main_v18_2 : Cert.Spec.Mat 8192 128)

/-- Entry (a, b) of the block written at point t is the Gram matrix's entry at that block entry's place in the array:
    row 2048 i + a, column 2048 j + b, with (i, j) the point's block. -/
theorem blk_apply (c : Dev nD) (t : Fin cfg3.N) (a : Fin 2048) (b : Fin 2048) :
    outB V c t (ix2 a b) = G V c (((cfg3.win 2).blk t).view.emb (ix2 a b)) := by
  obtain ⟨e0, e1, e2, e3, e4, e5⟩ := idx_facts t
  have ha : a.val < 2048 := a.isLt
  have hb : b.val < 2048 := b.isLt
  have hemb : ((cfg3.win 2).blk t).view.emb (ix2 a b)
      = ix2 (⟨win3_2.index t (0 : Fin 2) * 2048 + a.val, by omega⟩ : Fin 8192) (⟨win3_2.index t (1 : Fin 2) * 2048 + b.val, by omega⟩ : Fin 8192) := by
    funext p; apply Fin.ext
    match p with
    | ⟨0, _⟩ => show win3_2.index t (0 : Fin 2) * 2048 + 1 * a.val = win3_2.index t (0 : Fin 2) * 2048 + a.val; omega
    | ⟨1, _⟩ => show win3_2.index t (1 : Fin 2) * 2048 + 1 * b.val = win3_2.index t (1 : Fin 2) * 2048 + b.val; omega
  rw [hemb]
  unfold outB
  refine (pay_apply (rowB V c t) (colB V c t) a b).trans ?_
  refine Eq.trans ?_ (Cert.Spec.gramM_apply (V c main_v18_2 : Cert.Spec.Mat 8192 128) _ _).symm
  refine Finset.sum_congr rfl fun k _ => ?_
  have hx : rowB V c t (ix2 a k) = (V c main_v18_2 : Cert.Spec.Mat 8192 128) (ix2 (⟨win3_2.index t (0 : Fin 2) * 2048 + a.val, by omega⟩ : Fin 8192) k) := by
    show V c main_v18_2 (((cfg3.win 0).blk t).view.emb (ix2 a k)) = _
    congr 1
    funext p; apply Fin.ext
    match p with
    | ⟨0, _⟩ => show win3_0.index t (0 : Fin 2) * 2048 + 1 * a.val = win3_2.index t (0 : Fin 2) * 2048 + a.val; omega
    | ⟨1, _⟩ => show win3_0.index t (1 : Fin 2) * 128 + 1 * k.val = k.val; omega
  have hy : colB V c t (ix2 b k) = (V c main_v18_2 : Cert.Spec.Mat 8192 128) (ix2 (⟨win3_2.index t (1 : Fin 2) * 2048 + b.val, by omega⟩ : Fin 8192) k) := by
    show V c main_v18_2 (((cfg3.win 1).blk t).view.emb (ix2 b k)) = _
    congr 1
    funext p; apply Fin.ext
    match p with
    | ⟨0, _⟩ => show win3_1.index t (0 : Fin 2) * 2048 + 1 * b.val = win3_2.index t (1 : Fin 2) * 2048 + b.val; omega
    | ⟨1, _⟩ => show win3_1.index t (1 : Fin 2) * 128 + 1 * k.val = k.val; omega
  rw [hx, hy]

/-- What point t writes back is block t of the Gram matrix. -/
theorem flushed_eq (c : Dev nD) (t : Fin cfg3.N) :
    (dat (F := Ideal) V c).flushed 2 t = ((cfg3.win 2).blk t).view.read (Elt Ideal) (G V c) := by
  show (cfg3.win 2).cut (grid3.coords t) ((dat V c).after 2 t) = _
  rw [after_2]
  funext y
  obtain ⟨a, b, rfl⟩ : ∃ (a : Fin 2048) (b : Fin 2048), y = ix2 a b := ⟨y 0, y 1, eq_ix2 y⟩
  exact blk_apply V c t a b

end Blocks

/-- An index of the array is in point t's block iff each coordinate is in the block's range on its axis. -/
theorem mem_blk (t : Fin cfg3.N) (i : S8192x8192.Idx) :
    i ∈ ((cfg3.win 2).blk t).view.set ↔ ∀ p : Fin 2, win3_2.index t p * S2048x2048.size p ≤ (i p).val ∧ (i p).val < win3_2.index t p * S2048x2048.size p + S2048x2048.size p := by
  show i ∈ ((View.whole main_v19).slice (win3_2.rect t)).set ↔ _
  rw [View.set_slice_whole, Rect.mem_set_unit]
  exact Iff.rfl

/-- Every entry of the array is in the block of the point that holds its row and its column: entry (r, s) is in
    block (r / 2048, s / 2048). -/
theorem cover (i : S8192x8192.Idx) : ∃ t : Fin cfg3.N, (cfg3.win 2).flush t = true ∧ i ∈ ((cfg3.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win3_2.index t (0 : Fin 2) = (i 0).val / 2048 := congrFun ht 0
  have q1 : win3_2.index t (1 : Fin 2) = (i 1).val / 2048 := congrFun ht 1
  refine ⟨t, flush3_2 t, ?_⟩
  rw [mem_blk]
  intro p
  match p with
  | ⟨0, _⟩ => show win3_2.index t (0 : Fin 2) * 2048 ≤ (i 0).val ∧ (i 0).val < win3_2.index t (0 : Fin 2) * 2048 + 2048; omega
  | ⟨1, _⟩ => show win3_2.index t (1 : Fin 2) * 2048 ≤ (i 1).val ∧ (i 1).val < win3_2.index t (1 : Fin 2) * 2048 + 2048; omega

/-- Block (i, j) written back is rows i against rows j: the array ends at z · zᵀ. -/
theorem out_eq (V : (c : Dev nD) → (b : Ref sig .tc) → Buf (Elt Ideal) ((c : Thread nD τ).loc b)) (c : Dev nD) :
    ((dat (F := Ideal) V c).arrAt 2 cfg3.N : Cert.Spec.Mat 8192 8192) = Cert.Spec.gramM (V c main_v18_2 : Cert.Spec.Mat 8192 128) :=
  (dat (F := Ideal) V c).arrAt_eq_of_cover 2 (G V c) (fun t _ => flushed_eq V c t) cover

end Cert.KernelIdeal.Dec

end
-- ==== Proof.KIFinal.lean ====
/-
  The dense side's three results as functions of the arguments: the last step's contents, read back step by step
  through the four regions' output arrays and the host operations between them.
-/
import proofs.«423324_j76630806495674_3_alg».proof.Proof.KIChain
import proofs.«423324_j76630806495674_3_alg».proof.Proof.KIHostValue
import proofs.«423324_j76630806495674_3_alg».proof.Proof.KIProjValue
import proofs.«423324_j76630806495674_3_alg».proof.Proof.KIConvValue
import proofs.«423324_j76630806495674_3_alg».proof.Proof.KIHeadValue
import proofs.«423324_j76630806495674_3_alg».proof.Proof.KIDecValue
import proofs.«423324_j76630806495674_3_alg».proof.Proof.SpecGram

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen Cert.KernelIdeal.Chain
open Cert.Spec

variable (m : (ℓ : Loc nD τ sig) → Buf (Elt Ideal) ℓ) (c : Dev nD)

/-- The dense adjacency matrix reaches every region that reads it unchanged. -/
theorem adj_at (hs : InRange ((m ((c : Thread nD τ).loc main_arg2)) : Wd 262144)) (hd : InRange ((m ((c : Thread nD τ).loc main_arg3)) : Wd 262144)) :
    (W4 m c main_v11 : Mat 8192 8192) = dense ((m ((c : Thread nD τ).loc main_arg1)) : Vc 262144) (m ((c : Thread nD τ).loc main_arg2)) (m ((c : Thread nD τ).loc main_arg3)) :=
  ((W4_of m c main_v11 (by decide)).trans <| (W3_of m c main_v11 (by decide)).trans <| (W2_of m c main_v11 (by decide))).trans (adj_eq m c hs hd)

theorem adj16_at (hs : InRange ((m ((c : Thread nD τ).loc main_arg2)) : Wd 262144)) (hd : InRange ((m ((c : Thread nD τ).loc main_arg3)) : Wd 262144)) :
    (W3 m c main_v12 : Mat 8192 8192) = dense ((m ((c : Thread nD τ).loc main_arg1)) : Vc 262144) (m ((c : Thread nD τ).loc main_arg2)) (m ((c : Thread nD τ).loc main_arg3)) :=
  ((W3_of m c main_v12 (by decide)).trans (W2_of m c main_v12 (by decide))).trans ((adj16_eq m c).trans (adj_eq m c hs hd))

/-- The first product: x · w1. -/
theorem feat_at : (W3 m c main_v15 : Mat 8192 256) = mmul ((m ((c : Thread nD τ).loc main_arg0)) : Mat 8192 512) ((m ((c : Thread nD τ).loc main_arg4)) : Mat 512 256) := by
  have h1 : (W3 m c main_v15 : Mat 8192 256) = (Proj.dat (F := Ideal) (E1 m) c).arrAt 2 cfg0.N :=
    (W3_of m c main_v15 (by decide)).trans (W2_out m c)
  rw [h1, Proj.out_eq (E1 m) c]
  show mmul (W1 m c main_v13 : Mat 8192 512) (W1 m c main_v14 : Mat 512 256) = _
  rw [x16_eq m c, w16_eq m c]

/-- The first graph layer times the two weight matrices side by side. -/
theorem layer_at (hs : InRange ((m ((c : Thread nD τ).loc main_arg2)) : Wd 262144)) (hd : InRange ((m ((c : Thread nD τ).loc main_arg3)) : Wd 262144)) :
    (W4 m c main_v17 : Mat 8192 256)
      = mmul (relu (mmul (dense ((m ((c : Thread nD τ).loc main_arg1)) : Vc 262144) (m ((c : Thread nD τ).loc main_arg2)) (m ((c : Thread nD τ).loc main_arg3))) (mmul ((m ((c : Thread nD τ).loc main_arg0)) : Mat 8192 512) ((m ((c : Thread nD τ).loc main_arg4)) : Mat 512 256))))
          (wcat ((m ((c : Thread nD τ).loc main_arg5)) : Mat 256 128) ((m ((c : Thread nD τ).loc main_arg6)) : Mat 256 128)) := by
  rw [show (W4 m c main_v17 : Mat 8192 256) = (Conv.dat (F := Ideal) (E3 m) c).arrAt 3 cfg1.N from W4_out m c, Conv.out_eq (E3 m) c]
  show mmul (relu (mmul (W3 m c main_v12 : Mat 8192 8192) (W3 m c main_v15 : Mat 8192 256))) (W3 m c main_v16 : Mat 256 256) = _
  rw [adj16_at m c hs hd, feat_at m c, wcat_eq m c]

/-- Both heads at once. -/
theorem heads_at (hs : InRange ((m ((c : Thread nD τ).loc main_arg2)) : Wd 262144)) (hd : InRange ((m ((c : Thread nD τ).loc main_arg3)) : Wd 262144)) :
    mmul (W4 m c main_v11 : Mat 8192 8192) (W4 m c main_v17 : Mat 8192 256)
      = headsD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [adj_at m c hs hd, layer_at m c hs hd]; rfl

theorem mean_at (hs : InRange ((m ((c : Thread nD τ).loc main_arg2)) : Wd 262144)) (hd : InRange ((m ((c : Thread nD τ).loc main_arg3)) : Wd 262144)) :
    (W7 m c main_v18_0 : Mat 8192 128) = meanD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h1 : (W7 m c main_v18_0 : Mat 8192 128) = (Head.dat (F := Ideal) (E4 m) c).arrAt 3 cfg2.N :=
    (W7_of m c main_v18_0 (by decide)).trans <| (W6_of m c main_v18_0 (by decide)).trans (W5_mean m c)
  rw [h1, Head.mean_eq (E4 m) c]
  show leftHalf (mmul (W4 m c main_v11 : Mat 8192 8192) (W4 m c main_v17 : Mat 8192 256)) = _
  rw [heads_at m c hs hd]; rfl

theorem logdev_at (hs : InRange ((m ((c : Thread nD τ).loc main_arg2)) : Wd 262144)) (hd : InRange ((m ((c : Thread nD τ).loc main_arg3)) : Wd 262144)) :
    (W7 m c main_v18_1 : Mat 8192 128) = logdevD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h1 : (W7 m c main_v18_1 : Mat 8192 128) = (Head.dat (F := Ideal) (E4 m) c).arrAt 4 cfg2.N :=
    (W7_of m c main_v18_1 (by decide)).trans <| (W6_of m c main_v18_1 (by decide)).trans (W5_logdev m c)
  rw [h1, Head.logdev_eq (E4 m) c]
  show rightHalf (mmul (W4 m c main_v11 : Mat 8192 8192) (W4 m c main_v17 : Mat 8192 256)) = _
  rw [heads_at m c hs hd]; rfl

/-- The sample. -/
theorem sample_at (hs : InRange ((m ((c : Thread nD τ).loc main_arg2)) : Wd 262144)) (hd : InRange ((m ((c : Thread nD τ).loc main_arg3)) : Wd 262144)) :
    (W5 m c main_v18_2 : Mat 8192 128)
      = sample (meanD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
          (logdevD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) ((m ((c : Thread nD τ).loc main_arg7)) : Mat 8192 128) := by
  rw [show (W5 m c main_v18_2 : Mat 8192 128) = (Head.dat (F := Ideal) (E4 m) c).arrAt 5 cfg2.N from W5_sample m c, Head.sample_eq (E4 m) c]
  show sample (leftHalf (mmul (W4 m c main_v11 : Mat 8192 8192) (W4 m c main_v17 : Mat 8192 256)))
      (rightHalf (mmul (W4 m c main_v11 : Mat 8192 8192) (W4 m c main_v17 : Mat 8192 256))) (W4 m c main_arg7 : Mat 8192 128) = _
  rw [heads_at m c hs hd,
    show (W4 m c main_arg7 : Mat 8192 128) = (m ((c : Thread nD τ).loc main_arg7)) from
      (W4_of m c main_arg7 (by decide)).trans <| (W3_of m c main_arg7 (by decide)).trans <| (W2_of m c main_arg7 (by decide)).trans (W1_of m c main_arg7 (by decide))]
  rfl

/-- The Gram matrix, flat. -/
theorem recon_at (hs : InRange ((m ((c : Thread nD τ).loc main_arg2)) : Wd 262144)) (hd : InRange ((m ((c : Thread nD τ).loc main_arg3)) : Wd 262144)) :
    (W7 m c main_v20 : Vc 67108864) = reconD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  rw [flat_eq m c i]
  rw [show (W6 m c main_v19 : Mat 8192 8192) = (Dec.dat (F := Ideal) (E5 m) c).arrAt 2 cfg3.N from W6_out m c, Dec.out_eq (E5 m) c]
  show gramM (W5 m c main_v18_2 : Mat 8192 128) _ = _
  rw [sample_at m c hs hd]
  exact (gram_eq _ i).symm

end Cert.KernelIdeal.Final

end
-- ==== Proof.RefRun.lean ====
/-
  The reference's run and its stages read at an index, gathered for the modules that state the reference's value.
-/
import proofs.«423324_j76630806495674_3_alg».proof.Proof.Gen.ReferenceIdeal.Run
import proofs.«423324_j76630806495674_3_alg».proof.Proof.Gen.ReferenceIdeal.Read
-- ==== Proof.RefValue.lean ====
/-
  The reference program's three results as the edge-by-edge functions of the specification.

  Stage by stage: a plain dot product is the matrix product; the source words, which name nodes, pass the wrap-around
  select unchanged; a gather of rows weighted by the edge values and scatter-added by destination is the edge-by-edge
  aggregation; a maximum with zero is the rectifier; mean + eps · exp(logdev) is the sample; and the product of the
  samples with their transpose, laid out flat, is the Gram matrix.
-/
import proofs.«423324_j76630806495674_3_alg».proof.Proof.RefRun
import proofs.«423324_j76630806495674_3_alg».proof.Proof.Spec
import proofs.«423324_j76630806495674_3_alg».proof.Proof.LibPlainDot

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open Cert.ReferenceIdeal.Read
open Cert.Spec (Mat Vc Wd mmul relu spmm rowOf sample gram layerS meanS logdevS reconS InRange)

/-! ## The row gather -/

section Gather
variable {α : Type}

/-- The dimension numbers of a row gather: operand N × C, start words E × 1, result E × C. -/
abbrev rowG (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The start word a result index reads: the one of its edge. -/
theorem rowG_siIdx {N C E : Nat}
    (wf : GatherDims.WF ⟨2, ![N, C]⟩ ⟨2, ![E, 1]⟩ ⟨2, ![E, C]⟩ [1] [0] [] [0] [] 1 ![1, C])
    (j : (⟨2, ![E, C]⟩ : Shape).Idx) :
    (rowG N C E wf).siIdx j ⟨List.idxOf (0 : Fin 2) (rowG N C E wf).startIndexMap,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

/-- THE ROW GATHER READ AT (e, q): the operand at the row the e-th word names, column q. -/
theorem rowG_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowG N C E wf) x idx j
      = x (ix2 ⟨min (idx (ix2 (j 0) ⟨0, Nat.one_pos⟩)).toInt.toNat (N - 1), by omega⟩ (j 1)) := by
  unfold Host.gather
  congr 1
  funext a
  refine Fin.ext ?_
  match a with
  | ⟨0, _⟩ =>
    show (rowG N C E wf).start j idx 0 + (rowG N C E wf).batchCoord j 0 + (rowG N C E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowG N C E wf).startIndexMap from List.mem_singleton.mpr rfl), rowG_siIdx wf j]
    rfl
  | ⟨1, _⟩ =>
    show (rowG N C E wf).start j idx 1 + (rowG N C E wf).batchCoord j 1 + (rowG N C E wf).offCoord j 1 = _
    rw [GatherDims.batchCoord_eq_zero _ _ _ List.not_mem_nil]
    unfold GatherDims.start
    rw [dif_neg (show (1 : Fin 2) ∉ (rowG N C E wf).startIndexMap from fun h => absurd (congrArg Fin.val (List.mem_singleton.mp h)) Nat.one_ne_zero)]
    unfold GatherDims.offCoord
    rw [dif_pos (show (1 : Fin 2) ∈ (rowG N C E wf).sKept from (GatherDims.mem_sKept _ _).mpr
      ⟨fun h => absurd (congrArg Fin.val (List.mem_singleton.mp h)) Nat.one_ne_zero, List.not_mem_nil⟩)]
    simp only [Nat.zero_add]
    rfl

/-- The same with the row named: any row whose number is the clamped word. -/
theorem rowG_apply_row {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) (r : Fin N)
    (hr : r.val = min (idx (ix2 (j 0) ⟨0, Nat.one_pos⟩)).toInt.toNat (N - 1)) :
    Host.gather (rowG N C E wf) x idx j = x (ix2 r (j 1)) := by
  have hrow : (⟨min (idx (ix2 (j 0) ⟨0, Nat.one_pos⟩)).toInt.toNat (N - 1), by omega⟩ : Fin N) = r := Fin.ext hr.symm
  rw [rowG_apply hN wf x idx j, hrow]

end Gather

/-! ## The row scatter-add -/

section Scatter

/-- The dimension numbers of a row scatter: operand N × C, scatter words E × 1, updates E × C. -/
abbrev rowS (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)
  (j : (⟨2, ![E, C]⟩ : Shape).Idx) (idx : IVec ⟨2, ![E, 1]⟩ w)

/-- The scatter word an update index reads: the one of its edge. -/
theorem rowS_siIdx :
    (rowS N C E wf).siIdx j ⟨List.idxOf (0 : Fin 2) (rowS N C E wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem rowS_mem_sKept (a : Fin 2) : a ∈ (rowS N C E wf).sKept ↔ a ≠ 0 := by
  simp [ScatterDims.sKept, Shape.kept, List.mem_filter, List.mem_finRange]

/-- On the row axis the window starts at the word, read signed… -/
theorem rowS_start0 : (rowS N C E wf).start j idx 0 = (idx (ix2 (j 0) ⟨0, Nat.one_pos⟩)).toInt := by
  unfold ScatterDims.start
  rw [dif_pos (show (0 : Fin 2) ∈ (rowS N C E wf).scatterDimsToOperandDims from List.mem_singleton.mpr rfl),
    rowS_siIdx wf j]
  rfl

/-- … and on the column axis at zero. -/
theorem rowS_start1 : (rowS N C E wf).start j idx 1 = 0 := by
  unfold ScatterDims.start
  rw [dif_neg (show (1 : Fin 2) ∉ (rowS N C E wf).scatterDimsToOperandDims from
    fun h => absurd (congrArg Fin.val (List.mem_singleton.mp h)) Nat.one_ne_zero)]

/-- The window has one row … -/
theorem rowS_window0 : (rowS N C E wf).window j 0 = 0 := by
  unfold ScatterDims.window
  rw [dif_neg (fun h => ((rowS_mem_sKept wf 0).mp h) rfl)]

/-- … and the update's column. -/
theorem rowS_window1 : (rowS N C E wf).window j 1 = (j 1).val := by
  unfold ScatterDims.window
  rw [dif_pos ((rowS_mem_sKept wf 1).mpr (fun h => absurd (congrArg Fin.val h) Nat.one_ne_zero))]
  rfl

/-- WHERE AN UPDATE LANDS: update (e, q') lands at (n, q) exactly when the e-th word, read signed, is n and q' = q. -/
theorem rowS_resultIdx_eq_some (i : (⟨2, ![N, C]⟩ : Shape).Idx) :
    (rowS N C E wf).resultIdx? j idx = some i
      ↔ (idx (ix2 (j 0) ⟨0, Nat.one_pos⟩)).toInt = ((i 0).val : Int) ∧ j 1 = i 1 := by
  have hi0 : (i 0).val < N := idx2_lt0 i
  have hj1 : (j 1).val < C := idx2_lt1 j
  unfold ScatterDims.resultIdx?
  constructor
  · intro h
    split at h
    · rename_i hall
      have hi := Option.some.inj h
      have h0 : ((rowS N C E wf).start j idx 0 + (rowS N C E wf).window j 0).toNat = (i 0).val :=
        congrArg (fun f : (⟨2, ![N, C]⟩ : Shape).Idx => (f 0).val) hi
      have h1 : ((rowS N C E wf).start j idx 1 + (rowS N C E wf).window j 1).toNat = (i 1).val :=
        congrArg (fun f : (⟨2, ![N, C]⟩ : Shape).Idx => (f 1).val) hi
      have a0 := (hall 0).1
      rw [rowS_start0, rowS_window0] at h0 a0
      rw [rowS_start1, rowS_window1] at h1
      exact ⟨by omega, Fin.ext (by omega)⟩
    · exact absurd h (by simp)
  · rintro ⟨h0, h1⟩
    have h1v : (j 1).val = (i 1).val := congrArg Fin.val h1
    have hall : ∀ a, 0 ≤ (rowS N C E wf).start j idx a + (rowS N C E wf).window j a
        ∧ (rowS N C E wf).start j idx a + (rowS N C E wf).window j a < (⟨2, ![N, C]⟩ : Shape).size a := by
      intro a
      match a with
      | ⟨0, _⟩ =>
        show 0 ≤ (rowS N C E wf).start j idx 0 + (rowS N C E wf).window j 0
          ∧ (rowS N C E wf).start j idx 0 + (rowS N C E wf).window j 0 < (N : Int)
        rw [rowS_start0, rowS_window0]; omega
      | ⟨1, _⟩ =>
        show 0 ≤ (rowS N C E wf).start j idx 1 + (rowS N C E wf).window j 1
          ∧ (rowS N C E wf).start j idx 1 + (rowS N C E wf).window j 1 < (C : Int)
        rw [rowS_start1, rowS_window1]; omega
    rw [dif_pos hall]
    congr 1
    funext a
    refine Fin.ext ?_
    match a with
    | ⟨0, _⟩ =>
      show ((rowS N C E wf).start j idx 0 + (rowS N C E wf).window j 0).toNat = (i 0).val
      rw [rowS_start0, rowS_window0]; omega
    | ⟨1, _⟩ =>
      show ((rowS N C E wf).start j idx 1 + (rowS N C E wf).window j 1).toNat = (i 1).val
      rw [rowS_start1, rowS_window1]; omega

/-- THE ROW SCATTER-ADD READ AT (n, q): the operand there plus, over the edges whose word is n, the update's entry in
    column q. -/
theorem rowS_scatterAdd_apply {φ : FTy} (x : FVec Ideal ⟨2, ![N, C]⟩ φ) (upd : FVec Ideal ⟨2, ![E, C]⟩ φ)
    (n : Fin N) (q : Fin C) :
    Host.scatterAdd (rowS N C E wf) x idx upd (ix2 n q)
      = x (ix2 n q) + ∑ e : Fin E,
          if (idx (ix2 e ⟨0, Nat.one_pos⟩)).toInt = (n.val : Int) then upd (ix2 e q) else 0 := by
  show Ideal.hostScatterAdd (rowS N C E wf) x idx upd (ix2 n q) = _
  unfold Ideal.hostScatterAdd
  congr 1
  rw [Finset.sum_filter, sum_idx2]
  refine Finset.sum_congr rfl fun e _ => ?_
  have hP : ∀ q' : Fin C, ((rowS N C E wf).resultIdx? (ix2 e q') idx = some (ix2 n q))
      ↔ ((idx (ix2 e ⟨0, Nat.one_pos⟩)).toInt = (n.val : Int) ∧ q' = q) :=
    fun q' => rowS_resultIdx_eq_some wf (ix2 e q') idx (ix2 n q)
  simp only [hP]
  by_cases hA : (idx (ix2 e ⟨0, Nat.one_pos⟩)).toInt = (n.val : Int)
  · simp only [hA, true_and, if_true]
    exact Finset.sum_ite_eq' Finset.univ q (fun q' => upd (ix2 e q')) |>.trans (if_pos (Finset.mem_univ q))
  · simp only [hA, false_and, if_false]
    exact Finset.sum_const_zero

end Scatter

/-! ## Broadcasts read at an index -/

section Bcast
variable {α : Type}

/-- A vector over the edges as a one-column matrix. -/
theorem colB_apply (x : S262144.Idx → α) (i : S262144x1.Idx) :
    broadcastInDim S262144x1 ![0] bcast_S262144_S262144x1_0 x i = x (ix1 (i 0)) :=
  broadcastInDim_apply _ bcast_S262144_S262144x1_0 x i (ix1 (i 0)) (fun a => match a with
    | ⟨0, _⟩ => by show (i 0).val = if (262144 : Nat) = 1 then 0 else (i 0).val; rw [if_neg (by decide)])

/-- A one-column matrix repeated along the columns. -/
theorem rowB_apply {C : Nat} (hb : S262144x1.BroadcastsInDim ⟨2, ![262144, C]⟩ ![0, 1]) (y : S262144x1.Idx → α)
    (i : (⟨2, ![262144, C]⟩ : Shape).Idx) :
    broadcastInDim ⟨2, ![262144, C]⟩ ![0, 1] hb y i = y (ix2 (i 0) ⟨0, Nat.one_pos⟩) :=
  broadcastInDim_apply _ hb y i (ix2 (i 0) ⟨0, Nat.one_pos⟩) (fun a => match a with
    | ⟨0, _⟩ => by show (i 0).val = if (262144 : Nat) = 1 then 0 else (i 0).val; rw [if_neg (by decide)]
    | ⟨1, _⟩ => by show 0 = if (1 : Nat) = 1 then 0 else (i 1).val; rw [if_pos rfl])

/-- A scalar repeated over a shape. -/
theorem scalB_apply {t : Shape} (hb : S_.BroadcastsInDim t ![]) (y : S_.Idx → α) (i : t.Idx) :
    broadcastInDim t ![] hb y i = y ix0 :=
  broadcastInDim_apply _ hb y i ix0 (fun a => a.elim0)

end Bcast

/-- Every index of a matrix is a pair. -/
theorem exists_ix2 {n0 n1 : Nat} (i : (⟨2, ![n0, n1]⟩ : Shape).Idx) : ∃ (r : Fin n0) (c : Fin n1), i = ix2 r c :=
  ⟨i 0, i 1, eq_ix2 i⟩

/-! ## Stage 1: a plain dot product is the matrix product -/

theorem dot_eq_mmul {M K N : Nat} (d : DotDims ⟨2, ![M, K]⟩ ⟨2, ![K, N]⟩ ⟨2, ![M, N]⟩) (hd : PlainDot.IsPlain d)
    (A : FVec Ideal ⟨2, ![M, K]⟩ .f32) (B : FVec Ideal ⟨2, ![K, N]⟩ .f32) :
    Host.dotGeneral d none A B = mmul A B := by
  funext i
  obtain ⟨r, c, rfl⟩ := exists_ix2 i
  rw [Cert.Spec.mmul_apply]
  exact PlainDot.dotGeneral_apply d hd none _ A B r c

theorem plain1 : PlainDot.IsPlain dot_S8192x512_S512x256_S8192x256_1_0_0_1_n_n := ⟨rfl, rfl, rfl, rfl, rfl, rfl⟩
theorem plain2 : PlainDot.IsPlain dot_S8192x256_S256x128_S8192x128_1_0_0_1_n_n := ⟨rfl, rfl, rfl, rfl, rfl, rfl⟩
theorem plain3 : PlainDot.IsPlain dot_S8192x128_S128x8192_S8192x8192_1_0_0_1_n_n := ⟨rfl, rfl, rfl, rfl, rfl, rfl⟩

/-! ## Stage 2: source words that name nodes pass the wrap-around select unchanged -/

theorem select_neg_fix (x2 : Wd 262144) (hs : InRange x2) (y : IVec S262144 32) :
    select (cmpi .slt x2 (broadcastInDim S262144 ![] bcast_S_S262144 (constantI S_ 32 0#32))) y x2 = x2 := by
  funext i
  have h : 0 ≤ (x2 i).toInt := by
    have h' := (hs (i 0)).1
    have hi : (ix1 (i 0) : (⟨1, ![262144]⟩ : Shape).Idx) = i := (eq_ix1 i).symm
    rwa [hi] at h'
  have hslt : (x2 i).slt 0#32 = false := by
    show decide ((x2 i).toInt < (0#32 : BitVec 32).toInt) = false
    exact decide_eq_false (not_lt.mpr h)
  show Scalar.select (IntOp.cmpi .slt (x2 i) (broadcastInDim S262144 ![] bcast_S_S262144 (constantI S_ 32 0#32) i)) (y i) (x2 i) = x2 i
  rw [scalB_apply]
  show Scalar.select (BitVec.ofBool ((x2 i).slt 0#32)) (y i) (x2 i) = x2 i
  rw [hslt]
  exact select_zero _ _

/-! ## Stages 3 and 4: gather, weight, scatter-add is the edge-by-edge aggregation -/

theorem agg_eq {C : Nat}
    (gwf : GatherDims.WF ⟨2, ![8192, C]⟩ ⟨2, ![262144, 1]⟩ ⟨2, ![262144, C]⟩ [1] [0] [] [0] [] 1 ![1, C])
    (swf : ScatterDims.WF ⟨2, ![8192, C]⟩ ⟨2, ![262144, 1]⟩ ⟨2, ![262144, C]⟩ [1] [0] [0] 1)
    (hbc : S262144x1.BroadcastsInDim ⟨2, ![262144, C]⟩ ![0, 1])
    (hbz : S_.BroadcastsInDim ⟨2, ![8192, C]⟩ ![])
    (vals : Vc 262144) (src dst : Wd 262144) (h : Mat 8192 C) :
    Host.scatterAdd (F := Ideal) (φ := .f32) (rowS 8192 C 262144 swf)
      (broadcastInDim ⟨2, ![8192, C]⟩ ![] hbz (constant (F := Ideal) S_ .f32 0x00000000#32))
      (broadcastInDim S262144x1 ![0] bcast_S262144_S262144x1_0 dst)
      (mulf (broadcastInDim ⟨2, ![262144, C]⟩ ![0, 1] hbc (broadcastInDim S262144x1 ![0] bcast_S262144_S262144x1_0 vals))
        (Host.gather (rowG 8192 C 262144 gwf) h (broadcastInDim S262144x1 ![0] bcast_S262144_S262144x1_0 src)))
    = spmm vals src dst h := by
  funext i
  obtain ⟨n, q, rfl⟩ := exists_ix2 i
  rw [Cert.Spec.spmm_apply, rowS_scatterAdd_apply, scalB_apply, constant_apply, Ideal.ofBits_zero_f32, zero_add]
  refine Finset.sum_congr rfl fun e _ => ?_
  rw [colB_apply dst, mulf_apply, rowB_apply, colB_apply vals,
    rowG_apply_row (by decide) gwf h _ (ix2 e q) (rowOf (src (ix1 e))) (by rw [colB_apply]; rfl)]
  rfl

/-! ## Stage 5: the rectifier, the sample, the Gram matrix -/

theorem relu_eq (v : Mat 8192 256) :
    maximumf (F := Ideal) (φ := .f32) v (broadcastInDim S8192x256 ![] bcast_S_S8192x256 (constant S_ .f32 0x00000000#32))
      = relu v := by
  funext i
  rw [maximumf_apply, scalB_apply, constant_apply, Ideal.ofBits_zero_f32]
  rfl

theorem sample_eq (mean logdev eps : Mat 8192 128) :
    addf (F := Ideal) (φ := .f32) mean (mulf eps (Host.exp logdev)) = sample mean logdev eps := by
  funext i
  rfl

theorem gram_eq (z : Mat 8192 128) :
    shapeCast S67108864 (Host.dotGeneral (F := Ideal) (φ₁ := .f32) (φ₂ := .f32) dot_S8192x128_S128x8192_S8192x8192_1_0_0_1_n_n none z
      (transpose S128x8192 [1, 0] z transposes_S8192x128_S128x8192_1_0)) shapeCasts_S8192x8192_S67108864 = gram z := by
  funext i
  have h0 : (i 0).val < 67108864 := (i 0).isLt
  rw [shapeCast_apply _ shapeCasts_S8192x8192_S67108864 i
    (ix2 (⟨(i 0).val / 8192, by omega⟩ : Fin 8192) (⟨(i 0).val % 8192, by omega⟩ : Fin 8192))
    (by rewrite [Shape.rowMajor_val_two, Shape.rowMajor_val_one]
        show (i 0).val / 8192 * 8192 + (i 0).val % 8192 = (i 0).val; omega)]
  rw [dot_eq_mmul _ plain3, Cert.Spec.mmul_apply]
  unfold Cert.Spec.gram
  refine Finset.sum_congr rfl fun d _ => ?_
  rw [transpose_apply [1, 0] z transposes_S8192x128_S128x8192_1_0
    (ix2 d (⟨(i 0).val % 8192, by omega⟩ : Fin 8192)) (ix2 (⟨(i 0).val % 8192, by omega⟩ : Fin 8192) d)
    (fun b => match b with
      | ⟨0, _⟩ => rfl
      | ⟨1, _⟩ => rfl)]

/-! ## The stages chained -/

section Stages
variable (x0 : Mat 8192 512) (x1 : Vc 262144) (x2 x3 : Wd 262144) (x4 : Mat 512 256) (x5 x6 : Mat 256 128)
  (x7 : Mat 8192 128)

theorem v13_eq (hs : InRange x2) : val_main_v13 (F := Ideal) x0 x1 x2 x3 x4 = spmm x1 x2 x3 (mmul x0 x4) := by
  have e0 : val_main_v0 (F := Ideal) x0 x4 = mmul x0 x4 := dot_eq_mmul _ plain1 x0 x4
  have e6 : val_main_v6 (F := Ideal) x2 = x2 := select_neg_fix x2 hs _
  unfold val_main_v13 val_main_v11 val_main_cst val_main_v12 val_main_v10 val_main_v9 val_main_v1 val_main_v8 val_main_v7
  rw [e0, e6]
  exact agg_eq _ _ _ _ x1 x2 x3 (mmul x0 x4)

theorem v14_eq (hs : InRange x2) : val_main_v14 (F := Ideal) x0 x1 x2 x3 x4 = layerS x0 x1 x2 x3 x4 := by
  unfold val_main_v14 val_main_call0_v0 val_main_call0_cst
  rw [v13_eq x0 x1 x2 x3 x4 hs]
  exact relu_eq _

theorem v28_eq (hs : InRange x2) : val_main_v28 (F := Ideal) x0 x1 x2 x3 x4 x5 = meanS x0 x1 x2 x3 x4 x5 := by
  have e15 : val_main_v15 (F := Ideal) x0 x1 x2 x3 x4 x5 = mmul (layerS x0 x1 x2 x3 x4) x5 := by
    unfold val_main_v15
    rw [v14_eq x0 x1 x2 x3 x4 hs]
    exact dot_eq_mmul _ plain2 _ _
  have e21 : val_main_v21 (F := Ideal) x2 = x2 := select_neg_fix x2 hs _
  unfold val_main_v28 val_main_v26 val_main_cst_3 val_main_v27 val_main_v25 val_main_v24 val_main_v16 val_main_v23 val_main_v22
  rw [e15, e21]
  exact agg_eq _ _ _ _ x1 x2 x3 _

theorem v42_eq (hs : InRange x2) : val_main_v42 (F := Ideal) x0 x1 x2 x3 x4 x6 = logdevS x0 x1 x2 x3 x4 x6 := by
  have e29 : val_main_v29 (F := Ideal) x0 x1 x2 x3 x4 x6 = mmul (layerS x0 x1 x2 x3 x4) x6 := by
    unfold val_main_v29
    rw [v14_eq x0 x1 x2 x3 x4 hs]
    exact dot_eq_mmul _ plain2 _ _
  have e35 : val_main_v35 (F := Ideal) x2 = x2 := select_neg_fix x2 hs _
  unfold val_main_v42 val_main_v40 val_main_cst_6 val_main_v41 val_main_v39 val_main_v38 val_main_v30 val_main_v37 val_main_v36
  rw [e29, e35]
  exact agg_eq _ _ _ _ x1 x2 x3 _

theorem v48_eq (hs : InRange x2) :
    val_main_v48 (F := Ideal) x0 x1 x2 x3 x4 x5 x6 x7 = reconS x0 x1 x2 x3 x4 x5 x6 x7 := by
  have e45 : val_main_v45 (F := Ideal) x0 x1 x2 x3 x4 x5 x6 x7
      = sample (meanS x0 x1 x2 x3 x4 x5) (logdevS x0 x1 x2 x3 x4 x6) x7 := by
    unfold val_main_v45 val_main_v44 val_main_v43
    rw [v28_eq x0 x1 x2 x3 x4 x5 hs, v42_eq x0 x1 x2 x3 x4 x6 hs]
    exact sample_eq _ _ _
  unfold val_main_v48 val_main_v47 val_main_v46
  rw [e45]
  exact gram_eq _

end Stages

/-! ## The run -/

/-- From any memory whose source and destination words name nodes, every weakly fair execution of the reference program
    terminates with its three results at the edge-by-edge functions of the arguments, the arguments unchanged. -/
theorem run (m : (ℓ : Loc nD τ sig) → Buf (Elt Ideal) ℓ) (ρ : Dev nD → PrngReg)
    (hs : ∀ c : Dev nD, InRange (m ((c.tc : Thread nD τ).loc main_arg2) : Wd 262144))
    (hd : ∀ c : Dev nD, InRange (m ((c.tc : Thread nD τ).loc main_arg3) : Wd 262144)) :
    θ_run (defs (F := Ideal)) (onTc (τ := τ) (main (F := Ideal))) ⟨m, fun _ => 0, ρ⟩ fun r => ∀ c : Dev nD,
      r.2.mem ((c.tc : Thread nD τ).loc main_v48) = reconS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28) = meanS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v42) = logdevS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.trans ((val_main_v48_eq m c).trans (v48_eq _ _ _ _ _ _ _ _ (hs c))),
      (h c).2.1.trans ((val_main_v28_eq _ _ _ _ _ _).trans (v28_eq _ _ _ _ _ _ (hs c))),
      (h c).2.2.1.trans ((val_main_v42_eq _ _ _ _ _ _).trans (v42_eq _ _ _ _ _ _ (hs c))),
      (h c).2.2.2⟩)
    (Cert.ReferenceIdeal.Value.run (F := Ideal) m ρ)

end Cert.ReferenceIdeal.RefValue

end
-- ==== Proof.PreDecode.lean ====
/-
  The precondition read back.  The printed predicate is a conjunction of eight "all" reductions: the absolute value of
  every entry of each of the six float inputs is below +∞, and every word of the two node-number vectors is at least 0 and
  below 8192, read signed.  An extended real whose absolute value is below +∞ is neither +∞ nor −∞, hence a real number;
  a word compared signed against 0 and against 8192 has its signed value in [0, 8192).
-/
import proofs.«423324_j76630806495674_3_alg».proof.Pre_finite_inputs
import proofs.«423324_j76630806495674_3_alg».proof.Proof.Spec
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx
open Cert.Pre_finite_inputs

/-- The rank-0 shape has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max(a, −a) is below +∞ is a real number: at +∞ the absolute value is +∞,
    at −∞ it is +∞ too, and +∞ is not below itself. -/
theorem real_of_abs_lt (a : EReal) (h : Ideal.cmp .olt (max a (-a)) (Ideal.ofBits .f32 0x7F800000#32) = 1#1) :
    ∃ r : ℝ, a = (r : EReal) := by
  rw [inf_eq_top] at h
  induction a using EReal.rec with
  | bot => simp [Ideal.cmp] at h
  | coe r => exact ⟨r, rfl⟩
  | top => simp [Ideal.cmp] at h

/-- One float "all" reduction read back: every entry of the array is a real number. -/
theorem real_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf a) (broadcastInDim s ![] hb (constant S_ .f32 0x7F800000#32))) init hr hu ix0 = 1#1)
    (i : s.Idx) : ∃ r : ℝ, a i = (r : EReal) :=
  real_of_abs_lt (a i) (Host.reduce_andi_all _ init hr hu ix0 e i)

/-- One "at least zero" reduction read back. -/
theorem nonneg_of_all (w : IVec S262144 32) (hb : S_.BroadcastsInDim S262144 (![] : Fin 0 → Fin S262144.rank))
    {axes : List (Fin S262144.rank)} (hr : S262144.ReducesTo axes S_) (hu : 0 < S_.numel) (init : IVec S_ 1)
    (e : Host.reduce IntOp.andi (cmpi .sge w (broadcastInDim S262144 ![] hb (constantI S_ 32 0#32))) init hr hu ix0 = 1#1)
    (i : S262144.Idx) : 0 ≤ (w i).toInt := by
  have h := Host.reduce_andi_all _ init hr hu ix0 e i
  have h' : IntOp.cmpi .sge (w i) 0#32 = 1#1 := h
  rw [IntOp.cmpi_sge] at h'
  simpa using h'

/-- One "below 8192" reduction read back. -/
theorem lt_of_all (w : IVec S262144 32) (hb : S_.BroadcastsInDim S262144 (![] : Fin 0 → Fin S262144.rank))
    {axes : List (Fin S262144.rank)} (hr : S262144.ReducesTo axes S_) (hu : 0 < S_.numel) (init : IVec S_ 1)
    (e : Host.reduce IntOp.andi (cmpi .slt w (broadcastInDim S262144 ![] hb (constantI S_ 32 8192#32))) init hr hu ix0 = 1#1)
    (i : S262144.Idx) : (w i).toInt < 8192 := by
  have h := Host.reduce_andi_all _ init hr hu ix0 e i
  have h' : IntOp.cmpi .slt (w i) 8192#32 = 1#1 := h
  rw [IntOp.cmpi_slt] at h'
  have e8 : (8192#32 : BitVec 32).toInt = 8192 := by decide
  rw [e8] at h'
  exact h'

/-- THE PRECONDITION DECODED: the six float inputs are real-valued and both node-number vectors name nodes. -/
theorem of_pre [Cert.Pre_finite_inputs.Facts]
    (x : FVec Ideal Cert.Pre_finite_inputs.S8192x512 .f32) (vals : FVec Ideal Cert.Pre_finite_inputs.S262144 .f32)
    (src dst : IVec Cert.Pre_finite_inputs.S262144 32) (w1 : FVec Ideal Cert.Pre_finite_inputs.S512x256 .f32)
    (wm wl : FVec Ideal Cert.Pre_finite_inputs.S256x128 .f32) (eps : FVec Ideal Cert.Pre_finite_inputs.S8192x128 .f32)
    (h : Cert.Pre_finite_inputs.fn (F := Ideal) x vals src dst w1 wm wl eps = fun _ => 1#1) :
    Cert.Spec.Real2 (x : Cert.Spec.Mat 8192 512) ∧ Cert.Spec.Real1 (vals : Cert.Spec.Vc 262144)
    ∧ Cert.Spec.InRange (src : Cert.Spec.Wd 262144) ∧ Cert.Spec.InRange (dst : Cert.Spec.Wd 262144)
    ∧ Cert.Spec.Real2 (w1 : Cert.Spec.Mat 512 256) ∧ Cert.Spec.Real2 (wm : Cert.Spec.Mat 256 128)
    ∧ Cert.Spec.Real2 (wl : Cert.Spec.Mat 256 128) ∧ Cert.Spec.Real2 (eps : Cert.Spec.Mat 8192 128) := by
  have e := congrFun h ix0
  dsimp only [fn, fn_part1, fn_part2] at e
  simp only [andi, IntOp.andi_eq_one] at e
  obtain ⟨⟨⟨⟨⟨⟨⟨⟨⟨hx, hv⟩, hw1⟩, hwm⟩, hwl⟩, heps⟩, hs0⟩, hs1⟩, hd0⟩, hd1⟩ := e
  refine ⟨fun i => real_of_all x _ _ _ _ hx i, fun i => real_of_all vals _ _ _ _ hv i,
    fun k => ⟨nonneg_of_all src _ _ _ _ hs0 (ix1 k), lt_of_all src _ _ _ _ hs1 (ix1 k)⟩,
    fun k => ⟨nonneg_of_all dst _ _ _ _ hd0 (ix1 k), lt_of_all dst _ _ _ _ hd1 (ix1 k)⟩,
    fun i => real_of_all w1 _ _ _ _ hw1 i, fun i => real_of_all wm _ _ _ _ hwm i,
    fun i => real_of_all wl _ _ _ _ hwl i, fun i => real_of_all eps _ _ _ _ heps i⟩

end Cert.PreDecode

end
-- ==== Proof.Algebra.lean ====
/-
  The dense aggregation and the edge-by-edge aggregation agree on real data.

  The dense side multiplies by the matrix whose entry (n, s) is the sum of the values of the edges from s to n; the other
  side sums, over the edges arriving at n, the value times the source's row.  Joining them needs distributivity
  (Σ_e a_e) · b = Σ_e a_e · b and an exchange of two finite sums.  Neither holds on the extended reals at the infinities,
  so the identity is proved on ℝ and carried over: every matrix met on the way has real entries, because finite sums,
  products, maxima with zero and case splits of real numbers are real.
-/
import proofs.«423324_j76630806495674_3_alg».proof.Proof.Spec
import Mathlib.Data.EReal.Basic
import Mathlib.Algebra.BigOperators.Ring.Finset

noncomputable section

namespace Cert.Spec

open Idealize.ShloMosaic Idealize.ShloMosaic.ValueIdx

/-! ## Real numbers inside the extended reals -/

/-- An extended real that is a real number. -/
def IsR (x : EReal) : Prop := ∃ r : ℝ, x = (r : EReal)

theorem isR_zero : IsR 0 := ⟨0, rfl⟩

theorem isR_mul {x y : EReal} (hx : IsR x) (hy : IsR y) : IsR (x * y) := by
  obtain ⟨a, rfl⟩ := hx
  obtain ⟨b, rfl⟩ := hy
  exact ⟨a * b, (EReal.coe_mul a b).symm⟩

theorem isR_ite {p : Prop} [Decidable p] {x y : EReal} (hx : IsR x) (hy : IsR y) : IsR (if p then x else y) := by
  split
  · exact hx
  · exact hy

theorem isR_max_zero {x : EReal} (hx : IsR x) : IsR (max x 0) := by
  obtain ⟨a, rfl⟩ := hx
  exact ⟨max a 0, (EReal.coe_strictMono.monotone.map_max (a := a) (b := 0))⟩

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type*} [Fintype ι] {f : ι → EReal} (hf : ∀ i, IsR (f i)) : IsR (∑ i, f i) := by
  choose g hg using hf
  refine ⟨∑ i, g i, ?_⟩
  rw [coe_sum]
  exact Finset.sum_congr rfl (fun i _ => hg i)

/-! ## The aggregation identity over abstract finite index sets -/

/-- On ℝ: multiplying by the dense matrix is the edge-by-edge sum. -/
theorem agg_real {E N : Type*} [Fintype E] [Fintype N] [DecidableEq N] (P : E → Prop) [DecidablePred P]
    (v : E → ℝ) (src : E → N) (h : N → ℝ) :
    ∑ s, (∑ e, if P e ∧ src e = s then v e else 0) * h s = ∑ e, if P e then v e * h (src e) else 0 := by
  simp only [Finset.sum_mul]
  rw [Finset.sum_comm]
  refine Finset.sum_congr rfl (fun e _ => ?_)
  by_cases hP : P e
  · simp [hP, ite_mul]
  · simp [hP]

/-- The same on the extended reals, for real data. -/
theorem agg_ereal {E N : Type*} [Fintype E] [Fintype N] [DecidableEq N] (P : E → Prop) [DecidablePred P]
    (v : E → EReal) (src : E → N) (h : N → EReal) (hv : ∀ e, IsR (v e)) (hh : ∀ s, IsR (h s)) :
    ∑ s, (∑ e, if P e ∧ src e = s then v e else 0) * h s = ∑ e, if P e then v e * h (src e) else 0 := by
  choose v' hv' using hv
  choose h' hh' using hh
  have key := congrArg (fun r : ℝ => (r : EReal)) (agg_real P v' src h')
  simp only [coe_sum, EReal.coe_mul, apply_ite (fun r : ℝ => (r : EReal)), EReal.coe_zero] at key
  simpa only [hv', hh'] using key

/-! ## Matrices with real entries -/

theorem real2_mmul {a k b : Nat} {X : Mat a k} {Y : Mat k b} (hX : Real2 X) (hY : Real2 Y) : Real2 (mmul X Y) :=
  fun _ => isR_sum (fun _ => isR_mul (hX _) (hY _))

theorem real2_relu {a b : Nat} {X : Mat a b} (hX : Real2 X) : Real2 (relu X) :=
  fun _ => isR_max_zero (hX _)

theorem real2_spmm {c : Nat} {vals : Vc 262144} (src dst : Wd 262144) {h : Mat 8192 c} (hv : Real1 vals) (hh : Real2 h) :
    Real2 (spmm vals src dst h) :=
  fun _ => isR_sum (fun _ => isR_ite (isR_mul (hv _) (hh _)) isR_zero)

/-! ## The word of a node in range names that node -/

theorem toInt_eq_iff_rowOf (b : BitVec 32) (h0 : 0 ≤ b.toInt) (h1 : b.toInt < 8192) (s : Fin 8192) :
    b.toInt = (s.val : Int) ↔ rowOf b = s := by
  unfold rowOf
  rw [Fin.ext_iff]
  simp only
  have := s.isLt
  omega

/-- Multiplying by the dense adjacency matrix is aggregating edge by edge. -/
theorem agg_eq {c : Nat} (vals : Vc 262144) (src dst : Wd 262144) (h : Mat 8192 c)
    (hv : Real1 vals) (hs : InRange src) (hh : Real2 h) :
    mmul (dense vals src dst) h = spmm vals src dst h := by
  funext i
  obtain ⟨n, q, rfl⟩ : ∃ n q, i = ix2 n q := ⟨i 0, i 1, eq_ix2 i⟩
  rw [mmul_apply, spmm_apply]
  simp only [dense_apply]
  have step : ∀ s : Fin 8192,
      (∑ e : Fin 262144, if (dst (ix1 e)).toInt = (n.val : Int) ∧ (src (ix1 e)).toInt = (s.val : Int) then vals (ix1 e) else 0)
        = ∑ e : Fin 262144, if (dst (ix1 e)).toInt = (n.val : Int) ∧ rowOf (src (ix1 e)) = s then vals (ix1 e) else 0 :=
    fun s => Finset.sum_congr rfl (fun e _ =>
      if_congr (and_congr Iff.rfl (toInt_eq_iff_rowOf _ (hs e).1 (hs e).2 s)) rfl rfl)
  simp only [step]
  exact agg_ereal (fun e => (dst (ix1 e)).toInt = (n.val : Int)) (fun e => vals (ix1 e))
    (fun e => rowOf (src (ix1 e))) (fun s => h (ix2 s q)) (fun e => hv _) (fun s => hh _)

/-! ## The two heads are the two halves of the columns -/

theorem wcat_left (wm wl : Mat 256 128) (k : Fin 256) (d : Fin 128) :
    wcat wm wl (ix2 k ⟨d.val, by have := d.isLt; omega⟩) = wm (ix2 k d) := by
  show (if h : d.val < 128 then wm (ix2 k ⟨d.val, h⟩) else _) = _
  rw [dif_pos d.isLt]

theorem wcat_right (wm wl : Mat 256 128) (k : Fin 256) (d : Fin 128) :
    wcat wm wl (ix2 k ⟨d.val + 128, by have := d.isLt; omega⟩) = wl (ix2 k d) := by
  show (if h : d.val + 128 < 128 then _ else wl (ix2 k ⟨d.val + 128 - 128, _⟩)) = _
  rw [dif_neg (by omega)]
  exact congrArg (fun j : Fin 128 => wl (ix2 k j)) (Fin.ext (Nat.add_sub_cancel d.val 128))

theorem leftHalf_heads (A : Mat 8192 8192) (R : Mat 8192 256) (wm wl : Mat 256 128) :
    leftHalf (mmul A (mmul R (wcat wm wl))) = mmul A (mmul R wm) := by
  funext i
  obtain ⟨n, d, rfl⟩ : ∃ n d, i = ix2 n d := ⟨i 0, i 1, eq_ix2 i⟩
  show mmul A (mmul R (wcat wm wl)) (ix2 n ⟨d.val, _⟩) = mmul A (mmul R wm) (ix2 n d)
  rw [mmul_apply, mmul_apply]
  refine Finset.sum_congr rfl (fun s _ => ?_)
  rw [mmul_apply, mmul_apply]
  exact congrArg (fun t => A (ix2 n s) * t) (Finset.sum_congr rfl (fun k _ => by rw [wcat_left]))

theorem rightHalf_heads (A : Mat 8192 8192) (R : Mat 8192 256) (wm wl : Mat 256 128) :
    rightHalf (mmul A (mmul R (wcat wm wl))) = mmul A (mmul R wl) := by
  funext i
  obtain ⟨n, d, rfl⟩ : ∃ n d, i = ix2 n d := ⟨i 0, i 1, eq_ix2 i⟩
  show mmul A (mmul R (wcat wm wl)) (ix2 n ⟨d.val + 128, _⟩) = mmul A (mmul R wl) (ix2 n d)
  rw [mmul_apply, mmul_apply]
  refine Finset.sum_congr rfl (fun s _ => ?_)
  rw [mmul_apply, mmul_apply]
  exact congrArg (fun t => A (ix2 n s) * t) (Finset.sum_congr rfl (fun k _ => by rw [wcat_right]))

/-! ## The three equalities -/

theorem mean_eq (x : Mat 8192 512) (vals : Vc 262144) (src dst : Wd 262144) (w1 : Mat 512 256) (wm wl : Mat 256 128)
    (hx : Real2 x) (hv : Real1 vals) (hs : InRange src) (hd : InRange dst) (hw1 : Real2 w1) (hwm : Real2 wm) (hwl : Real2 wl) :
    meanD x vals src dst w1 wm wl = meanS x vals src dst w1 wm := by
  unfold meanD headsD meanS layerS
  rw [leftHalf_heads, agg_eq vals src dst (mmul x w1) hv hs (real2_mmul hx hw1)]
  exact agg_eq vals src dst _ hv hs
    (real2_mmul (real2_relu (real2_spmm src dst hv (real2_mmul hx hw1))) hwm)

theorem logdev_eq (x : Mat 8192 512) (vals : Vc 262144) (src dst : Wd 262144) (w1 : Mat 512 256) (wm wl : Mat 256 128)
    (hx : Real2 x) (hv : Real1 vals) (hs : InRange src) (hd : InRange dst) (hw1 : Real2 w1) (hwm : Real2 wm) (hwl : Real2 wl) :
    logdevD x vals src dst w1 wm wl = logdevS x vals src dst w1 wl := by
  unfold logdevD headsD logdevS layerS
  rw [rightHalf_heads, agg_eq vals src dst (mmul x w1) hv hs (real2_mmul hx hw1)]
  exact agg_eq vals src dst _ hv hs
    (real2_mmul (real2_relu (real2_spmm src dst hv (real2_mmul hx hw1))) hwl)

theorem recon_eq (x : Mat 8192 512) (vals : Vc 262144) (src dst : Wd 262144) (w1 : Mat 512 256) (wm wl : Mat 256 128)
    (eps : Mat 8192 128)
    (hx : Real2 x) (hv : Real1 vals) (hs : InRange src) (hd : InRange dst) (hw1 : Real2 w1) (hwm : Real2 wm) (hwl : Real2 wl) :
    reconD x vals src dst w1 wm wl eps = reconS x vals src dst w1 wm wl eps := by
  unfold reconD reconS
  rw [mean_eq x vals src dst w1 wm wl hx hv hs hd hw1 hwm hwl, logdev_eq x vals src dst w1 wm wl hx hv hs hd hw1 hwm hwl]

end Cert.Spec

end
-- ==== Proof.lean ====
/-
  A two-layer graph encoder with a Gram-matrix decoder, computed two ways.

  The kernel program lays the 262144 weighted edges out as a dense 8192 × 8192 adjacency matrix (a scatter-add at the flat
  position destination · 8192 + source) and then runs four grid regions: x · w1; relu(A · h) · [w_mean | w_logstd], the
  sum over the column blocks of A carried in an accumulator; A · (that), again accumulated, whose left half is the mean,
  right half the log-deviation, with the sample mean + eps · exp(log-deviation); and the Gram matrix of the samples.
  The reference aggregates edge by edge: gather the source rows, scale by the edge values, scatter-add at the destinations.

  On the extended reals the two agree when every float input is a real number and every source and destination names a
  node: then the dense matrix's entry (n, s) is the sum of the values of the edges from s to n, and distributing the row
  of A over the features (valid because everything in sight is real) regroups A · h into the edge-by-edge sum.  Outside
  that range the reference itself indexes out of range (its gather clamps, its scatter drops), so the range is part of
  the stated domain.  Nothing was rewritten by the idealization, so the preservation claim is trivial.  The three frames
  come from the programs' runs: the kernel's from its steps (host operations and regions in order, each region's body
  run once per grid point under an invariant carrying the accumulator), the reference's from its operations' composed run.
-/
import proofs.«423324_j76630806495674_3_alg».proof.Defs
import proofs.«423324_j76630806495674_3_alg».proof.Proof.Gen.Kernel
import proofs.«423324_j76630806495674_3_alg».proof.Proof.Gen.KernelIdeal
import proofs.«423324_j76630806495674_3_alg».proof.Proof.Gen.ReferenceIdeal
import proofs.«423324_j76630806495674_3_alg».proof.Proof.Gen.Pre_finite_inputs
import proofs.«423324_j76630806495674_3_alg».proof.Proof.KRun
import proofs.«423324_j76630806495674_3_alg».proof.Proof.KIRun
import proofs.«423324_j76630806495674_3_alg».proof.Proof.KIFinal
import proofs.«423324_j76630806495674_3_alg».proof.Proof.RefValue
import proofs.«423324_j76630806495674_3_alg».proof.Proof.PreDecode
import proofs.«423324_j76630806495674_3_alg».proof.Proof.Algebra

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Run.frame (F := Bits) m ρ

/-- So does the idealized kernel. -/
theorem frame_ki : Cert.frame_KernelIdeal := fun m ρ _ => Cert.KernelIdeal.Run.frame (F := Ideal) m ρ

/-- The reference is a straight line of host operations: its composed run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Both programs end with the same mean, log-deviation and Gram matrix. -/
theorem algebraic : Cert.algebraic_KernelIdeal_ReferenceIdeal := by
  intro m ρ m' ρ' hpre hagree
  have hp := fun c : Dev Cert.KernelIdeal.nD => Cert.PreDecode.of_pre _ _ _ _ _ _ _ _ (hpre c)
  have hs : ∀ c : Dev Cert.KernelIdeal.nD, Cert.Spec.InRange ((m ((c.tc : Thread Cert.KernelIdeal.nD Cert.KernelIdeal.τ).loc Cert.KernelIdeal.main_arg2)) : Cert.Spec.Wd 262144) := fun c => (hp c).2.2.1
  have hd : ∀ c : Dev Cert.KernelIdeal.nD, Cert.Spec.InRange ((m ((c.tc : Thread Cert.KernelIdeal.nD Cert.KernelIdeal.τ).loc Cert.KernelIdeal.main_arg3)) : Cert.Spec.Wd 262144) := fun c => (hp c).2.2.2.1
  refine ⟨fun c => Cert.Spec.reconD (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.meanD (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.logdevD (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c =>
      ⟨(h c).1.trans (Cert.KernelIdeal.Final.recon_at m c (hs c) (hd c)),
        (h c).2.1.trans (Cert.KernelIdeal.Final.mean_at m c (hs c) (hd c)),
        (h c).2.2.1.trans (Cert.KernelIdeal.Final.logdev_at m c (hs c) (hd c)), (h c).2.2.2⟩)
      (Cert.KernelIdeal.Run.run_read (F := Ideal) m ρ)
  · have hs' : ∀ c : Dev Cert.ReferenceIdeal.nD, Cert.Spec.InRange ((m' ((c.tc : Thread Cert.ReferenceIdeal.nD Cert.ReferenceIdeal.τ).loc Cert.ReferenceIdeal.main_arg2)) : Cert.Spec.Wd 262144) := fun c => by
      rw [(hagree c).2.2.1]; exact hs c
    have hd' : ∀ c : Dev Cert.ReferenceIdeal.nD, Cert.Spec.InRange ((m' ((c.tc : Thread Cert.ReferenceIdeal.nD Cert.ReferenceIdeal.τ).loc Cert.ReferenceIdeal.main_arg3)) : Cert.Spec.Wd 262144) := fun c => by
      rw [(hagree c).2.2.2.1]; exact hd c
    refine (θ_run Cert.ReferenceIdeal.defs _ _).mono (fun _ h c => ⟨(h c).1.trans ?_, (h c).2.1.trans ?_, (h c).2.2.1.trans ?_, (h c).2.2.2⟩)
      (Cert.ReferenceIdeal.RefValue.run m' ρ' hs' hd')
    · rw [(hagree c).1, (hagree c).2.1, (hagree c).2.2.1, (hagree c).2.2.2.1, (hagree c).2.2.2.2.1, (hagree c).2.2.2.2.2.1,
        (hagree c).2.2.2.2.2.2.1, (hagree c).2.2.2.2.2.2.2]
      exact (Cert.Spec.recon_eq _ _ _ _ _ _ _ _ (hp c).1 (hp c).2.1 (hs c) (hd c) (hp c).2.2.2.2.1 (hp c).2.2.2.2.2.1 (hp c).2.2.2.2.2.2.1).symm
    · rw [(hagree c).1, (hagree c).2.1, (hagree c).2.2.1, (hagree c).2.2.2.1, (hagree c).2.2.2.2.1, (hagree c).2.2.2.2.2.1]
      exact (Cert.Spec.mean_eq _ _ _ _ _ _ _ (hp c).1 (hp c).2.1 (hs c) (hd c) (hp c).2.2.2.2.1 (hp c).2.2.2.2.2.1 (hp c).2.2.2.2.2.2.1).symm
    · rw [(hagree c).1, (hagree c).2.1, (hagree c).2.2.1, (hagree c).2.2.2.1, (hagree c).2.2.2.2.1, (hagree c).2.2.2.2.2.2.1]
      exact (Cert.Spec.logdev_eq _ _ _ _ _ _ _ (hp c).1 (hp c).2.1 (hs c) (hd c) (hp c).2.2.2.2.1 (hp c).2.2.2.2.2.1 (hp c).2.2.2.2.2.2.1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
